-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x384 : Shape := ⟨3, ![8, 2048, 384]⟩
abbrev S384x64 : Shape := ⟨2, ![384, 64]⟩
abbrev S_ : Shape := ⟨0, ![]⟩

class Facts : Prop where
  bcast_S_S8x2048x384 : S_.BroadcastsInDim S8x2048x384 (![] : Fin 0 → Fin S8x2048x384.rank)
  reducesTo_S8x2048x384_S_d0_1_2 : S8x2048x384.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_

variable [Facts]

def fn_part1 {F : FTy → Type} [FloatOps F] (main_v13 : IVec S_ 1) (main_v16 : IVec S384x64 1) : IVec S_ 1 :=
  let main_c_5 : IVec S_ 1 := constantI S_ 1 1#1
  let main_v17 : IVec S_ 1 := (fun x v => Host.reduce IntOp.andi x v reducesTo_S384x64_S_d0_1 h_S_) main_v16 main_c_5
  let main_v18 : IVec S_ 1 := andi main_v13 main_v17
  main_v18

def fn {F : FTy → Type} [FloatOps F] (main_arg0 : FVec F S8x2048x384 .f32) (main_arg1 : FVec F S384x64 .f32) (main_arg2 : FVec F S384x64 .f32) (main_arg3 : FVec F S384x64 .f32) : IVec S_ 1 :=
  let main_v0 : FVec F S8x2048x384 .f32 := Host.absf main_arg0
  let main_cst : FVec F S_ .f32 := constant S_ .f32 0x7F800000#32
  let main_v1 : FVec F S8x2048x384 .f32 := broadcastInDim S8x2048x384 ![] bcast_S_S8x2048x384 main_cst
  let main_v2 : IVec S8x2048x384 1 := cmpf .olt main_v0 main_v1
  let main_c : IVec S_ 1 := constantI S_ 1 1#1
  let main_v3 : IVec S_ 1 := (fun x v => Host.reduce IntOp.andi x v reducesTo_S8x2048x384_S_d0_1_2 h_S_) main_v2 main_c
  let main_v4 : FVec F S384x64 .f32 := Host.absf main_arg1
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S384x64 .f32 := Host.absf main_arg3
  let main_cst_4 : FVec F S_ .f32 := constant S_ .f32 0x7F800000#32
  let main_v15 : FVec F S384x64 .f32 := broadcastInDim S384x64 ![] bcast_S_S384x64 main_cst_4
  let main_v16 : IVec S384x64 1 := cmpf .olt main_v14 main_v15
  fn_part1 (F := F) main_v13 main_v16
-- ==== Kernel.lean ====
abbrev S8x2048x384 : Shape := ⟨3, ![8, 2048, 384]⟩
abbrev S384x64 : Shape := ⟨2, ![384, 64]⟩
abbrev S8x2048x64 : Shape := ⟨3, ![8, 2048, 64]⟩
abbrev S1x2048x384 : Shape := ⟨3, ![1, 2048, 384]⟩
abbrev S1x2048x64 : Shape := ⟨3, ![1, 2048, 64]⟩
abbrev S2048x64 : Shape := ⟨2, ![2048, 64]⟩
abbrev S2048x512 : Shape := ⟨2, ![2048, 512]⟩
abbrev S1x512 : Shape := ⟨2, ![1, 512]⟩
abbrev S2048x384 : Shape := ⟨2, ![2048, 384]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512x64 : Shape := ⟨3, ![1, 512, 64]⟩

abbrev nBuf : Space → Nat
  | .hbm => 5
  | .vmem => 14
  | .smem => 0
  | _ => 0

abbrev bufTy : (tb : Table) → Fin (tcTables nBuf tb) → BufTy
  | .hbm, ⟨0, _⟩ => ⟨S8x2048x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S8x2048x64, .f32⟩
  | .local _ .vmem, ⟨0, _⟩ => ⟨S1x2048x384, .f32⟩
  | .local _ .vmem, ⟨1, _⟩ => ⟨S1x2048x384, .f32⟩
  | .local _ .vmem, ⟨2, _⟩ => ⟨S384x64, .f32⟩
  | .local _ .vmem, ⟨3, _⟩ => ⟨S384x64, .f32⟩
  | .local _ .vmem, ⟨4, _⟩ => ⟨S384x64, .f32⟩
  | .local _ .vmem, ⟨5, _⟩ => ⟨S1x2048x64, .f32⟩
  | .local _ .vmem, ⟨6, _⟩ => ⟨S1x2048x64, .f32⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | .local _ .vmem, ⟨10, _⟩ => ⟨S2048x512, .f32⟩
  | .local _ .vmem, ⟨11, _⟩ => ⟨S2048x512, .bf16⟩
  | .local _ .vmem, ⟨12, _⟩ => ⟨S1x512, .f32⟩
  | .local _ .vmem, ⟨13, _⟩ => ⟨S1x512, .f32⟩
  | _, _ => ⟨S8x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond10 (i : grid0.Coords) : BitVec 1 :=
  let arg1 : BitVec 32 := BitVec.ofNat 32 (i 1).val
  let c0_i32_22 : BitVec 32 := 0#32
  let v49 : BitVec 1 := Scalar.cmpi .sle arg1 c0_i32_22
  let v50 : BitVec 32 := Scalar.extui v49
  let c0_i32_23 : BitVec 32 := 0#32
  let v51 : BitVec 1 := Scalar.cmpi .ne v50 c0_i32_23
  v51

def k0_cond11 (i : grid0.Coords) : BitVec 1 :=
  let arg1 : BitVec 32 := BitVec.ofNat 32 (i 1).val
  let c1_i32_24 : BitVec 32 := 1#32
  let v52 : BitVec 1 := Scalar.cmpi .sle arg1 c1_i32_24
  let v53 : BitVec 32 := Scalar.extui v52
  let c0_i32_25 : BitVec 32 := 0#32
  let v54 : BitVec 1 := Scalar.cmpi .ne v53 c0_i32_25
  v54

def k0_cond12 (i : grid0.Coords) : BitVec 1 :=
  let arg1 : BitVec 32 := BitVec.ofNat 32 (i 1).val
  let c2_i32_26 : BitVec 32 := 2#32
  let v55 : BitVec 1 := Scalar.cmpi .sle arg1 c2_i32_26
  let v56 : BitVec 32 := Scalar.extui v55
  let c0_i32_27 : BitVec 32 := 0#32
  let v57 : BitVec 1 := Scalar.cmpi .ne v56 c0_i32_27
  v57

def k0_cond13 (i : grid0.Coords) : BitVec 1 :=
  let arg1 : BitVec 32 := BitVec.ofNat 32 (i 1).val
  let c3_i32_28 : BitVec 32 := 3#32
  let v58 : BitVec 1 := Scalar.cmpi .sle arg1 c3_i32_28
  let v59 : BitVec 32 := Scalar.extui v58
  let c0_i32_29 : BitVec 32 := 0#32
  let v60 : BitVec 1 := Scalar.cmpi .ne v59 c0_i32_29
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  h_S512x64 : 0 < S512x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  inb_S2048x64_S512x64_0_0 : ∀ a, (![0, 0] : Fin 2 → Nat) a + S512x64.size a ≤ S2048x64.size a
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  reduces_S512x512_S512 : S512x512.Reduces [0] S512
  shapeCasts_S512_S1x512 : S512.ShapeCasts S1x512
  inb_S2048x64_S512x64_512_0 : ∀ a, (![512, 0] : Fin 2 → Nat) a + S512x64.size a ≤ S2048x64.size a
  inb_S2048x512_S512x512_512_0 : ∀ a, (![512, 0] : Fin 2 → Nat) a + S512x512.size a ≤ S2048x512.size a
  inb_S2048x64_S512x64_1024_0 : ∀ a, (![1024, 0] : Fin 2 → Nat) a + S512x64.size a ≤ S2048x64.size a
  inb_S2048x512_S512x512_1024_0 : ∀ a, (![1024, 0] : Fin 2 → Nat) a + S512x512.size a ≤ S2048x512.size a
  inb_S2048x64_S512x64_1536_0 : ∀ a, (![1536, 0] : Fin 2 → Nat) a + S512x64.size a ≤ S2048x64.size a
  inb_S2048x512_S512x512_1536_0 : ∀ a, (![1536, 0] : Fin 2 → Nat) a + S512x512.size a ≤ S2048x512.size a
  broadcasts_S1x512_S512x512 : S1x512.Broadcasts S512x512
  packedbf16_S2048x512_S512x512_0_0 : (Rect.unit (s := S2048x512) ![0, 0] S512x512.size inb_S2048x512_S512x512_0_0).PackedRows (EltTy.packing .bf16)
  packedbf16_S2048x512_S512x512_512_0 : (Rect.unit (s := S2048x512) ![512, 0] S512x512.size inb_S2048x512_S512x512_512_0).PackedRows (EltTy.packing .bf16)
  packedbf16_S2048x512_S512x512_1024_0 : (Rect.unit (s := S2048x512) ![1024, 0] S512x512.size inb_S2048x512_S512x512_1024_0).PackedRows (EltTy.packing .bf16)
  packedbf16_S2048x512_S512x512_1536_0 : (Rect.unit (s := S2048x512) ![1536, 0] S512x512.size inb_S2048x512_S512x512_1536_0).PackedRows (EltTy.packing .bf16)
  transposes_S1x512_p1_0_S512x1 : S1x512.Transposes [1, 0] S512x1
  broadcasts_S512x1_S512x64 : S512x1.Broadcasts S512x64
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  shapeCasts_S512x64_S1x512x64 : S512x64.ShapeCasts S1x512x64
  inb_S1x2048x64_S1x512x64_0_512_0 : ∀ a, (![0, 512, 0] : Fin 3 → Nat) a + S1x512x64.size a ≤ S1x2048x64.size a
  inb_S1x2048x64_S1x512x64_0_1024_0 : ∀ a, (![0, 1024, 0] : Fin 3 → Nat) a + S1x512x64.size a ≤ S1x2048x64.size a
  inb_S1x2048x64_S1x512x64_0_1536_0 : ∀ a, (![0, 1536, 0] : Fin 3 → Nat) a + S1x512x64.size a ≤ S1x2048x64.size a
  dot_S2048x384_S384x64_S2048x64_1_0_0_1_n_n_wf : DotDims.WF S2048x384 S384x64 S2048x64 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x384.size a ≤ S8x2048x384.size a
  hwx0_0 : ∀ i : grid0.Coords, EltTy.bits .f32 = 32 ∨ (Rect.block (s := S8x2048x384) S1x2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x64.size a ≤ S384x64.size a
  hwx0_2 : ∀ i : grid0.Coords, EltTy.bits .f32 = 32 ∨ (Rect.block (s := S384x64) S384x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x64.size a ≤ S384x64.size a
  hwx0_3 : ∀ i : grid0.Coords, EltTy.bits .f32 = 32 ∨ (Rect.block (s := S384x64) S384x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x2048x64.size a
  hwx0_4 : ∀ i : grid0.Coords, EltTy.bits .f32 = 32 ∨ (Rect.block (s := S8x2048x64) S1x2048x64.size (cc0_transform_4 i) (hinb0_4 i)).WholeWords (EltTy.packing .f32)

variable [Facts₀]

def dot_S2048x384_S384x64_S2048x64_1_0_0_1_n_n : DotDims S2048x384 S384x64 S2048x64 where
  lhsContracting := [1]
  rhsContracting := [0]
  lhsNonContracting := [0]
  rhsNonContracting := [1]
  lhsBatch := []
  rhsBatch := []
  wf := dot_S2048x384_S384x64_S2048x64_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond10 i == 1#1) && !(k0_cond11 i == 1#1) && !(k0_cond12 i == 1#1) && !(k0_cond13 i == 1#1) | ⟨_ + 5, h⟩ => absurd h (Nat.not_lt.2 (Nat.le_add_left _ _))

class Facts : Prop extends Facts₀ where

variable [Facts]
-- ==== ReferenceIdeal.lean ====
abbrev S8x2048x384 : Shape := ⟨3, ![8, 2048, 384]⟩
abbrev S384x64 : Shape := ⟨2, ![384, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S1x2048x2048, .i1⟩
  | .hbm, ⟨23, _⟩ => ⟨S_, .f32⟩
  | .hbm, ⟨24, _⟩ => ⟨S_, .f32⟩
  | .hbm, ⟨25, _⟩ => ⟨S8x2048x2048, .i1⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x1x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x1x2048, .f32⟩
  | .hbm, ⟨40, _⟩ => ⟨S8x2048x2048, .f32⟩
  | .hbm, ⟨41, _⟩ => ⟨S8x2048x2048, .f32⟩
  | .hbm, ⟨42, _⟩ => ⟨S8x2048x64, .f32⟩
  | _, _ => ⟨S8x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x384_S384x64_S8x2048x64_2_0_01_1_n_n_wf : DotDims.WF S8x2048x384 S384x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x384_S384x64_S8x2048x64_2_0_01_1_n_n : DotDims S8x2048x384 S384x64 S8x2048x64 where
  lhsContracting := [2]
  rhsContracting := [0]
  lhsNonContracting := [0, 1]
  rhsNonContracting := [1]
  lhsBatch := []
  rhsBatch := []
  wf := dot_S8x2048x384_S384x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KBRuns.lean ====
/-
  What the four runs of the attention kernel's body share. The grid is (batch, key tile): point `t` is batch `t / 4`
  and key tile `t % 4`. Every branch of the body tests the key tile `ki` only (`ki = 0` for the projections and the
  zero fill, `ki ≤ qi` for query tile `qi` in each of the three passes), so the body has four control cases, one per
  key tile. Here: the key tile of a point in closed form, the staging memrefs the body is called with, the seven
  scratch operands, and the region invariant with the scratch operands held as memrefs.
-/
import proofs.«422935_j26276609917310_3_alg».proof.Proof.Gen.Kernel.Launch
import proofs.«422935_j26276609917310_3_alg».proof.Proof.Gen.Kernel.Skeleton
import proofs.«422935_j26276609917310_3_alg».proof.Proof.Gen.Kernel.Points
import proofs.«422935_j26276609917310_3_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The key tile of point `t` is `t % 4`, -/
theorem ki_eq : ∀ t : Fin cfg0.N, ((grid0.coords t) 1).val = t.val % 4 :=
  (by decide +kernel : ∀ t : Fin grid0.N, ((grid0.coords t) 1).val = t.val % 4)
/-- and its batch `t / 4`. -/
theorem bi_eq : ∀ t : Fin cfg0.N, ((grid0.coords t) 0).val = t.val / 4 :=
  (by decide +kernel : ∀ t : Fin grid0.N, ((grid0.coords t) 0).val = t.val / 4)

/-- The output window is never idle: the last query tile is stored into at every key tile. -/
theorem liveAt0_4 : ∀ i : grid0.Coords, cfg0.idle 4 i = false := by decide +kernel
theorem liveAt0_0 : ∀ i : grid0.Coords, cfg0.idle 0 i = false := fun _ => rfl
theorem liveAt0_1 : ∀ i : grid0.Coords, cfg0.idle 1 i = false := fun _ => rfl
theorem liveAt0_2 : ∀ i : grid0.Coords, cfg0.idle 2 i = false := fun _ => rfl
theorem liveAt0_3 : ∀ i : grid0.Coords, cfg0.idle 3 i = false := fun _ => rfl

/-- Each window's current staging memref at point `t`, and its wholeness. -/
abbrev ms0_0 (t : Fin cfg0.N) : Memref sig .tc .vmem S1x2048x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x64 .f32 := win0_4.stage (cfg0.slots t 4)
abbrev hs0_4 (t : Fin cfg0.N) : (ms0_4 t).IsWhole := hstage0_4 ((cfg0.slots t 4).cast nbuf0_4)

/-- The scratch operands: the query, key and value caches, the score and weight buffers, the running maximum and sum. -/
abbrev scM0_0 : Memref sig .tc .vmem S2048x64 .bf16 := Memref.whole cc0_scratch0
abbrev scM0_1 : Memref sig .tc .vmem S2048x64 .bf16 := Memref.whole cc0_scratch1
abbrev scM0_2 : Memref sig .tc .vmem S2048x64 .bf16 := Memref.whole cc0_scratch2
abbrev scM0_3 : Memref sig .tc .vmem S2048x512 .f32 := Memref.whole cc0_scratch3
abbrev scM0_4 : Memref sig .tc .vmem S2048x512 .bf16 := Memref.whole cc0_scratch4
abbrev scM0_5 : Memref sig .tc .vmem S1x512 .f32 := Memref.whole cc0_scratch5
abbrev scM0_6 : Memref sig .tc .vmem S1x512 .f32 := Memref.whole cc0_scratch6

/-- The region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.KBRunA.lean ====
/-
  The body's run at key tile 0: the projections are taken and cached, the output block is zeroed, and all four query
  tiles go through the three passes. Nothing the run reads was left by an earlier point: every scratch operand
  and the output block may hold anything on entry.
-/
import proofs.«422935_j26276609917310_3_alg».proof.Proof.KBRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 0: what the body's stores leave in the output block and in the three caches, as pieces (last first),
    with the proof that from whole memrefs — the inputs at their blocks, everything else at anything — the body
    runs to the continuation with the inputs as they were, those four written, the other scratch at some contents. -/
noncomputable def kernelRun0_A (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0)
    (x0 : Vec F S1x2048x384 .f32) (x1 x2 x3 : Vec F S384x64 .f32) :
    Σ' (L4 : List (View.Piece (Elt F) S1x2048x64 .f32)) (LS0 : List (View.Piece (Elt F) S2048x64 .bf16)) (LS1 : List (View.Piece (Elt F) S2048x64 .bf16)), { LS2 : List (View.Piece (Elt F) S2048x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.Kernel.Gen

end
-- ==== Proof.KBRunB.lean ====
/-
  The body's run at key tile 1: no projection is taken and nothing is zeroed; the three caches hold what key tile 0
  of the same batch left, the output block what the key tile before left. Only the query tiles at or below the
  diagonal tile go through the three passes, so the rows of the tiles above it are not stored into.
-/
import proofs.«422935_j26276609917310_3_alg».proof.Proof.KBRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 1: what the body's stores leave in the output block, as pieces (last first) over what the block
    held, with the proof that from whole memrefs — the inputs at their blocks, the caches at `xs·`, the output at
    `xo`, the other scratch at anything — the body runs to the continuation with inputs and caches as they were,
    the output written over `xo`, the other scratch at some contents. -/
noncomputable def kernelRun0_B (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 1)
    (x0 : Vec F S1x2048x384 .f32) (x1 x2 x3 : Vec F S384x64 .f32) (xo : Vec F S1x2048x64 .f32) (xs0 xs1 xs2 : Vec F S2048x64 .bf16) :
    { L4 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.Kernel.Gen

end
-- ==== Proof.KBRunC.lean ====
/-
  The body's run at key tile 2: no projection is taken and nothing is zeroed; the three caches hold what key tile 0
  of the same batch left, the output block what the key tile before left. Only the query tiles at or below the
  diagonal tile go through the three passes, so the rows of the tiles above it are not stored into.
-/
import proofs.«422935_j26276609917310_3_alg».proof.Proof.KBRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 2: what the body's stores leave in the output block, as pieces (last first) over what the block
    held, with the proof that from whole memrefs — the inputs at their blocks, the caches at `xs·`, the output at
    `xo`, the other scratch at anything — the body runs to the continuation with inputs and caches as they were,
    the output written over `xo`, the other scratch at some contents. -/
noncomputable def kernelRun0_C (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 2)
    (x0 : Vec F S1x2048x384 .f32) (x1 x2 x3 : Vec F S384x64 .f32) (xo : Vec F S1x2048x64 .f32) (xs0 xs1 xs2 : Vec F S2048x64 .bf16) :
    { L4 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.Kernel.Gen

end
-- ==== Proof.KBRunD.lean ====
/-
  The body's run at key tile 3: no projection is taken and nothing is zeroed; the three caches hold what key tile 0
  of the same batch left, the output block what the key tile before left. Only the query tiles at or below the
  diagonal tile go through the three passes, so the rows of the tiles above it are not stored into.
-/
import proofs.«422935_j26276609917310_3_alg».proof.Proof.KBRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 3: what the body's stores leave in the output block, as pieces (last first) over what the block
    held, with the proof that from whole memrefs — the inputs at their blocks, the caches at `xs·`, the output at
    `xo`, the other scratch at anything — the body runs to the continuation with inputs and caches as they were,
    the output written over `xo`, the other scratch at some contents. -/
noncomputable def kernelRun0_D (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 3)
    (x0 : Vec F S1x2048x384 .f32) (x1 x2 x3 : Vec F S384x64 .f32) (xo : Vec F S1x2048x64 .f32) (xs0 xs1 xs2 : Vec F S2048x64 .bf16) :
    { L4 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.Kernel.Gen

end
-- ==== Proof.KBFrame.lean ====
/-
  The frame of the attention kernel's program from the four runs of its body. The grid walks the batches, and
  within a batch the key tiles 0, 1, 2, 3. What a point leaves — the output block and the query, key and value
  caches — is defined by recursion on the point: key tile 0 starts afresh from the batch's input block, a later
  key tile writes the output block over what the tile before left and keeps the caches. The output block is
  written back after key tile 3 only, so between the key tiles of a batch its staging buffer keeps what the body
  left. With that as the pipeline's proof data, the body's run at each point is the run of its key tile, and the
  launch theorem gives the program's run.
-/
import proofs.«422935_j26276609917310_3_alg».proof.Proof.KBRunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the three caches, as views: contents a covering list of stores
    leaves are stated through them. -/
abbrev VO0_4 : View sig .tc .vmem S1x2048x64 .f32 := (Memref.whole cc0_stg4_0 : Memref sig .tc .vmem S1x2048x64 .f32).view
abbrev VS0_0 : View sig .tc .vmem S2048x64 .bf16 := scM0_0.view
abbrev VS0_1 : View sig .tc .vmem S2048x64 .bf16 := scM0_1.view
abbrev VS0_2 : View sig .tc .vmem S2048x64 .bf16 := scM0_2.view

/-- What a point leaves: the output block, the query cache, the key cache, the value cache. -/
abbrev St : Type := Vec F S1x2048x64 .f32 × Vec F S2048x64 .bf16 × Vec F S2048x64 .bf16 × Vec F S2048x64 .bf16

/-! ## Key tile 0: every store list covers its buffer -/

theorem cover0_A_4 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S1x2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).1 S1x2048x64.size (by sl_kernel_rfl) y
theorem scover0_A_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).2.1 S2048x64.size (by sl_kernel_rfl) y
theorem scover0_A_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.1 S2048x64.size (by sl_kernel_rfl) y
theorem scover0_A_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.2.1 S2048x64.size (by sl_kernel_rfl) y

/-! ## What the points leave -/

/-- What a point at key tile 0 leaves: each buffer's stores read back (they cover it, so over anything). -/
def stepA (c : Dev nD) (t : Fin cfg0.N) (h : t.val % 4 = 0) : St (F := F) :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).1),
    VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).2.1),
    VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).2.2.1),
    VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).2.2.2.1))

/-- What a point at key tile 1 leaves, over what the point before left: the output block written over its contents,
    the three caches as they were. -/
def stepB (c : Dev nD) (t : Fin cfg0.N) (h : t.val % 4 = 1) (prev : St (F := F)) : St (F := F) :=
  ((ms0_4 t).view.read (Elt F) ((ms0_4 t).view.writes (Elt F) ((hs0_4 t).unread prev.1)
      (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t) prev.1 prev.2.1 prev.2.2.1 prev.2.2.2).1),
    prev.2.1, prev.2.2.1, prev.2.2.2)

/-- What a point at key tile 2 leaves, over what the point before left: the output block written over its contents,
    the three caches as they were. -/
def stepC (c : Dev nD) (t : Fin cfg0.N) (h : t.val % 4 = 2) (prev : St (F := F)) : St (F := F) :=
  ((ms0_4 t).view.read (Elt F) ((ms0_4 t).view.writes (Elt F) ((hs0_4 t).unread prev.1)
      (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t) prev.1 prev.2.1 prev.2.2.1 prev.2.2.2).1),
    prev.2.1, prev.2.2.1, prev.2.2.2)

/-- What a point at key tile 3 leaves, over what the point before left: the output block written over its contents,
    the three caches as they were. -/
def stepD (c : Dev nD) (t : Fin cfg0.N) (h : t.val % 4 = 3) (prev : St (F := F)) : St (F := F) :=
  ((ms0_4 t).view.read (Elt F) ((ms0_4 t).view.writes (Elt F) ((hs0_4 t).unread prev.1)
      (kernelRun0_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t) prev.1 prev.2.1 prev.2.2.1 prev.2.2.2).1),
    prev.2.1, prev.2.2.1, prev.2.2.2)

/-- What the output block and the caches hold after the body at position `n`, by recursion on the position. -/
def outsAt0 (c : Dev nD) : (n : ℕ) → n < cfg0.N → St (F := F)
  | 0, hn => stepA m c ⟨0, hn⟩ rfl
  | n + 1, hn =>
    if h0 : (n + 1) % 4 = 0 then stepA m c ⟨n + 1, hn⟩ h0
    else if h1 : (n + 1) % 4 = 1 then stepB m c ⟨n + 1, hn⟩ h1 (outsAt0 c n (Nat.lt_of_succ_lt hn))
    else if h2 : (n + 1) % 4 = 2 then stepC m c ⟨n + 1, hn⟩ h2 (outsAt0 c n (Nat.lt_of_succ_lt hn))
    else stepD m c ⟨n + 1, hn⟩ (by show (n + 1) % 4 = 3; omega) (outsAt0 c n (Nat.lt_of_succ_lt hn))

theorem outsAt0_A (c : Dev nD) (t : Fin cfg0.N) (h0 : t.val % 4 = 0) :
    outsAt0 m c t.val t.isLt = stepA m c t h0 := by
  obtain ⟨n, hn⟩ := t
  cases n with
  | zero => rfl
  | succ n => exact dif_pos h0
theorem outsAt0_B (c : Dev nD) (t : Fin cfg0.N) (h1 : t.val % 4 = 1) :
    outsAt0 m c t.val t.isLt = stepB m c t h1 (outsAt0 m c (t.val - 1) (Nat.lt_of_le_of_lt (Nat.sub_le _ _) t.isLt)) := by
  obtain ⟨n, hn⟩ := t
  cases n with
  | zero => exact (by dsimp only at h1; omega)
  | succ n => exact (dif_neg (by dsimp only at h1; omega)).trans (dif_pos h1)
theorem outsAt0_C (c : Dev nD) (t : Fin cfg0.N) (h2 : t.val % 4 = 2) :
    outsAt0 m c t.val t.isLt = stepC m c t h2 (outsAt0 m c (t.val - 1) (Nat.lt_of_le_of_lt (Nat.sub_le _ _) t.isLt)) := by
  obtain ⟨n, hn⟩ := t
  cases n with
  | zero => exact (by dsimp only at h2; omega)
  | succ n => exact (dif_neg (by dsimp only at h2; omega)).trans ((dif_neg (by dsimp only at h2; omega)).trans (dif_pos h2))
theorem outsAt0_D (c : Dev nD) (t : Fin cfg0.N) (h3 : t.val % 4 = 3) :
    outsAt0 m c t.val t.isLt = stepD m c t h3 (outsAt0 m c (t.val - 1) (Nat.lt_of_le_of_lt (Nat.sub_le _ _) t.isLt)) := by
  obtain ⟨n, hn⟩ := t
  cases n with
  | zero => exact (by dsimp only at h3; omega)
  | succ n => exact (dif_neg (by dsimp only at h3; omega)).trans ((dif_neg (by dsimp only at h3; omega)).trans (dif_neg (by dsimp only at h3; omega)))

/-- The region invariant before position `n`: before the first point every scratch operand at anything; afterwards the
    three caches at what the point before left, the other four at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After key tile 0 of a batch the output's staging buffer keeps what the body left: it is written back after key
    tile 3 only, and the window is live and uncut. -/
theorem before0_4_pos (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    liveAt0_4 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the point's key tile selects the run; at key tile 0
    the invariant hands the body every scratch operand at anything (or the caches at what the batch before left,
    forgotten) and the output's buffer at anything; at a later key tile the caches and the output's buffer at what the
    point before left; either way it takes the caches back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 _], after0_0]
  rw [show (dats m 0 c).leavesExact 1 t = owns (c : Thread nD τ) (ms0_1 t) fullShare ((dats m 0 c).after 1 t) from by
    unfold Dat.leavesExact; rw [liveAt0_1 _], after0_1]
  rw [show (dats m 0 c).leavesExact 2 t = owns (c : Thread nD τ) (ms0_2 t) fullShare ((dats m 0 c).after 2 t) from by
    unfold Dat.leavesExact; rw [liveAt0_2 _], after0_2]
  rw [show (dats m 0 c).leavesExact 3 t = owns (c : Thread nD τ) (ms0_3 t) fullShare ((dats m 0 c).after 3 t) from by
    unfold Dat.leavesExact; rw [liveAt0_3 _], after0_3]
  rw [show (dats m 0 c).leavesExact 4 t = owns (c : Thread nD τ) (ms0_4 t) fullShare ((dats m 0 c).after 4 t) from by
    unfold Dat.leavesExact; rw [liveAt0_4 _], after0_4]
  have hcases : t.val % 4 = 0 ∨ t.val % 4 = 1 ∨ t.val % 4 = 2 ∨ t.val % 4 = 3 := by omega
  rcases hcases with h0 | h1 | h2 | h3
  · -- key tile 0
    rw [outsAt0_A m c t h0]
    unfold stepA; (try dsimp only)
    have hrun := fun (P : sProp 𝕄) (hP : P ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d))) => hP
    by_cases hz : t.val = 0
    · rw [PhiS_castSucc m c t, PhiS_zero m c _ _ hz, PhiA0_eq]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, ⟨%e4, H4⟩, ⟨%es0, HS0⟩, ⟨%es1, HS1⟩, ⟨%es2, HS2⟩, HS3, HS4, HS5, HS6⟩
      isplitl [HS0 HS1 HS2 HS3 HS4 HS5 HS6 Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _)
        isplitl [HS3]; · iexact HS3
        isplitl [HS4]; · iexact HS4
        isplitl [HS5]; · iexact HS5
        iexact HS6
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _)
    · rw [PhiS_castSucc m c t, PhiS_pos m c _ _ hz]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      isplitl [HS3]; · iexact HS3
      isplitl [HS4]; · iexact HS4
      isplitl [HS5]; · iexact HS5
      isplitl [HS6]; · iexact HS6
      iintro ⟨H0, H1, H2, H3, ⟨%e4, H4⟩, ⟨%es0, HS0⟩, ⟨%es1, HS1⟩, ⟨%es2, HS2⟩, HS3, HS4, HS5, HS6⟩
      isplitl [HS0 HS1 HS2 HS3 HS4 HS5 HS6 Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _)
        isplitl [HS3]; · iexact HS3
        isplitl [HS4]; · iexact HS4
        isplitl [HS5]; · iexact HS5
        iexact HS6
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _)
  · -- key tile 1
    have hz : t.val ≠ 0 := by omega
    rw [outsAt0_B m c t h1]
    simp only [before0_4_pos m c t (by omega)]
    rw [PhiS_castSucc m c t, PhiS_pos m c _ _ hz]
    unfold stepB; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h1) (iblk m c 0 t) (iblk m c 1 t) (iblk m c 2 t) (iblk m c 3 t) _ _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, HS0, HS1, HS2, HS3, HS4, HS5, HS6⟩
    isplitl [HS0 HS1 HS2 HS3 HS4 HS5 HS6 Hg]
    · isplitr [Hg]
      swap; · iexact Hg
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Ho]; · iexact Ho
    isplitl [H0]; · iexact H0
    isplitl [H1]; · iexact H1
    isplitl [H2]; · iexact H2
    isplitl [H3]; · iexact H3
    unfold owns; iexists _; isplitr
    swap; · iexact H4
    ipureintro; rfl
  · -- key tile 2
    have hz : t.val ≠ 0 := by omega
    rw [outsAt0_C m c t h2]
    simp only [before0_4_pos m c t (by omega)]
    rw [PhiS_castSucc m c t, PhiS_pos m c _ _ hz]
    unfold stepC; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
    iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h2) (iblk m c 0 t) (iblk m c 1 t) (iblk m c 2 t) (iblk m c 3 t) _ _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, HS0, HS1, HS2, HS3, HS4, HS5, HS6⟩
    isplitl [HS0 HS1 HS2 HS3 HS4 HS5 HS6 Hg]
    · isplitr [Hg]
      swap; · iexact Hg
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Ho]; · iexact Ho
    isplitl [H0]; · iexact H0
    isplitl [H1]; · iexact H1
    isplitl [H2]; · iexact H2
    isplitl [H3]; · iexact H3
    unfold owns; iexists _; isplitr
    swap; · iexact H4
    ipureintro; rfl
  · -- key tile 3
    have hz : t.val ≠ 0 := by omega
    rw [outsAt0_D m c t h3]
    simp only [before0_4_pos m c t (by omega)]
    rw [PhiS_castSucc m c t, PhiS_pos m c _ _ hz]
    unfold stepD; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
    iapply ((kernelRun0_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h3) (iblk m c 0 t) (iblk m c 1 t) (iblk m c 2 t) (iblk m c 3 t) _ _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, HS0, HS1, HS2, HS3, HS4, HS5, HS6⟩
    isplitl [HS0 HS1 HS2 HS3 HS4 HS5 HS6 Hg]
    · isplitr [Hg]
      swap; · iexact Hg
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Ho]; · iexact Ho
    isplitl [H0]; · iexact H0
    isplitl [H1]; · iexact H1
    isplitl [H2]; · iexact H2
    isplitl [H3]; · iexact H3
    unfold owns; iexists _; isplitr
    swap; · iexact H4
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitr [Hg]
  swap; · iexact Hg
  isplitl [HS0]; · iexists _; iexact HS0
  isplitl [HS1]; · iexists _; iexact HS1
  isplitl [HS2]; · iexists _; iexact HS2
  isplitl [HS3]; · iexact HS3
  isplitl [HS4]; · iexact HS4
  isplitl [HS5]; · iexact HS5
  iexact HS6

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has every array of the pipeline at
    what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KIRuns.lean ====
/-
  What the four runs of the attention kernel's body share. The grid is (batch, key tile): point `t` is batch `t / 4`
  and key tile `t % 4`. Every branch of the body tests the key tile `ki` only (`ki = 0` for the projections and the
  zero fill, `ki ≤ qi` for query tile `qi` in each of the three passes), so the body has four control cases, one per
  key tile. Here: the key tile of a point in closed form, the staging memrefs the body is called with, the seven
  scratch operands, and the region invariant with the scratch operands held as memrefs.
-/
import proofs.«422935_j26276609917310_3_alg».proof.Proof.Gen.KernelIdeal.Launch
import proofs.«422935_j26276609917310_3_alg».proof.Proof.Gen.KernelIdeal.Skeleton
import proofs.«422935_j26276609917310_3_alg».proof.Proof.Gen.KernelIdeal.Points
import proofs.«422935_j26276609917310_3_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key tile of point `t` is `t % 4`, -/
theorem ki_eq : ∀ t : Fin cfg0.N, ((grid0.coords t) 1).val = t.val % 4 :=
  (by decide +kernel : ∀ t : Fin grid0.N, ((grid0.coords t) 1).val = t.val % 4)
/-- and its batch `t / 4`. -/
theorem bi_eq : ∀ t : Fin cfg0.N, ((grid0.coords t) 0).val = t.val / 4 :=
  (by decide +kernel : ∀ t : Fin grid0.N, ((grid0.coords t) 0).val = t.val / 4)

/-- The output window is never idle: the last query tile is stored into at every key tile. -/
theorem liveAt0_4 : ∀ i : grid0.Coords, cfg0.idle 4 i = false := by decide +kernel
theorem liveAt0_0 : ∀ i : grid0.Coords, cfg0.idle 0 i = false := fun _ => rfl
theorem liveAt0_1 : ∀ i : grid0.Coords, cfg0.idle 1 i = false := fun _ => rfl
theorem liveAt0_2 : ∀ i : grid0.Coords, cfg0.idle 2 i = false := fun _ => rfl
theorem liveAt0_3 : ∀ i : grid0.Coords, cfg0.idle 3 i = false := fun _ => rfl

/-- Each window's current staging memref at point `t`, and its wholeness. -/
abbrev ms0_0 (t : Fin cfg0.N) : Memref sig .tc .vmem S1x2048x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x64 .f32 := win0_4.stage (cfg0.slots t 4)
abbrev hs0_4 (t : Fin cfg0.N) : (ms0_4 t).IsWhole := hstage0_4 ((cfg0.slots t 4).cast nbuf0_4)

/-- The scratch operands: the query, key and value caches, the score and weight buffers, the running maximum and sum. -/
abbrev scM0_0 : Memref sig .tc .vmem S2048x64 .bf16 := Memref.whole cc0_scratch0
abbrev scM0_1 : Memref sig .tc .vmem S2048x64 .bf16 := Memref.whole cc0_scratch1
abbrev scM0_2 : Memref sig .tc .vmem S2048x64 .bf16 := Memref.whole cc0_scratch2
abbrev scM0_3 : Memref sig .tc .vmem S2048x512 .f32 := Memref.whole cc0_scratch3
abbrev scM0_4 : Memref sig .tc .vmem S2048x512 .bf16 := Memref.whole cc0_scratch4
abbrev scM0_5 : Memref sig .tc .vmem S1x512 .f32 := Memref.whole cc0_scratch5
abbrev scM0_6 : Memref sig .tc .vmem S1x512 .f32 := Memref.whole cc0_scratch6

/-- The region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.KIRunA.lean ====
/-
  The body's run at key tile 0: the projections are taken and cached, the output block is zeroed, and all four query
  tiles go through the three passes. Nothing the run reads was left by an earlier point: every scratch operand
  and the output block may hold anything on entry.
-/
import proofs.«422935_j26276609917310_3_alg».proof.Proof.KIRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 0: what the body's stores leave in the output block and in the three caches, as pieces (last first),
    with the proof that from whole memrefs — the inputs at their blocks, everything else at anything — the body
    runs to the continuation with the inputs as they were, those four written, the other scratch at some contents. -/
noncomputable def kernelRun0_A (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0)
    (x0 : Vec F S1x2048x384 .f32) (x1 x2 x3 : Vec F S384x64 .f32) :
    Σ' (L4 : List (View.Piece (Elt F) S1x2048x64 .f32)) (LS0 : List (View.Piece (Elt F) S2048x64 .bf16)) (LS1 : List (View.Piece (Elt F) S2048x64 .bf16)), { LS2 : List (View.Piece (Elt F) S2048x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.KernelIdeal.Gen

end
-- ==== Proof.KIRunB.lean ====
/-
  The body's run at key tile 1: no projection is taken and nothing is zeroed; the three caches hold what key tile 0
  of the same batch left, the output block what the key tile before left. Only the query tiles at or below the
  diagonal tile go through the three passes, so the rows of the tiles above it are not stored into.
-/
import proofs.«422935_j26276609917310_3_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 1: what the body's stores leave in the output block, as pieces (last first) over what the block
    held, with the proof that from whole memrefs — the inputs at their blocks, the caches at `xs·`, the output at
    `xo`, the other scratch at anything — the body runs to the continuation with inputs and caches as they were,
    the output written over `xo`, the other scratch at some contents. -/
noncomputable def kernelRun0_B (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 1)
    (x0 : Vec F S1x2048x384 .f32) (x1 x2 x3 : Vec F S384x64 .f32) (xo : Vec F S1x2048x64 .f32) (xs0 xs1 xs2 : Vec F S2048x64 .bf16) :
    { L4 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.KernelIdeal.Gen

end
-- ==== Proof.KIRunC.lean ====
/-
  The body's run at key tile 2: no projection is taken and nothing is zeroed; the three caches hold what key tile 0
  of the same batch left, the output block what the key tile before left. Only the query tiles at or below the
  diagonal tile go through the three passes, so the rows of the tiles above it are not stored into.
-/
import proofs.«422935_j26276609917310_3_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 2: what the body's stores leave in the output block, as pieces (last first) over what the block
    held, with the proof that from whole memrefs — the inputs at their blocks, the caches at `xs·`, the output at
    `xo`, the other scratch at anything — the body runs to the continuation with inputs and caches as they were,
    the output written over `xo`, the other scratch at some contents. -/
noncomputable def kernelRun0_C (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 2)
    (x0 : Vec F S1x2048x384 .f32) (x1 x2 x3 : Vec F S384x64 .f32) (xo : Vec F S1x2048x64 .f32) (xs0 xs1 xs2 : Vec F S2048x64 .bf16) :
    { L4 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.KernelIdeal.Gen

end
-- ==== Proof.KIRunD.lean ====
/-
  The body's run at key tile 3: no projection is taken and nothing is zeroed; the three caches hold what key tile 0
  of the same batch left, the output block what the key tile before left. Only the query tiles at or below the
  diagonal tile go through the three passes, so the rows of the tiles above it are not stored into.
-/
import proofs.«422935_j26276609917310_3_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Key tile 3: what the body's stores leave in the output block, as pieces (last first) over what the block
    held, with the proof that from whole memrefs — the inputs at their blocks, the caches at `xs·`, the output at
    `xo`, the other scratch at anything — the body runs to the continuation with inputs and caches as they were,
    the output written over `xo`, the other scratch at some contents. -/
noncomputable def kernelRun0_D (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 3)
    (x0 : Vec F S1x2048x384 .f32) (x1 x2 x3 : Vec F S384x64 .f32) (xo : Vec F S1x2048x64 .f32) (xs0 xs1 xs2 : Vec F S2048x64 .bf16) :
    { L4 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | (simp only [k0_cond1, k0_cond10, k0_cond11, k0_cond12, k0_cond13, hk]; sl_decide) | (rw [hk]; sl_decide) | (sl_unfold_words; simp only [hk]; sl_decide) | (sl_unfold_words; rw [hk]; sl_decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; iexists _; isplitr
      swap; · iexact HS3
      ipureintro; rfl
    isplitl [HS4]
    · iexists _; iexists _; isplitr
      swap; · iexact HS4
      ipureintro; rfl
    isplitl [HS5]
    · iexists _; iexists _; isplitr
      swap; · iexact HS5
      ipureintro; rfl
    iexists _; iexists _; isplitr
    swap; · iexact HS6
    ipureintro; rfl

end Cert.KernelIdeal.Gen

end
-- ==== Proof.KIFrame.lean ====
/-
  The frame of the attention kernel's program from the four runs of its body. The grid walks the batches, and
  within a batch the key tiles 0, 1, 2, 3. What a point leaves — the output block and the query, key and value
  caches — is defined by recursion on the point: key tile 0 starts afresh from the batch's input block, a later
  key tile writes the output block over what the tile before left and keeps the caches. The output block is
  written back after key tile 3 only, so between the key tiles of a batch its staging buffer keeps what the body
  left. With that as the pipeline's proof data, the body's run at each point is the run of its key tile, and the
  launch theorem gives the program's run.
-/
import proofs.«422935_j26276609917310_3_alg».proof.Proof.KIRunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of the output window and the three caches, as views: contents a covering list of stores
    leaves are stated through them. -/
abbrev VO0_4 : View sig .tc .vmem S1x2048x64 .f32 := (Memref.whole cc0_stg4_0 : Memref sig .tc .vmem S1x2048x64 .f32).view
abbrev VS0_0 : View sig .tc .vmem S2048x64 .bf16 := scM0_0.view
abbrev VS0_1 : View sig .tc .vmem S2048x64 .bf16 := scM0_1.view
abbrev VS0_2 : View sig .tc .vmem S2048x64 .bf16 := scM0_2.view

/-- What a point leaves: the output block, the query cache, the key cache, the value cache. -/
abbrev St : Type := Vec F S1x2048x64 .f32 × Vec F S2048x64 .bf16 × Vec F S2048x64 .bf16 × Vec F S2048x64 .bf16

/-! ## Key tile 0: every store list covers its buffer -/

theorem cover0_A_4 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S1x2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).1 S1x2048x64.size (by sl_kernel_rfl) y
theorem scover0_A_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).2.1 S2048x64.size (by sl_kernel_rfl) y
theorem scover0_A_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.1 S2048x64.size (by sl_kernel_rfl) y
theorem scover0_A_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 0)
    (x0 : Vec F S1x2048x384 .f32) (x1 x2 x3 : Vec F S384x64 .f32) (y : S2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hk x0 x1 x2 x3).2.2.2.1 S2048x64.size (by sl_kernel_rfl) y

/-! ## What the points leave -/

/-- What a point at key tile 0 leaves: each buffer's stores read back (they cover it, so over anything). -/
def stepA (c : Dev nD) (t : Fin cfg0.N) (h : t.val % 4 = 0) : St (F := F) :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).1),
    VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).2.1),
    VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).2.2.1),
    VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t)).2.2.2.1))

/-- What a point at key tile 1 leaves, over what the point before left: the output block written over its contents,
    the three caches as they were. -/
def stepB (c : Dev nD) (t : Fin cfg0.N) (h : t.val % 4 = 1) (prev : St (F := F)) : St (F := F) :=
  ((ms0_4 t).view.read (Elt F) ((ms0_4 t).view.writes (Elt F) ((hs0_4 t).unread prev.1)
      (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t) prev.1 prev.2.1 prev.2.2.1 prev.2.2.2).1),
    prev.2.1, prev.2.2.1, prev.2.2.2)

/-- What a point at key tile 2 leaves, over what the point before left: the output block written over its contents,
    the three caches as they were. -/
def stepC (c : Dev nD) (t : Fin cfg0.N) (h : t.val % 4 = 2) (prev : St (F := F)) : St (F := F) :=
  ((ms0_4 t).view.read (Elt F) ((ms0_4 t).view.writes (Elt F) ((hs0_4 t).unread prev.1)
      (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t) prev.1 prev.2.1 prev.2.2.1 prev.2.2.2).1),
    prev.2.1, prev.2.2.1, prev.2.2.2)

/-- What a point at key tile 3 leaves, over what the point before left: the output block written over its contents,
    the three caches as they were. -/
def stepD (c : Dev nD) (t : Fin cfg0.N) (h : t.val % 4 = 3) (prev : St (F := F)) : St (F := F) :=
  ((ms0_4 t).view.read (Elt F) ((ms0_4 t).view.writes (Elt F) ((hs0_4 t).unread prev.1)
      (kernelRun0_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (iblk m c 0 t) (iblk m c 1 t) (iblk m c 2 t) (iblk m c 3 t) prev.1 prev.2.1 prev.2.2.1 prev.2.2.2).1),
    prev.2.1, prev.2.2.1, prev.2.2.2)

/-- What the output block and the caches hold after the body at position `n`, by recursion on the position. -/
def outsAt0 (c : Dev nD) : (n : ℕ) → n < cfg0.N → St (F := F)
  | 0, hn => stepA m c ⟨0, hn⟩ rfl
  | n + 1, hn =>
    if h0 : (n + 1) % 4 = 0 then stepA m c ⟨n + 1, hn⟩ h0
    else if h1 : (n + 1) % 4 = 1 then stepB m c ⟨n + 1, hn⟩ h1 (outsAt0 c n (Nat.lt_of_succ_lt hn))
    else if h2 : (n + 1) % 4 = 2 then stepC m c ⟨n + 1, hn⟩ h2 (outsAt0 c n (Nat.lt_of_succ_lt hn))
    else stepD m c ⟨n + 1, hn⟩ (by show (n + 1) % 4 = 3; omega) (outsAt0 c n (Nat.lt_of_succ_lt hn))

theorem outsAt0_A (c : Dev nD) (t : Fin cfg0.N) (h0 : t.val % 4 = 0) :
    outsAt0 m c t.val t.isLt = stepA m c t h0 := by
  obtain ⟨n, hn⟩ := t
  cases n with
  | zero => rfl
  | succ n => exact dif_pos h0
theorem outsAt0_B (c : Dev nD) (t : Fin cfg0.N) (h1 : t.val % 4 = 1) :
    outsAt0 m c t.val t.isLt = stepB m c t h1 (outsAt0 m c (t.val - 1) (Nat.lt_of_le_of_lt (Nat.sub_le _ _) t.isLt)) := by
  obtain ⟨n, hn⟩ := t
  cases n with
  | zero => exact (by dsimp only at h1; omega)
  | succ n => exact (dif_neg (by dsimp only at h1; omega)).trans (dif_pos h1)
theorem outsAt0_C (c : Dev nD) (t : Fin cfg0.N) (h2 : t.val % 4 = 2) :
    outsAt0 m c t.val t.isLt = stepC m c t h2 (outsAt0 m c (t.val - 1) (Nat.lt_of_le_of_lt (Nat.sub_le _ _) t.isLt)) := by
  obtain ⟨n, hn⟩ := t
  cases n with
  | zero => exact (by dsimp only at h2; omega)
  | succ n => exact (dif_neg (by dsimp only at h2; omega)).trans ((dif_neg (by dsimp only at h2; omega)).trans (dif_pos h2))
theorem outsAt0_D (c : Dev nD) (t : Fin cfg0.N) (h3 : t.val % 4 = 3) :
    outsAt0 m c t.val t.isLt = stepD m c t h3 (outsAt0 m c (t.val - 1) (Nat.lt_of_le_of_lt (Nat.sub_le _ _) t.isLt)) := by
  obtain ⟨n, hn⟩ := t
  cases n with
  | zero => exact (by dsimp only at h3; omega)
  | succ n => exact (dif_neg (by dsimp only at h3; omega)).trans ((dif_neg (by dsimp only at h3; omega)).trans (dif_neg (by dsimp only at h3; omega)))

/-- The region invariant before position `n`: before the first point every scratch operand at anything; afterwards the
    three caches at what the point before left, the other four at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After key tile 0 of a batch the output's staging buffer keeps what the body left: it is written back after key
    tile 3 only, and the window is live and uncut. -/
theorem before0_4_pos (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    liveAt0_4 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the point's key tile selects the run; at key tile 0
    the invariant hands the body every scratch operand at anything (or the caches at what the batch before left,
    forgotten) and the output's buffer at anything; at a later key tile the caches and the output's buffer at what the
    point before left; either way it takes the caches back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 _], after0_0]
  rw [show (dats m 0 c).leavesExact 1 t = owns (c : Thread nD τ) (ms0_1 t) fullShare ((dats m 0 c).after 1 t) from by
    unfold Dat.leavesExact; rw [liveAt0_1 _], after0_1]
  rw [show (dats m 0 c).leavesExact 2 t = owns (c : Thread nD τ) (ms0_2 t) fullShare ((dats m 0 c).after 2 t) from by
    unfold Dat.leavesExact; rw [liveAt0_2 _], after0_2]
  rw [show (dats m 0 c).leavesExact 3 t = owns (c : Thread nD τ) (ms0_3 t) fullShare ((dats m 0 c).after 3 t) from by
    unfold Dat.leavesExact; rw [liveAt0_3 _], after0_3]
  rw [show (dats m 0 c).leavesExact 4 t = owns (c : Thread nD τ) (ms0_4 t) fullShare ((dats m 0 c).after 4 t) from by
    unfold Dat.leavesExact; rw [liveAt0_4 _], after0_4]
  have hcases : t.val % 4 = 0 ∨ t.val % 4 = 1 ∨ t.val % 4 = 2 ∨ t.val % 4 = 3 := by omega
  rcases hcases with h0 | h1 | h2 | h3
  · -- key tile 0
    rw [outsAt0_A m c t h0]
    unfold stepA; (try dsimp only)
    have hrun := fun (P : sProp 𝕄) (hP : P ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d))) => hP
    by_cases hz : t.val = 0
    · rw [PhiS_castSucc m c t, PhiS_zero m c _ _ hz, PhiA0_eq]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, ⟨%e4, H4⟩, ⟨%es0, HS0⟩, ⟨%es1, HS1⟩, ⟨%es2, HS2⟩, HS3, HS4, HS5, HS6⟩
      isplitl [HS0 HS1 HS2 HS3 HS4 HS5 HS6 Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _)
        isplitl [HS3]; · iexact HS3
        isplitl [HS4]; · iexact HS4
        isplitl [HS5]; · iexact HS5
        iexact HS6
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _)
    · rw [PhiS_castSucc m c t, PhiS_pos m c _ _ hz]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      isplitl [HS3]; · iexact HS3
      isplitl [HS4]; · iexact HS4
      isplitl [HS5]; · iexact HS5
      isplitl [HS6]; · iexact HS6
      iintro ⟨H0, H1, H2, H3, ⟨%e4, H4⟩, ⟨%es0, HS0⟩, ⟨%es1, HS1⟩, ⟨%es2, HS2⟩, HS3, HS4, HS5, HS6⟩
      isplitl [HS0 HS1 HS2 HS3 HS4 HS5 HS6 Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _)
        isplitl [HS3]; · iexact HS3
        isplitl [HS4]; · iexact HS4
        isplitl [HS5]; · iexact HS5
        iexact HS6
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _)
  · -- key tile 1
    have hz : t.val ≠ 0 := by omega
    rw [outsAt0_B m c t h1]
    simp only [before0_4_pos m c t (by omega)]
    rw [PhiS_castSucc m c t, PhiS_pos m c _ _ hz]
    unfold stepB; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h1) (iblk m c 0 t) (iblk m c 1 t) (iblk m c 2 t) (iblk m c 3 t) _ _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, HS0, HS1, HS2, HS3, HS4, HS5, HS6⟩
    isplitl [HS0 HS1 HS2 HS3 HS4 HS5 HS6 Hg]
    · isplitr [Hg]
      swap; · iexact Hg
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Ho]; · iexact Ho
    isplitl [H0]; · iexact H0
    isplitl [H1]; · iexact H1
    isplitl [H2]; · iexact H2
    isplitl [H3]; · iexact H3
    unfold owns; iexists _; isplitr
    swap; · iexact H4
    ipureintro; rfl
  · -- key tile 2
    have hz : t.val ≠ 0 := by omega
    rw [outsAt0_C m c t h2]
    simp only [before0_4_pos m c t (by omega)]
    rw [PhiS_castSucc m c t, PhiS_pos m c _ _ hz]
    unfold stepC; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
    iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h2) (iblk m c 0 t) (iblk m c 1 t) (iblk m c 2 t) (iblk m c 3 t) _ _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, HS0, HS1, HS2, HS3, HS4, HS5, HS6⟩
    isplitl [HS0 HS1 HS2 HS3 HS4 HS5 HS6 Hg]
    · isplitr [Hg]
      swap; · iexact Hg
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Ho]; · iexact Ho
    isplitl [H0]; · iexact H0
    isplitl [H1]; · iexact H1
    isplitl [H2]; · iexact H2
    isplitl [H3]; · iexact H3
    unfold owns; iexists _; isplitr
    swap; · iexact H4
    ipureintro; rfl
  · -- key tile 3
    have hz : t.val ≠ 0 := by omega
    rw [outsAt0_D m c t h3]
    simp only [before0_4_pos m c t (by omega)]
    rw [PhiS_castSucc m c t, PhiS_pos m c _ _ hz]
    unfold stepD; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
    iapply ((kernelRun0_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h3) (iblk m c 0 t) (iblk m c 1 t) (iblk m c 2 t) (iblk m c 3 t) _ _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, HS0, HS1, HS2, HS3, HS4, HS5, HS6⟩
    isplitl [HS0 HS1 HS2 HS3 HS4 HS5 HS6 Hg]
    · isplitr [Hg]
      swap; · iexact Hg
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Ho]; · iexact Ho
    isplitl [H0]; · iexact H0
    isplitl [H1]; · iexact H1
    isplitl [H2]; · iexact H2
    isplitl [H3]; · iexact H3
    unfold owns; iexists _; isplitr
    swap; · iexact H4
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitr [Hg]
  swap; · iexact Hg
  isplitl [HS0]; · iexists _; iexact HS0
  isplitl [HS1]; · iexists _; iexact HS1
  isplitl [HS2]; · iexists _; iexact HS2
  isplitl [HS3]; · iexact HS3
  isplitl [HS4]; · iexact HS4
  isplitl [HS5]; · iexact HS5
  iexact HS6

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has every array of the pipeline at
    what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.AttnSpec.lean ====
/-
  Causal attention whose softmax runs over the QUERY axis (one softmax per key column), for eight batches of
  2048 positions, an embedding of 384 and a head of 64, as closed forms of the four argument arrays over the
  extended reals.

  `refOut` is the plain form: project, take every score `q_i · k_j / 8`, mask `j > i` with `-∞`, subtract each
  COLUMN's maximum, exponentiate, divide by the column's sum, and contract with the values.

  `tileOut` is the same quantity arranged by key tiles of 512 columns: the query is scaled by `1/8` before the
  score is taken, a column's maximum and sum run only over the query tiles at or below the diagonal tile (the
  tiles above it hold nothing but `-∞`), the value row is divided by the column's sum before the contraction,
  and an output row adds up the key tiles at or before its own.
-/
import Idealize.ShloMosaic.PureOps.Ideal
import Idealize.ShloMosaic.Lib.ValueIdx

noncomputable section

open scoped BigOperators

namespace Cert.AttnSpec

open Idealize.ShloMosaic Idealize.ShloMosaic.ValueIdx

abbrev SX : Shape := ⟨3, ![8, 2048, 384]⟩
abbrev SW : Shape := ⟨2, ![384, 64]⟩
abbrev SO : Shape := ⟨3, ![8, 2048, 64]⟩

/-- The scale `64 ^ (-1/2)`, as the binary32 word both programs carry. -/
def eighth : EReal := Ideal.ofBits .f32 0x3E000000#32

/-- Row `r` of tile `q`, as a position of the sequence. -/
def gi (q : Fin 4) (r : Fin 512) : Fin 2048 := ⟨q.val * 512 + r.val, by have := q.isLt; have := r.isLt; omega⟩

section

variable (x : SX.Idx → EReal) (wq wk wv : SW.Idx → EReal)

/-- A projection `x · w` at batch `b`, position `s`, head coordinate `d`. -/
def proj (w : SW.Idx → EReal) (b : Fin 8) (s : Fin 2048) (d : Fin 64) : EReal :=
  ∑ c : Fin 384, x (ix3 b s c) * w (ix2 c d)

/-! ## The plain form -/

/-- The masked score: `(q_i · k_j) / 8` on and below the diagonal, `-∞` above it. -/
def rscore (b : Fin 8) (i j : Fin 2048) : EReal :=
  if j.val ≤ i.val then (∑ d : Fin 64, proj x wq b i d * proj x wk b j d) * eighth else ⊥

/-- The maximum of column `j` over all queries. -/
def rmax (b : Fin 8) (j : Fin 2048) : EReal :=
  (Finset.univ : Finset (Fin 2048)).fold max ⊥ fun i => rscore x wq wk b i j

/-- The shifted exponential. -/
def rexp (b : Fin 8) (i j : Fin 2048) : EReal := Ideal.exp (rscore x wq wk b i j - rmax x wq wk b j)

/-- The sum of column `j` over all queries. -/
def rsum (b : Fin 8) (j : Fin 2048) : EReal := ∑ i : Fin 2048, rexp x wq wk b i j

/-- The attention output, plain form. -/
def refOut (b : Fin 8) (i : Fin 2048) (d : Fin 64) : EReal :=
  ∑ j : Fin 2048, Ideal.div (rexp x wq wk b i j) (rsum x wq wk b j) * proj x wv b j d

/-! ## The form by key tiles -/

/-- The scaled query `(x · wq) / 8`. -/
def qs (b : Fin 8) (s : Fin 2048) (d : Fin 64) : EReal := proj x wq b s d * eighth

/-- The masked score of the scaled query. -/
def kscore (b : Fin 8) (i j : Fin 2048) : EReal :=
  if j.val ≤ i.val then ∑ d : Fin 64, qs x wq b i d * proj x wk b j d else ⊥

/-- The maximum of column `c` of key tile `k` over one query tile `q`. -/
def tmax1 (b : Fin 8) (q k : Fin 4) (c : Fin 512) : EReal :=
  (Finset.univ : Finset (Fin 512)).fold max ⊥ fun r => kscore x wq wk b (gi q r) (gi k c)

/-- The maximum of column `c` of key tile `k` over the query tiles `q ≥ k`. -/
def tmax (b : Fin 8) (k : Fin 4) (c : Fin 512) : EReal :=
  (Finset.univ.filter fun q : Fin 4 => k ≤ q).fold max ⊥ fun q => tmax1 x wq wk b q k c

/-- The shifted exponential against the tile's column maximum. -/
def tp (b : Fin 8) (k : Fin 4) (i : Fin 2048) (c : Fin 512) : EReal :=
  Ideal.exp (kscore x wq wk b i (gi k c) - tmax x wq wk b k c)

/-- The sum of column `c` of key tile `k` over the query tiles `q ≥ k`. -/
def tsum (b : Fin 8) (k : Fin 4) (c : Fin 512) : EReal :=
  ∑ q ∈ Finset.univ.filter (fun q : Fin 4 => k ≤ q), ∑ r : Fin 512, tp x wq wk b k (gi q r) c

/-- What key tile `k` adds to output row `i`. -/
def tcontrib (b : Fin 8) (k : Fin 4) (i : Fin 2048) (d : Fin 64) : EReal :=
  ∑ c : Fin 512, tp x wq wk b k i c * Ideal.div (proj x wv b (gi k c) d) (tsum x wq wk b k c)

/-- The attention output, by key tiles: row `i` adds up the key tiles at or before its own. -/
def tileOut (b : Fin 8) (i : Fin 2048) (d : Fin 64) : EReal :=
  ∑ k ∈ Finset.univ.filter (fun k : Fin 4 => k.val * 512 ≤ i.val), tcontrib x wq wk wv b k i d

end

/-- Every entry of an array is a real number. -/
def AllReal {S : Shape} (a : S.Idx → EReal) : Prop := ∀ j, ∃ r : ℝ, a j = (r : EReal)

end Cert.AttnSpec

end
-- ==== Proof.KIPayA.lean ====
/-
  The attention kernel's pure arithmetic, read at an index as plain arithmetic on the extended reals: the three
  projections, the initial values, the masked score of a query tile against a key tile, and the running column maximum.
-/
import proofs.«422935_j26276609917310_3_alg».proof.Proof.Gen.KernelIdeal.Skeleton
import proofs.«422935_j26276609917310_3_alg».proof.Proof.AttnSpec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

noncomputable section

namespace Cert.KernelIdeal.Pay

open Idealize.ShloMosaic Idealize.ShloMosaic.ValueIdx Cert.KernelIdeal Cert.KernelIdeal.Gen
open scoped BigOperators

/-! ## The three projections -/

theorem lhs_proj_0 (j : S2048x64.Idx) (q : dot_S2048x384_S384x64_S2048x64_1_0_0_1_n_n.contr.Idx) :
    (dot_S2048x384_S384x64_S2048x64_1_0_0_1_n_n.lhsIdx j q 0).val = (j 0).val := by
  unfold DotDims.lhsIdx
  rw [dif_neg (show ¬(0 : Fin S2048x384.rank) ∈ dot_S2048x384_S384x64_S2048x64_1_0_0_1_n_n.lhsBatch by decide), dif_pos (show (0 : Fin S2048x384.rank) ∈ dot_S2048x384_S384x64_S2048x64_1_0_0_1_n_n.lhsNonContracting by decide)]
  rfl
theorem lhs_proj_1 (j : S2048x64.Idx) (q : dot_S2048x384_S384x64_S2048x64_1_0_0_1_n_n.contr.Idx) :
    (dot_S2048x384_S384x64_S2048x64_1_0_0_1_n_n.lhsIdx j q 1).val = (q ⟨0, by decide⟩).val :=
  dot_S2048x384_S384x64_S2048x64_1_0_0_1_n_n.lhsIdx_val_of_single rfl j q
theorem rhs_proj_0 (j : S2048x64.Idx) (q : dot_S2048x384_S384x64_S2048x64_1_0_0_1_n_n.contr.Idx) :
    (dot_S2048x384_S384x64_S2048x64_1_0_0_1_n_n.rhsIdx j q 0).val = (q ⟨0, by decide⟩).val :=
  dot_S2048x384_S384x64_S2048x64_1_0_0_1_n_n.rhsIdx_val_of_single rfl j q
theorem rhs_proj_1 (j : S2048x64.Idx) (q : dot_S2048x384_S384x64_S2048x64_1_0_0_1_n_n.contr.Idx) :
    (dot_S2048x384_S384x64_S2048x64_1_0_0_1_n_n.rhsIdx j q 1).val = (j 1).val := by
  unfold DotDims.rhsIdx
  rw [dif_neg (show ¬(1 : Fin S384x64.rank) ∈ dot_S2048x384_S384x64_S2048x64_1_0_0_1_n_n.rhsBatch by decide), dif_pos (show (1 : Fin S384x64.rank) ∈ dot_S2048x384_S384x64_S2048x64_1_0_0_1_n_n.rhsNonContracting by decide)]
  rfl

/-- The projection's matrix product into the zero accumulator, at row `s` and column `d`: the sum over the embedding. -/
theorem matmul_proj_apply (A : FVec Ideal S2048x384 .bf16) (B : FVec Ideal S384x64 .bf16) (s : Fin 2048) (d : Fin 64) :
    matmul dot_S2048x384_S384x64_S2048x64_1_0_0_1_n_n none A B (constant (F := Ideal) S2048x64 .f32 0x00000000#32) (ix2 s d)
      = ∑ e : Fin 384, A (ix2 s e) * B (ix2 e d) := by
  simp only [matmul]
  rw [Ideal.matmul_constant_zero_apply, ← Equiv.sum_comp (ValueIdx.contrEquiv1 dot_S2048x384_S384x64_S2048x64_1_0_0_1_n_n 384 rfl rfl).symm]
  refine Finset.sum_congr rfl fun k _ => ?_
  have hk := ValueIdx.contrEquiv1_symm_val dot_S2048x384_S384x64_S2048x64_1_0_0_1_n_n 384 rfl rfl k
  have el : dot_S2048x384_S384x64_S2048x64_1_0_0_1_n_n.lhsIdx (ix2 s d) ((ValueIdx.contrEquiv1 dot_S2048x384_S384x64_S2048x64_1_0_0_1_n_n 384 rfl rfl).symm k) = ix2 s k := funext fun a => Fin.ext (by
    match a with
    | ⟨0, _⟩ => exact lhs_proj_0 _ _
    | ⟨1, _⟩ => exact (lhs_proj_1 _ _).trans hk)
  have er : dot_S2048x384_S384x64_S2048x64_1_0_0_1_n_n.rhsIdx (ix2 s d) ((ValueIdx.contrEquiv1 dot_S2048x384_S384x64_S2048x64_1_0_0_1_n_n 384 rfl rfl).symm k) = ix2 k d := funext fun a => Fin.ext (by
    match a with
    | ⟨0, _⟩ => exact (rhs_proj_0 _ _).trans hk
    | ⟨1, _⟩ => exact rhs_proj_1 _ _)
  rw [el, er]

/-- The argument block with its leading unit axis dropped, at row `s` and column `e`. -/
theorem pay18_apply (X : FVec Ideal S1x2048x384 .f32) (s : Fin 2048) (e : Fin 384) :
    k0_pay18 (F := Ideal) X (ix2 s e) = X (ix3 (0 : Fin 1) s e) := by
  unfold k0_pay18
  rw [truncf_apply]
  exact shapeCast_1ab_ab_apply X _ s e

/-- The word `0x3E000000` as a scalar is the scale `1/8`. -/
theorem scalar_eighth : (Scalar.ofBits (F := Ideal) .f32 0x3E000000#32 : EReal) = Cert.AttnSpec.eighth := rfl

theorem pay19_apply (X : Vec Ideal S1x2048x384 .f32) (W : Vec Ideal S384x64 .f32) (s : Fin 2048) (d : Fin 64) :
    k0_pay19 (F := Ideal) X W (ix2 s d)
      = (∑ e : Fin 384, X (ix3 (0 : Fin 1) s e) * W (ix2 e d)) * Cert.AttnSpec.eighth := by
  unfold k0_pay19
  rw [shapeCast_self, truncf_apply, mulf_apply, broadcast_apply, matmul_proj_apply, scalar_eighth]
  refine congrArg (· * Cert.AttnSpec.eighth) (Finset.sum_congr rfl fun e _ => ?_)
  rw [pay18_apply, truncf_apply]

theorem pay20_apply (X : Vec Ideal S1x2048x384 .f32) (W : Vec Ideal S384x64 .f32) (s : Fin 2048) (d : Fin 64) :
    k0_pay20 (F := Ideal) X W (ix2 s d) = ∑ e : Fin 384, X (ix3 (0 : Fin 1) s e) * W (ix2 e d) := by
  unfold k0_pay20
  rw [shapeCast_self, truncf_apply, matmul_proj_apply]
  refine Finset.sum_congr rfl fun e _ => ?_
  rw [pay18_apply, truncf_apply]

theorem pay21_apply (X : Vec Ideal S1x2048x384 .f32) (W : Vec Ideal S384x64 .f32) (s : Fin 2048) (d : Fin 64) :
    k0_pay21 (F := Ideal) X W (ix2 s d) = ∑ e : Fin 384, X (ix3 (0 : Fin 1) s e) * W (ix2 e d) := by
  unfold k0_pay21
  rw [shapeCast_self, truncf_apply, matmul_proj_apply]
  refine Finset.sum_congr rfl fun e _ => ?_
  rw [pay18_apply, truncf_apply]

/-! ## The initial values -/

/-- The word `0xFF800000` denotes `-∞`. -/
theorem ofBits_neg_inf : Ideal.ofBits .f32 0xFF800000#32 = (⊥ : EReal) := by
  simp [Ideal.ofBits, Ideal.ieee]

theorem pay22_apply (j : S1x2048x64.Idx) : k0_pay22 (F := Ideal) j = 0 := by
  unfold k0_pay22
  obtain ⟨u, s, d, rfl⟩ : ∃ (u : Fin 1) (s : Fin 2048) (d : Fin 64), j = ix3 u s d := ⟨j 0, j 1, j 2, eq_ix3 j⟩
  rw [shapeCast_ab_1ab_apply, broadcast_apply]
  exact Ideal.ofBits_zero_f32

theorem pay23_apply (j : S1x512.Idx) : k0_pay23 (F := Ideal) j = ⊥ := by
  unfold k0_pay23
  rw [shapeCast_self, broadcast_apply]
  exact ofBits_neg_inf

theorem pay24_apply (j : S1x512.Idx) : k0_pay24 (F := Ideal) j = 0 := by
  unfold k0_pay24
  rw [shapeCast_self, broadcast_apply]
  exact Ideal.ofBits_zero_f32

/-! ## The masked score of a query tile against a key tile -/

theorem lhs_score_0 (j : S512x512.Idx) (q : dot_S512x64_S512x64_S512x512_1_1_0_0_n_n.contr.Idx) :
    (dot_S512x64_S512x64_S512x512_1_1_0_0_n_n.lhsIdx j q 0).val = (j 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem lhs_score_1 (j : S512x512.Idx) (q : dot_S512x64_S512x64_S512x512_1_1_0_0_n_n.contr.Idx) :
    (dot_S512x64_S512x64_S512x512_1_1_0_0_n_n.lhsIdx j q 1).val = (q ⟨0, by decide⟩).val :=
  dot_S512x64_S512x64_S512x512_1_1_0_0_n_n.lhsIdx_val_of_single rfl j q
theorem rhs_score_0 (j : S512x512.Idx) (q : dot_S512x64_S512x64_S512x512_1_1_0_0_n_n.contr.Idx) :
    (dot_S512x64_S512x64_S512x512_1_1_0_0_n_n.rhsIdx j q 0).val = (j 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem rhs_score_1 (j : S512x512.Idx) (q : dot_S512x64_S512x64_S512x512_1_1_0_0_n_n.contr.Idx) :
    (dot_S512x64_S512x64_S512x512_1_1_0_0_n_n.rhsIdx j q 1).val = (q ⟨0, by decide⟩).val :=
  dot_S512x64_S512x64_S512x512_1_1_0_0_n_n.rhsIdx_val_of_single rfl j q

/-- The product of a query tile with a key tile's transpose into the zero accumulator, at row `r` and column `c`: the
    sum over the head coordinate. -/
theorem matmul_score_apply (Q K : FVec Ideal S512x64 .bf16) (r c : Fin 512) :
    matmul dot_S512x64_S512x64_S512x512_1_1_0_0_n_n none Q K (constant (F := Ideal) S512x512 .f32 0x00000000#32) (ix2 r c)
      = ∑ e : Fin 64, Q (ix2 r e) * K (ix2 c e) := by
  simp only [matmul]
  rw [Ideal.matmul_constant_zero_apply, ← Equiv.sum_comp (ValueIdx.contrEquiv1 dot_S512x64_S512x64_S512x512_1_1_0_0_n_n 64 rfl rfl).symm]
  refine Finset.sum_congr rfl fun k _ => ?_
  have hk := ValueIdx.contrEquiv1_symm_val dot_S512x64_S512x64_S512x512_1_1_0_0_n_n 64 rfl rfl k
  have el : dot_S512x64_S512x64_S512x512_1_1_0_0_n_n.lhsIdx (ix2 r c) ((ValueIdx.contrEquiv1 dot_S512x64_S512x64_S512x512_1_1_0_0_n_n 64 rfl rfl).symm k) = ix2 r k := funext fun a => Fin.ext (by
    match a with
    | ⟨0, _⟩ => exact lhs_score_0 _ _
    | ⟨1, _⟩ => exact (lhs_score_1 _ _).trans hk)
  have er : dot_S512x64_S512x64_S512x512_1_1_0_0_n_n.rhsIdx (ix2 r c) ((ValueIdx.contrEquiv1 dot_S512x64_S512x64_S512x512_1_1_0_0_n_n 64 rfl rfl).symm k) = ix2 c k := funext fun a => Fin.ext (by
    match a with
    | ⟨0, _⟩ => exact rhs_score_0 _ _
    | ⟨1, _⟩ => exact (rhs_score_1 _ _).trans hk)
  rw [el, er]

/-- The named constant of the mask is `-∞`. -/
theorem neg_big : Named.named (F := Ideal) κ "neg_big" (φ := .f32) 0xFF333332#32 = (⊥ : EReal) :=
  IdealRules.named_const.ideal_named_scalar _ _ _ _ rfl

/-- The tile offset `(q - ki) · 512` computed on 32-bit words, for `ki ≤ q ≤ 3`. -/
theorem offset_word (q ki : ℕ) (hq : q ≤ 3) (hle : ki ≤ q) :
    Scalar.muli (Scalar.subi (BitVec.ofNat 32 q) (BitVec.ofNat 32 ki)) 512#32 = BitVec.ofNat 32 ((q - ki) * 512) := by
  interval_cases q <;> interval_cases ki <;> decide

/-- The mask bit: the signed comparison `row + offset ≥ col` of 32-bit words is the comparison of the numbers. -/
theorem mask_iff (off : ℕ) (hoff : off ≤ 1536) (r c : Fin 512) :
    IntOp.cmpi .sge (IntOp.addi (BitVec.ofNat 32 r.val) (BitVec.ofNat 32 off)) (BitVec.ofNat 32 c.val) = 1#1
      ↔ c.val ≤ r.val + off := by
  have hr := r.isLt
  have hc := c.isLt
  have e1 : IntOp.addi (BitVec.ofNat 32 r.val) (BitVec.ofNat 32 off) = BitVec.ofNat 32 (r.val + off) := by
    unfold IntOp.addi
    exact (BitVec.ofNat_add r.val off).symm
  have t1 : (BitVec.ofNat 32 (r.val + off)).toNat = r.val + off := by
    rw [BitVec.toNat_ofNat]; exact Nat.mod_eq_of_lt (by omega)
  have t2 : (BitVec.ofNat 32 c.val).toNat = c.val := by
    rw [BitVec.toNat_ofNat]; exact Nat.mod_eq_of_lt (by omega)
  rw [e1, StableHlo.Predicate.sge_iff_toNat (by rw [t1]; omega) (by rw [t2]; omega), t1, t2]

/-- The masked score with the offset word `w`: the score where the mask bit is 1, `-∞` elsewhere. -/
theorem score_word_apply (w : BitVec 32) (K Q : FVec Ideal S512x64 .bf16) (r c : Fin 512) :
    select (cmpi .sge (addi (iota .tc S512x512 32 [0] Facts₀.iota_S512x512_d0_w32) (broadcast S512x512 w))
        (iota .tc S512x512 32 [1] Facts₀.iota_S512x512_d1_w32))
      (matmul dot_S512x64_S512x64_S512x512_1_1_0_0_n_n none Q K (constant (F := Ideal) S512x512 .f32 0x00000000#32))
      (broadcast S512x512 (Named.named (F := Ideal) κ "neg_big" (φ := .f32) 0xFF333332#32)) (ix2 r c)
      = if IntOp.cmpi .sge (IntOp.addi (BitVec.ofNat 32 r.val) w) (BitVec.ofNat 32 c.val) = 1#1
          then ∑ e : Fin 64, Q (ix2 r e) * K (ix2 c e) else ⊥ := by
  rw [select_apply, matmul_score_apply, broadcast_apply, neg_big]
  show Scalar.select (IntOp.cmpi .sge (IntOp.addi (iota .tc S512x512 32 [0] Facts₀.iota_S512x512_d0_w32 (ix2 r c)) w)
    (iota .tc S512x512 32 [1] Facts₀.iota_S512x512_d1_w32 (ix2 r c))) _ _ = _
  rw [iota_single_apply, iota_single_apply]
  rfl

/-- The masked score at tile offset `(q - ki) · 512`, for `ki ≤ q ≤ 3`: the score on and below the shifted diagonal,
    `-∞` above it. -/
theorem score_off_apply (q : ℕ) (hq : q ≤ 3) (ki : ℕ) (hle : ki ≤ q) (K Q : FVec Ideal S512x64 .bf16) (r c : Fin 512) :
    select (cmpi .sge (addi (iota .tc S512x512 32 [0] Facts₀.iota_S512x512_d0_w32)
          (broadcast S512x512 (Scalar.muli (Scalar.subi (BitVec.ofNat 32 q) (BitVec.ofNat 32 ki)) 512#32)))
        (iota .tc S512x512 32 [1] Facts₀.iota_S512x512_d1_w32))
      (matmul dot_S512x64_S512x64_S512x512_1_1_0_0_n_n none Q K (constant (F := Ideal) S512x512 .f32 0x00000000#32))
      (broadcast S512x512 (Named.named (F := Ideal) κ "neg_big" (φ := .f32) 0xFF333332#32)) (ix2 r c)
      = if c.val ≤ r.val + (q - ki) * 512 then ∑ e : Fin 64, Q (ix2 r e) * K (ix2 c e) else ⊥ := by
  rw [score_word_apply, offset_word q ki hq hle]
  have hoff : (q - ki) * 512 ≤ 1536 := by
    have : q - ki ≤ 3 := by omega
    omega
  exact if_congr (mask_iff _ hoff r c) rfl rfl

theorem pay25_apply (i : grid0.Coords) (Kt Qt : Vec Ideal S512x64 .bf16) (r c : Fin 512) (ki : ℕ) (hk : (i 1).val = ki)
    (hle : ki ≤ 0) :
    k0_pay25 (F := Ideal) i Kt Qt (ix2 r c)
      = if c.val ≤ r.val + (0 - ki) * 512 then ∑ e : Fin 64, Qt (ix2 r e) * Kt (ix2 c e) else ⊥ := by
  subst hk
  exact score_off_apply 0 (by omega) _ hle Kt Qt r c

theorem pay28_apply (i : grid0.Coords) (Kt Qt : Vec Ideal S512x64 .bf16) (r c : Fin 512) (ki : ℕ) (hk : (i 1).val = ki)
    (hle : ki ≤ 1) :
    k0_pay28 (F := Ideal) i Kt Qt (ix2 r c)
      = if c.val ≤ r.val + (1 - ki) * 512 then ∑ e : Fin 64, Qt (ix2 r e) * Kt (ix2 c e) else ⊥ := by
  subst hk
  exact score_off_apply 1 (by omega) _ hle Kt Qt r c

theorem pay31_apply (i : grid0.Coords) (Kt Qt : Vec Ideal S512x64 .bf16) (r c : Fin 512) (ki : ℕ) (hk : (i 1).val = ki)
    (hle : ki ≤ 2) :
    k0_pay31 (F := Ideal) i Kt Qt (ix2 r c)
      = if c.val ≤ r.val + (2 - ki) * 512 then ∑ e : Fin 64, Qt (ix2 r e) * Kt (ix2 c e) else ⊥ := by
  subst hk
  exact score_off_apply 2 (by omega) _ hle Kt Qt r c

theorem pay34_apply (i : grid0.Coords) (Kt Qt : Vec Ideal S512x64 .bf16) (r c : Fin 512) (ki : ℕ) (hk : (i 1).val = ki)
    (hle : ki ≤ 3) :
    k0_pay34 (F := Ideal) i Kt Qt (ix2 r c)
      = if c.val ≤ r.val + (3 - ki) * 512 then ∑ e : Fin 64, Qt (ix2 r e) * Kt (ix2 c e) else ⊥ := by
  subst hk
  exact score_off_apply 3 (by omega) _ hle Kt Qt r c

/-- The stored score block is the score block: a cast to the same shape. -/
theorem pay26_eq (i : grid0.Coords) (Kt Qt : Vec Ideal S512x64 .bf16) :
    k0_pay26 (F := Ideal) i Kt Qt = k0_pay25 i Kt Qt := by
  unfold k0_pay26
  exact shapeCast_self _ _

theorem pay29_eq (i : grid0.Coords) (Kt Qt : Vec Ideal S512x64 .bf16) :
    k0_pay29 (F := Ideal) i Kt Qt = k0_pay28 i Kt Qt := by
  unfold k0_pay29
  exact shapeCast_self _ _

theorem pay32_eq (i : grid0.Coords) (Kt Qt : Vec Ideal S512x64 .bf16) :
    k0_pay32 (F := Ideal) i Kt Qt = k0_pay31 i Kt Qt := by
  unfold k0_pay32
  exact shapeCast_self _ _

theorem pay35_eq (i : grid0.Coords) (Kt Qt : Vec Ideal S512x64 .bf16) :
    k0_pay35 (F := Ideal) i Kt Qt = k0_pay34 i Kt Qt := by
  unfold k0_pay35
  exact shapeCast_self _ _

/-! ## The running column maximum -/

/-- The index a reduction over the rows puts back, by coordinates. -/
theorem lift_rows (h : S512x512.Reduces [0] S512) (c r : Fin 512) : h.lift (ix1 c) r = ix2 r c :=
  funext fun a => Fin.ext (by
    match a with
    | ⟨0, _⟩ => rfl
    | ⟨1, _⟩ => rfl)

/-- The maximum over the rows of a block, at column `c`: the fold of `max` from `-∞` over the rows. -/
theorem colmax_apply (src : FVec Ideal S512x512 .f32) (h : S512x512.Reduces [0] S512) (hφ : FKind.Formats .f32)
    (hacc : (0xFF800000#32 : BitVec 32) = 0xFF800000#32) (c : Fin 512) :
    multiReduction (F := Ideal) .maximumf [0] S512 src 0xFF800000#32 h hφ hacc (ix1 c)
      = (Finset.univ : Finset (Fin 512)).fold max ⊥ fun r => src (ix2 r c) := by
  refine (Ideal.multiReduction_maximumf_single src 0xFF800000#32 h hφ hacc (ix1 c)).trans ?_
  show (Finset.univ : Finset (Fin 512)).fold max (Ideal.ofBits .f32 0xFF800000#32) (fun r => src (h.lift (ix1 c) r)) = _
  rw [ofBits_neg_inf]
  exact congrArg (fun f : Fin 512 → EReal => (Finset.univ : Finset (Fin 512)).fold max ⊥ f)
    (funext fun r => congrArg src (lift_rows h c r))

theorem pay27_apply (i : grid0.Coords) (Kt Qt : Vec Ideal S512x64 .bf16) (Mp : Vec Ideal S1x512 .f32) (c : Fin 512) :
    k0_pay27 (F := Ideal) i Kt Qt Mp (ix2 (0 : Fin 1) c)
      = max (Mp (ix2 0 c)) ((Finset.univ : Finset (Fin 512)).fold max ⊥ fun r => k0_pay25 i Kt Qt (ix2 r c)) := by
  unfold k0_pay27
  rw [shapeCast_self, maximumf_apply, shapeCast_a_1a_apply]
  exact congrArg (max (Mp (ix2 0 c))) (colmax_apply _ _ _ _ c)

theorem pay30_apply (i : grid0.Coords) (Kt Qt : Vec Ideal S512x64 .bf16) (Mp : Vec Ideal S1x512 .f32) (c : Fin 512) :
    k0_pay30 (F := Ideal) i Kt Qt Mp (ix2 (0 : Fin 1) c)
      = max (Mp (ix2 0 c)) ((Finset.univ : Finset (Fin 512)).fold max ⊥ fun r => k0_pay28 i Kt Qt (ix2 r c)) := by
  unfold k0_pay30
  rw [shapeCast_self, maximumf_apply, shapeCast_a_1a_apply]
  exact congrArg (max (Mp (ix2 0 c))) (colmax_apply _ _ _ _ c)

theorem pay33_apply (i : grid0.Coords) (Kt Qt : Vec Ideal S512x64 .bf16) (Mp : Vec Ideal S1x512 .f32) (c : Fin 512) :
    k0_pay33 (F := Ideal) i Kt Qt Mp (ix2 (0 : Fin 1) c)
      = max (Mp (ix2 0 c)) ((Finset.univ : Finset (Fin 512)).fold max ⊥ fun r => k0_pay31 i Kt Qt (ix2 r c)) := by
  unfold k0_pay33
  rw [shapeCast_self, maximumf_apply, shapeCast_a_1a_apply]
  exact congrArg (max (Mp (ix2 0 c))) (colmax_apply _ _ _ _ c)

theorem pay36_apply (i : grid0.Coords) (Kt Qt : Vec Ideal S512x64 .bf16) (Mp : Vec Ideal S1x512 .f32) (c : Fin 512) :
    k0_pay36 (F := Ideal) i Kt Qt Mp (ix2 (0 : Fin 1) c)
      = max (Mp (ix2 0 c)) ((Finset.univ : Finset (Fin 512)).fold max ⊥ fun r => k0_pay34 i Kt Qt (ix2 r c)) := by
  unfold k0_pay36
  rw [shapeCast_self, maximumf_apply, shapeCast_a_1a_apply]
  exact congrArg (max (Mp (ix2 0 c))) (colmax_apply _ _ _ _ c)

end Cert.KernelIdeal.Pay

end
-- ==== Proof.KIPayB.lean ====
/-
  The attention kernel's pass-B and pass-C arithmetic read at an index, over the extended reals: the shifted
  exponential of a score block against a row of column maxima, its column sums added to the running sums, the value
  tile divided row by row by the column sums, and the product of a probability block with that scaled value tile
  added to the output block.
-/
import proofs.«422935_j26276609917310_3_alg».proof.Proof.Gen.KernelIdeal.Skeleton
import proofs.«422935_j26276609917310_3_alg».proof.Proof.AttnSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Pay

open Idealize.ShloMosaic Idealize.ShloMosaic.ValueIdx Cert.KernelIdeal Cert.KernelIdeal.Gen

/-! ## The shifted exponential of a score block -/

/-- The exponential of a block read at an index is the extended reals' exponential of the element. -/
theorem exp_apply {s : Shape} {φ : FTy} (a : FVec Ideal s φ) (i : s.Idx) : exp a i = Ideal.exp (a i) := rfl

/-- Query tile 0: the block's element minus its column's maximum, exponentiated. -/
theorem pay1_apply (Sb : Vec Ideal S512x512 .f32) (M : Vec Ideal S1x512 .f32) (r c : Fin 512) :
    k0_pay1 (F := Ideal) Sb M (ix2 r c) = Ideal.exp (Sb (ix2 r c) - M (ix2 (0 : Fin 1) c)) := by
  unfold k0_pay1
  rw [exp_apply, subf_apply, broadcastTo_1b_ab_apply]

/-- Query tile 1. -/
theorem pay4_apply (Sb : Vec Ideal S512x512 .f32) (M : Vec Ideal S1x512 .f32) (r c : Fin 512) :
    k0_pay4 (F := Ideal) Sb M (ix2 r c) = Ideal.exp (Sb (ix2 r c) - M (ix2 (0 : Fin 1) c)) := by
  unfold k0_pay4
  rw [exp_apply, subf_apply, broadcastTo_1b_ab_apply]

/-- Query tile 2. -/
theorem pay7_apply (Sb : Vec Ideal S512x512 .f32) (M : Vec Ideal S1x512 .f32) (r c : Fin 512) :
    k0_pay7 (F := Ideal) Sb M (ix2 r c) = Ideal.exp (Sb (ix2 r c) - M (ix2 (0 : Fin 1) c)) := by
  unfold k0_pay7
  rw [exp_apply, subf_apply, broadcastTo_1b_ab_apply]

/-- Query tile 3. -/
theorem pay10_apply (Sb : Vec Ideal S512x512 .f32) (M : Vec Ideal S1x512 .f32) (r c : Fin 512) :
    k0_pay10 (F := Ideal) Sb M (ix2 r c) = Ideal.exp (Sb (ix2 r c) - M (ix2 (0 : Fin 1) c)) := by
  unfold k0_pay10
  rw [exp_apply, subf_apply, broadcastTo_1b_ab_apply]

/-! ## The stored probability block: the same values (a narrowing is the identity on extended reals) -/

theorem pay2_eq (Sb : Vec Ideal S512x512 .f32) (M : Vec Ideal S1x512 .f32) :
    k0_pay2 (F := Ideal) Sb M = k0_pay1 Sb M := by
  unfold k0_pay2
  dsimp only
  rw [shapeCast_self]
  rfl

theorem pay5_eq (Sb : Vec Ideal S512x512 .f32) (M : Vec Ideal S1x512 .f32) :
    k0_pay5 (F := Ideal) Sb M = k0_pay4 Sb M := by
  unfold k0_pay5
  dsimp only
  rw [shapeCast_self]
  rfl

theorem pay8_eq (Sb : Vec Ideal S512x512 .f32) (M : Vec Ideal S1x512 .f32) :
    k0_pay8 (F := Ideal) Sb M = k0_pay7 Sb M := by
  unfold k0_pay8
  dsimp only
  rw [shapeCast_self]
  rfl

theorem pay11_eq (Sb : Vec Ideal S512x512 .f32) (M : Vec Ideal S1x512 .f32) :
    k0_pay11 (F := Ideal) Sb M = k0_pay10 Sb M := by
  unfold k0_pay11
  dsimp only
  rw [shapeCast_self]
  rfl

/-! ## The running column sums -/

/-- The sum of a 512 × 512 block over its rows, read at a column. -/
theorem colsum_apply (X : FVec Ideal S512x512 .f32) (h : S512x512.Reduces [0] S512) (hφ : FKind.Formats .f32)
    (hacc : (0x00000000#32 : BitVec FTy.f32.bits) = FKind.add.neutral .f32 hφ) (c : Fin 512) :
    multiReduction (F := Ideal) .add [0] S512 X 0x00000000#32 h hφ hacc (ix1 c) = ∑ r : Fin 512, X (ix2 r c) := by
  refine (Ideal.multiReduction_add_single X 0x00000000#32 h hφ hacc (ix1 c)).trans ?_
  refine Finset.sum_congr rfl fun r _ => congrArg X ?_
  funext a
  refine Fin.ext ?_
  match a with
  | ⟨0, _⟩ => rfl
  | ⟨1, _⟩ => rfl

theorem pay3_apply (Sb : Vec Ideal S512x512 .f32) (M Lp : Vec Ideal S1x512 .f32) (c : Fin 512) :
    k0_pay3 (F := Ideal) Sb M Lp (ix2 (0 : Fin 1) c) = Lp (ix2 0 c) + ∑ r : Fin 512, k0_pay1 Sb M (ix2 r c) := by
  unfold k0_pay3
  dsimp only
  rw [shapeCast_self, addf_apply, shapeCast_a_1a_apply]
  exact congrArg (Lp (ix2 0 c) + ·) (colsum_apply _ _ _ _ c)

theorem pay6_apply (Sb : Vec Ideal S512x512 .f32) (M Lp : Vec Ideal S1x512 .f32) (c : Fin 512) :
    k0_pay6 (F := Ideal) Sb M Lp (ix2 (0 : Fin 1) c) = Lp (ix2 0 c) + ∑ r : Fin 512, k0_pay4 Sb M (ix2 r c) := by
  unfold k0_pay6
  dsimp only
  rw [shapeCast_self, addf_apply, shapeCast_a_1a_apply]
  exact congrArg (Lp (ix2 0 c) + ·) (colsum_apply _ _ _ _ c)

theorem pay9_apply (Sb : Vec Ideal S512x512 .f32) (M Lp : Vec Ideal S1x512 .f32) (c : Fin 512) :
    k0_pay9 (F := Ideal) Sb M Lp (ix2 (0 : Fin 1) c) = Lp (ix2 0 c) + ∑ r : Fin 512, k0_pay7 Sb M (ix2 r c) := by
  unfold k0_pay9
  dsimp only
  rw [shapeCast_self, addf_apply, shapeCast_a_1a_apply]
  exact congrArg (Lp (ix2 0 c) + ·) (colsum_apply _ _ _ _ c)

theorem pay12_apply (Sb : Vec Ideal S512x512 .f32) (M Lp : Vec Ideal S1x512 .f32) (c : Fin 512) :
    k0_pay12 (F := Ideal) Sb M Lp (ix2 (0 : Fin 1) c) = Lp (ix2 0 c) + ∑ r : Fin 512, k0_pay10 Sb M (ix2 r c) := by
  unfold k0_pay12
  dsimp only
  rw [shapeCast_self, addf_apply, shapeCast_a_1a_apply]
  exact congrArg (Lp (ix2 0 c) + ·) (colsum_apply _ _ _ _ c)

/-! ## The value tile divided by the column sums -/

/-- A row `[1, a]` transposed to a column `[a, 1]` and broadcast along `b` lanes reads, at `(i, j)`, the row at `i`. -/
theorem col_bcast_apply (L : FVec Ideal S1x512 .f32) (ht : S1x512.Transposes [1, 0] S512x1) (hb : S512x1.Broadcasts S512x64)
    (c : Fin 512) (d : Fin 64) :
    broadcastTo S512x64 (transpose S512x1 [1, 0] L ht) hb (ix2 c d) = L (ix2 (0 : Fin 1) c) := by
  refine (broadcastTo_apply _ hb (ix2 c d) (ix2 c (0 : Fin 1)) fun ax => ?_).trans ?_
  · match ax with
    | ⟨0, _⟩ => rfl
    | ⟨1, _⟩ => rfl
  · exact transpose_ix2_apply L ht c (0 : Fin 1)

theorem pay13_apply (Vt : Vec Ideal S512x64 .bf16) (L : Vec Ideal S1x512 .f32) (c : Fin 512) (d : Fin 64) :
    k0_pay13 (F := Ideal) Vt L (ix2 c d) = Ideal.div (Vt (ix2 c d)) (L (ix2 (0 : Fin 1) c)) := by
  unfold k0_pay13
  dsimp only
  rw [truncf_apply, divf_apply, extf_apply, col_bcast_apply]

/-! ## The probability block times the scaled value tile, added to the output block -/

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The product of a 512 × 512 block with a 512 × 64 block into the zero accumulator, read at `(r, d)`: the sum over
    the shared axis of the products. -/
theorem pv_apply (A : FVec Ideal S512x512 .bf16) (B : FVec Ideal S512x64 .bf16) (r : Fin 512) (d : Fin 64) :
    matmul dot_S512x512_S512x64_S512x64_1_0_0_1_n_n none A B (constant (F := Ideal) S512x64 .f32 0x00000000#32) (ix2 r d)
      = ∑ e : Fin 512, A (ix2 r e) * B (ix2 e d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r d) ((contrEquiv1 dot_S512x512_S512x64_S512x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

theorem pay14_apply (Vt : Vec Ideal S512x64 .bf16) (L : Vec Ideal S1x512 .f32) (Pb : Vec Ideal S512x512 .bf16)
    (Ob : Vec Ideal S1x512x64 .f32) (r : Fin 512) (d : Fin 64) :
    k0_pay14 (F := Ideal) Vt L Pb Ob (ix3 (0 : Fin 1) r d)
      = Ob (ix3 0 r d) + ∑ e : Fin 512, Pb (ix2 r e) * k0_pay13 Vt L (ix2 e d) := by
  unfold k0_pay14
  rw [shapeCast_ab_1ab_apply, addf_apply, shapeCast_1ab_ab_apply]
  exact congrArg (Ob (ix3 0 r d) + ·) (pv_apply Pb (k0_pay13 Vt L) r d)

theorem pay15_apply (Vt : Vec Ideal S512x64 .bf16) (L : Vec Ideal S1x512 .f32) (Pb : Vec Ideal S512x512 .bf16)
    (Ob : Vec Ideal S1x512x64 .f32) (r : Fin 512) (d : Fin 64) :
    k0_pay15 (F := Ideal) Vt L Pb Ob (ix3 (0 : Fin 1) r d)
      = Ob (ix3 0 r d) + ∑ e : Fin 512, Pb (ix2 r e) * k0_pay13 Vt L (ix2 e d) := by
  unfold k0_pay15
  rw [shapeCast_ab_1ab_apply, addf_apply, shapeCast_1ab_ab_apply]
  exact congrArg (Ob (ix3 0 r d) + ·) (pv_apply Pb (k0_pay13 Vt L) r d)

theorem pay16_apply (Vt : Vec Ideal S512x64 .bf16) (L : Vec Ideal S1x512 .f32) (Pb : Vec Ideal S512x512 .bf16)
    (Ob : Vec Ideal S1x512x64 .f32) (r : Fin 512) (d : Fin 64) :
    k0_pay16 (F := Ideal) Vt L Pb Ob (ix3 (0 : Fin 1) r d)
      = Ob (ix3 0 r d) + ∑ e : Fin 512, Pb (ix2 r e) * k0_pay13 Vt L (ix2 e d) := by
  unfold k0_pay16
  rw [shapeCast_ab_1ab_apply, addf_apply, shapeCast_1ab_ab_apply]
  exact congrArg (Ob (ix3 0 r d) + ·) (pv_apply Pb (k0_pay13 Vt L) r d)

theorem pay17_apply (Vt : Vec Ideal S512x64 .bf16) (L : Vec Ideal S1x512 .f32) (Pb : Vec Ideal S512x512 .bf16)
    (Ob : Vec Ideal S1x512x64 .f32) (r : Fin 512) (d : Fin 64) :
    k0_pay17 (F := Ideal) Vt L Pb Ob (ix3 (0 : Fin 1) r d)
      = Ob (ix3 0 r d) + ∑ e : Fin 512, Pb (ix2 r e) * k0_pay13 Vt L (ix2 e d) := by
  unfold k0_pay17
  rw [shapeCast_ab_1ab_apply, addf_apply, shapeCast_1ab_ab_apply]
  exact congrArg (Ob (ix3 0 r d) + ·) (pv_apply Pb (k0_pay13 Vt L) r d)

end Cert.KernelIdeal.Pay

end
-- ==== Proof.AttnTile.lean ====
/-
  One key tile's share of the attention output as a function of three cached arrays — the scaled queries `Q`, the
  keys `K` and the values `V` of ONE batch, each indexed by position and head coordinate — rather than of the
  program's inputs. `AttnSpec`'s tile form is this at the projections of a batch (`tcontrib_eq`). The body of the
  kernel works on the cached arrays, so this is the form its stores are read in.
-/
import proofs.«422935_j26276609917310_3_alg».proof.Proof.AttnSpec

noncomputable section

open scoped BigOperators

namespace Cert.AttnTile

open Idealize.ShloMosaic Idealize.ShloMosaic.ValueIdx Cert.AttnSpec

section

variable (Q K V : Fin 2048 → Fin 64 → EReal)

/-- The masked score of query `i` against key `j`. -/
def gscore (i j : Fin 2048) : EReal := if j.val ≤ i.val then ∑ e : Fin 64, Q i e * K j e else ⊥

/-- The maximum of column `c` of key tile `k` over query tile `q`. -/
def gmax1 (q k : Fin 4) (c : Fin 512) : EReal :=
  (Finset.univ : Finset (Fin 512)).fold max ⊥ fun r => gscore Q K (gi q r) (gi k c)

/-- The maximum of column `c` of key tile `k` over the query tiles `q ≥ k`. -/
def gmax (k : Fin 4) (c : Fin 512) : EReal :=
  (Finset.univ.filter fun q : Fin 4 => k ≤ q).fold max ⊥ fun q => gmax1 Q K q k c

/-- The shifted exponential. -/
def gp (k : Fin 4) (i : Fin 2048) (c : Fin 512) : EReal := Ideal.exp (gscore Q K i (gi k c) - gmax Q K k c)

/-- The sum of column `c` of key tile `k` over the query tiles `q ≥ k`. -/
def gsum (k : Fin 4) (c : Fin 512) : EReal :=
  ∑ q ∈ Finset.univ.filter (fun q : Fin 4 => k ≤ q), ∑ r : Fin 512, gp Q K k (gi q r) c

/-- What key tile `k` adds to output row `i`. -/
def gcontrib (k : Fin 4) (i : Fin 2048) (d : Fin 64) : EReal :=
  ∑ c : Fin 512, gp Q K k i c * Ideal.div (V (gi k c) d) (gsum Q K k c)

end

/-- The tile form of `AttnSpec` is the cached-array form at a batch's projections. -/
theorem tcontrib_eq (x : SX.Idx → EReal) (wq wk wv : SW.Idx → EReal) (b : Fin 8) (k : Fin 4) (i : Fin 2048) (d : Fin 64) :
    tcontrib x wq wk wv b k i d = gcontrib (qs x wq b) (proj x wk b) (proj x wv b) k i d := rfl

end Cert.AttnTile

end
-- ==== Proof.AttnTileAlg.lean ====
/-
  The tile form's column maximum, column sum and output row, written in the order a running accumulation
  associates them: a fold of `max` from `-∞`, a sum from `0`, one query tile (or key tile) at a time. These are
  re-associations in the extended reals, where `+` is associative and commutative with `0` neutral and `max`
  likewise with `-∞` neutral; no finiteness is involved.
-/
import proofs.«422935_j26276609917310_3_alg».proof.Proof.AttnTile
import Mathlib.Data.Finset.Fold
import Mathlib.Algebra.BigOperators.Group.Finset.Basic

noncomputable section

open scoped BigOperators

namespace Cert.AttnTile

open Idealize.ShloMosaic Idealize.ShloMosaic.ValueIdx Cert.AttnSpec

/-! ## The tiles at or after a given one -/

theorem filter_ge0 : (Finset.univ.filter fun q : Fin 4 => (0 : Fin 4) ≤ q) = {0, 1, 2, 3} := by decide
theorem filter_ge1 : (Finset.univ.filter fun q : Fin 4 => (1 : Fin 4) ≤ q) = {1, 2, 3} := by decide
theorem filter_ge2 : (Finset.univ.filter fun q : Fin 4 => (2 : Fin 4) ≤ q) = {2, 3} := by decide
theorem filter_ge3 : (Finset.univ.filter fun q : Fin 4 => (3 : Fin 4) ≤ q) = {3} := by decide

/-! ## A fold of `max` over them, as a running maximum from `-∞` -/

theorem fold_max_ge0 (f : Fin 4 → EReal) : (Finset.univ.filter fun q : Fin 4 => (0 : Fin 4) ≤ q).fold max ⊥ f
    = max (max (max (max ⊥ (f 0)) (f 1)) (f 2)) (f 3) := by
  rw [filter_ge0, Finset.fold_insert (by decide), Finset.fold_insert (by decide), Finset.fold_insert (by decide),
    Finset.fold_singleton]
  simp only [max_bot_left, max_bot_right, max_assoc]

theorem fold_max_ge1 (f : Fin 4 → EReal) : (Finset.univ.filter fun q : Fin 4 => (1 : Fin 4) ≤ q).fold max ⊥ f
    = max (max (max ⊥ (f 1)) (f 2)) (f 3) := by
  rw [filter_ge1, Finset.fold_insert (by decide), Finset.fold_insert (by decide), Finset.fold_singleton]
  simp only [max_bot_left, max_bot_right, max_assoc]

theorem fold_max_ge2 (f : Fin 4 → EReal) : (Finset.univ.filter fun q : Fin 4 => (2 : Fin 4) ≤ q).fold max ⊥ f
    = max (max ⊥ (f 2)) (f 3) := by
  rw [filter_ge2, Finset.fold_insert (by decide), Finset.fold_singleton]
  simp only [max_bot_left, max_bot_right]

theorem fold_max_ge3 (f : Fin 4 → EReal) : (Finset.univ.filter fun q : Fin 4 => (3 : Fin 4) ≤ q).fold max ⊥ f
    = max ⊥ (f 3) := by
  rw [filter_ge3, Finset.fold_singleton]
  simp only [max_bot_left, max_bot_right]

/-! ## A sum over them, as a running sum from `0` -/

theorem sum_ge0 (f : Fin 4 → EReal) : ∑ q ∈ Finset.univ.filter (fun q : Fin 4 => (0 : Fin 4) ≤ q), f q
    = (((0 + f 0) + f 1) + f 2) + f 3 := by
  rw [filter_ge0, Finset.sum_insert (by decide), Finset.sum_insert (by decide), Finset.sum_insert (by decide),
    Finset.sum_singleton]
  simp only [zero_add, add_assoc]

theorem sum_ge1 (f : Fin 4 → EReal) : ∑ q ∈ Finset.univ.filter (fun q : Fin 4 => (1 : Fin 4) ≤ q), f q
    = ((0 + f 1) + f 2) + f 3 := by
  rw [filter_ge1, Finset.sum_insert (by decide), Finset.sum_insert (by decide), Finset.sum_singleton]
  simp only [zero_add, add_assoc]

theorem sum_ge2 (f : Fin 4 → EReal) : ∑ q ∈ Finset.univ.filter (fun q : Fin 4 => (2 : Fin 4) ≤ q), f q
    = (0 + f 2) + f 3 := by
  rw [filter_ge2, Finset.sum_insert (by decide), Finset.sum_singleton]
  simp only [zero_add]

theorem sum_ge3 (f : Fin 4 → EReal) : ∑ q ∈ Finset.univ.filter (fun q : Fin 4 => (3 : Fin 4) ≤ q), f q
    = 0 + f 3 := by
  rw [filter_ge3, Finset.sum_singleton, zero_add]

section

variable (Q K V : Fin 2048 → Fin 64 → EReal) (c : Fin 512) (i : Fin 2048) (d : Fin 64)

/-! ## The column maximum -/

theorem gmax_at0 : gmax Q K 0 c
    = max (max (max (max ⊥ (gmax1 Q K 0 0 c)) (gmax1 Q K 1 0 c)) (gmax1 Q K 2 0 c)) (gmax1 Q K 3 0 c) :=
  fold_max_ge0 fun q => gmax1 Q K q 0 c

theorem gmax_at1 : gmax Q K 1 c = max (max (max ⊥ (gmax1 Q K 1 1 c)) (gmax1 Q K 2 1 c)) (gmax1 Q K 3 1 c) :=
  fold_max_ge1 fun q => gmax1 Q K q 1 c

theorem gmax_at2 : gmax Q K 2 c = max (max ⊥ (gmax1 Q K 2 2 c)) (gmax1 Q K 3 2 c) :=
  fold_max_ge2 fun q => gmax1 Q K q 2 c

theorem gmax_at3 : gmax Q K 3 c = max ⊥ (gmax1 Q K 3 3 c) :=
  fold_max_ge3 fun q => gmax1 Q K q 3 c

/-! ## The column sum -/

theorem gsum_at0 : gsum Q K 0 c
    = (((0 + ∑ r : Fin 512, gp Q K 0 (gi 0 r) c) + ∑ r : Fin 512, gp Q K 0 (gi 1 r) c)
        + ∑ r : Fin 512, gp Q K 0 (gi 2 r) c) + ∑ r : Fin 512, gp Q K 0 (gi 3 r) c :=
  sum_ge0 fun q => ∑ r : Fin 512, gp Q K 0 (gi q r) c

theorem gsum_at1 : gsum Q K 1 c
    = ((0 + ∑ r : Fin 512, gp Q K 1 (gi 1 r) c) + ∑ r : Fin 512, gp Q K 1 (gi 2 r) c)
        + ∑ r : Fin 512, gp Q K 1 (gi 3 r) c :=
  sum_ge1 fun q => ∑ r : Fin 512, gp Q K 1 (gi q r) c

theorem gsum_at2 : gsum Q K 2 c
    = (0 + ∑ r : Fin 512, gp Q K 2 (gi 2 r) c) + ∑ r : Fin 512, gp Q K 2 (gi 3 r) c :=
  sum_ge2 fun q => ∑ r : Fin 512, gp Q K 2 (gi q r) c

theorem gsum_at3 : gsum Q K 3 c = 0 + ∑ r : Fin 512, gp Q K 3 (gi 3 r) c :=
  sum_ge3 fun q => ∑ r : Fin 512, gp Q K 3 (gi q r) c

/-! ## The output row, one key tile at a time -/

/-- What the key tiles up to `ki` that lie at or before row `i`'s own add to it. -/
def acc (ki : ℕ) (i : Fin 2048) (d : Fin 64) : EReal :=
  ∑ k ∈ Finset.univ.filter (fun k : Fin 4 => k.val ≤ ki ∧ k.val * 512 ≤ i.val), gcontrib Q K V k i d

theorem acc_zero : acc Q K V 0 i d = 0 + gcontrib Q K V 0 i d := by
  have hset : (Finset.univ.filter fun k : Fin 4 => k.val ≤ 0 ∧ k.val * 512 ≤ i.val) = {0} := by
    ext k
    simp only [Finset.mem_filter, Finset.mem_univ, true_and, Finset.mem_singleton, Fin.ext_iff, Fin.val_zero]
    omega
  unfold acc
  rw [hset, Finset.sum_singleton, zero_add]

theorem acc_succ (ki : ℕ) (hki : ki < 3) : acc Q K V (ki + 1) i d
    = if (ki + 1) * 512 ≤ i.val then acc Q K V ki i d + gcontrib Q K V ⟨ki + 1, by omega⟩ i d
      else acc Q K V ki i d := by
  unfold acc
  split_ifs with h
  · have hset : (Finset.univ.filter fun k : Fin 4 => k.val ≤ ki + 1 ∧ k.val * 512 ≤ i.val)
        = insert (⟨ki + 1, by omega⟩ : Fin 4)
            (Finset.univ.filter fun k : Fin 4 => k.val ≤ ki ∧ k.val * 512 ≤ i.val) := by
      ext k
      simp only [Finset.mem_filter, Finset.mem_univ, true_and, Finset.mem_insert, Fin.ext_iff]
      omega
    have hnot : (⟨ki + 1, by omega⟩ : Fin 4)
        ∉ Finset.univ.filter fun k : Fin 4 => k.val ≤ ki ∧ k.val * 512 ≤ i.val := by
      simp only [Finset.mem_filter, Finset.mem_univ, true_and]
      omega
    rw [hset, Finset.sum_insert hnot, add_comm]
  · refine Finset.sum_congr (Finset.filter_congr fun k _ => ?_) fun _ _ => rfl
    constructor <;> intro hk <;> omega

end

/-- The tile form's output row is the accumulation over all four key tiles. -/
theorem tileOut_eq_acc (x : SX.Idx → EReal) (wq wk wv : SW.Idx → EReal) (b : Fin 8) (i : Fin 2048) (d : Fin 64) :
    AttnSpec.tileOut x wq wk wv b i d
      = acc (AttnSpec.qs x wq b) (AttnSpec.proj x wk b) (AttnSpec.proj x wv b) 3 i d := by
  unfold AttnSpec.tileOut acc
  refine Finset.sum_congr (Finset.filter_congr fun k _ => ?_) fun k _ => tcontrib_eq x wq wk wv b k i d
  have := k.isLt
  constructor
  · intro hk; exact ⟨by omega, hk⟩
  · intro hk; exact hk.2

end Cert.AttnTile

end
-- ==== Proof.KIValA.lean ====
/-
  Key tile 0 of the attention kernel: what the body's stores leave in the three caches and in the output block,
  read back as mathematics. The caches hold the three projections of the batch's block; the output block holds, at
  each row, the first key tile's share of the attention output.
-/
import proofs.«422935_j26276609917310_3_alg».proof.Proof.KIRunD
import proofs.«422935_j26276609917310_3_alg».proof.Proof.KIPayA
import proofs.«422935_j26276609917310_3_alg».proof.Proof.KIPayB
import proofs.«422935_j26276609917310_3_alg».proof.Proof.AttnTileAlg
import Idealize.ShloMosaic.Lib.Pipeline.FrameBody
import Idealize.ShloMosaic.Lib.Pipeline.Value
import Idealize.ShloMosaic.Lib.WholeRead
import Idealize.ShloMosaic.Lib.Writes
import Idealize.ShloMosaic.Lib.WritesUnit
import Idealize.ShloMosaic.Lib.Exec.Geometry

set_option maxRecDepth 16384

noncomputable section

namespace Cert.KernelIdeal.ValA

open Idealize.ShloMosaic Idealize.ShloMosaic.TcCoe Idealize.ShloMosaic.Tactic Idealize.ShloMosaic.ValueIdx
open Cert.KernelIdeal Cert.KernelIdeal.Gen Cert.KernelIdeal.Pay
open scoped BigOperators

/-! ## Reading a list of stores at an index -/

section Canon

variable {s : Shape} {e : EltTy}

/-- An index at position `x` of the newest store's unit-stride rectangle reads that store's payload at `x`. -/
theorem canon_unit_mem {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

/-- An index that misses the newest store's unit-stride rectangle on axis `a` reads the earlier stores. -/
theorem canon_unit_not_mem {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y := by
  refine View.canon_cons_of_not_mem _ L ?_
  show y ∉ (Rect.unit off size inb).set
  rw [Rect.mem_set_unit]
  intro hall
  have := hall a
  omega

/-- A load through a unit-stride rectangle after the stores `L`, at position `j`: what the stores left at the index
    `y` that is the rectangle's offsets plus `j`. -/
theorem readCov_unit_apply {sg : RefSig} {κ : Kind} {sp : Space} (v : View sg κ sp s e)
    (L : List (View.Piece (Elt Ideal) s e)) {off size : Fin s.rank → ℕ} (inb : ∀ a, off a + size a ≤ s.size a)
    (j : (Rect.unit off size inb).shape.Idx) (y : s.Idx) (hy : ∀ a, (y a).val = off a + (j a).val) :
    v.readCov L (Rect.unit off size inb).toLoadRect j = View.canon L y := by
  rw [View.readCov_eq_canon']
  refine congrArg (View.canon L) (funext fun a => Fin.ext ?_)
  show off a + 1 * (j a).val = (y a).val
  rw [hy a, Nat.one_mul]

/-- The same for a load of the stores `L` made over unspecified contents, the offsets given up to an equation. -/
theorem readAt_junk_unit_apply {sg : RefSig} {κ : Kind} {sp : Space} (v : View sg κ sp s e)
    (L : List (View.Piece (Elt Ideal) s e)) {off off' size : Fin s.rank → ℕ} (inb : ∀ a, off a + size a ≤ s.size a)
    (heq : off = off') (j : (Rect.unit off size inb).shape.Idx) (y : s.Idx) (hy : ∀ a, (y a).val = off' a + (j a).val) :
    v.readAt (Elt Ideal) (Rect.unit off size inb).toLoadRect (v.writes (Elt Ideal) v.junk L) j = View.canon L y := by
  subst heq
  rw [View.readAt_writes_junk_eq_canon]
  refine congrArg (View.canon L) (funext fun a => Fin.ext ?_)
  show off a + 1 * (j a).val = (y a).val
  rw [hy a, Nat.one_mul]

/-- A load of a whole memref held at contents `X`, through the whole-shape rectangle at zero offsets, reads `X`. -/
theorem load_whole {sg : RefSig} {κ : Kind} {sp : Space} (m : Memref sg κ sp s e) (hm : m.IsWhole) (X : s.Idx → Elt Ideal e)
    {off : Fin s.rank → ℕ} (h0 : off = fun _ => 0) (inb : ∀ a, off a + s.size a ≤ s.size a) :
    View.readAt (Elt Ideal) m.view (Rect.unit off s.size inb).toLoadRect (hm.unread X) = X := by
  funext x
  rw [hm.readAt_unread X]
  subst h0
  refine congrArg X (funext fun a => Fin.ext ?_)
  show 0 + 1 * (x a).val = (x a).val
  rw [Nat.zero_add, Nat.one_mul]

end Canon

/-! ## The cached arrays -/

/-- The scaled query, the key and the value projections of a batch's block, by position and head coordinate. -/
abbrev Qc (x0 : Vec Ideal S1x2048x384 .f32) (x1 : Vec Ideal S384x64 .f32) : Fin 2048 → Fin 64 → EReal :=
  fun p e => (∑ e' : Fin 384, x0 (ix3 (0 : Fin 1) p e') * x1 (ix2 e' e)) * Cert.AttnSpec.eighth
abbrev Pc (x0 : Vec Ideal S1x2048x384 .f32) (w : Vec Ideal S384x64 .f32) : Fin 2048 → Fin 64 → EReal :=
  fun p e => ∑ e' : Fin 384, x0 (ix3 (0 : Fin 1) p e') * w (ix2 e' e)

theorem zero2 : (![0, 0] : Fin 2 → ℕ) = fun _ => 0 := by funext a; fin_cases a <;> rfl
theorem zero3 : (![0, 0, 0] : Fin 3 → ℕ) = fun _ => 0 := by funext a; fin_cases a <;> rfl

theorem qcache_canon (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    View.canon (kernelRun0_A.sl.HS0_1 (F := Ideal) c arg2 harg2 arg3 harg3 x0 x1) (ix2 s d) = Qc x0 x1 s d := by
  unfold kernelRun0_A.sl.HS0_1
  rw [View.canon_unit_zero zero2, load_whole arg2 harg2 x0 zero3, load_whole arg3 harg3 x1 zero2]
  exact pay19_apply x0 x1 s d

theorem kcache_canon (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    View.canon (kernelRun0_A.sl.HS1_1 (F := Ideal) c arg2 harg2 arg4 harg4 x0 x2) (ix2 s d) = Pc x0 x2 s d := by
  unfold kernelRun0_A.sl.HS1_1
  rw [View.canon_unit_zero zero2, load_whole arg2 harg2 x0 zero3, load_whole arg4 harg4 x2 zero2]
  exact pay20_apply x0 x2 s d

theorem vcache_canon (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    View.canon (kernelRun0_A.sl.HS2_1 (F := Ideal) c arg2 harg2 arg5 harg5 x0 x3) (ix2 s d) = Pc x0 x3 s d := by
  unfold kernelRun0_A.sl.HS2_1
  rw [View.canon_unit_zero zero2, load_whole arg2 harg2 x0 zero3, load_whole arg5 harg5 x3 zero2]
  exact pay21_apply x0 x3 s d

theorem qcache_A (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    scM0_0.view.read (Elt Ideal) (scM0_0.view.writes (Elt Ideal) scM0_0.view.junk (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).2.1) (ix2 s d)
      = (∑ e : Fin 384, x0 (ix3 (0 : Fin 1) s e) * x1 (ix2 e d)) * Cert.AttnSpec.eighth :=
  (View.read_writes_junk_apply_eq_canon scM0_0.view (ix2 s d) _).trans
    (qcache_canon c i arg2 harg2 arg3 harg3 arg4 harg4 arg5 harg5 arg6 harg6 arg7 harg7 arg8 harg8 arg9 harg9 arg10 harg10 arg11 harg11 arg12 harg12 arg13 harg13 hk x0 x1 x2 x3 s d)

theorem kcache_A (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    scM0_1.view.read (Elt Ideal) (scM0_1.view.writes (Elt Ideal) scM0_1.view.junk (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).2.2.1) (ix2 s d)
      = ∑ e : Fin 384, x0 (ix3 (0 : Fin 1) s e) * x2 (ix2 e d) :=
  (View.read_writes_junk_apply_eq_canon scM0_1.view (ix2 s d) _).trans
    (kcache_canon c i arg2 harg2 arg3 harg3 arg4 harg4 arg5 harg5 arg6 harg6 arg7 harg7 arg8 harg8 arg9 harg9 arg10 harg10 arg11 harg11 arg12 harg12 arg13 harg13 hk x0 x1 x2 x3 s d)

theorem vcache_A (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    scM0_2.view.read (Elt Ideal) (scM0_2.view.writes (Elt Ideal) scM0_2.view.junk (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).2.2.2.1) (ix2 s d)
      = ∑ e : Fin 384, x0 (ix3 (0 : Fin 1) s e) * x3 (ix2 e d) :=
  (View.read_writes_junk_apply_eq_canon scM0_2.view (ix2 s d) _).trans
    (vcache_canon c i arg2 harg2 arg3 harg3 arg4 harg4 arg5 harg5 arg6 harg6 arg7 harg7 arg8 harg8 arg9 harg9 arg10 harg10 arg11 harg11 arg12 harg12 arg13 harg13 hk x0 x1 x2 x3 s d)

/-! ## The loads of the caches -/

open Cert.AttnSpec Cert.AttnTile

theorem off1_zero (i : grid0.Coords) (hk : (i 1).val = 0) : k0_off1 i = ![0, 0] := by rw [k0_off1_eq, hk]

/-- Query tile 0 read out of the query cache. -/
theorem qblk_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (e : Fin 64) :
    (kernelRun0_A.sl.v61 (F := Ideal) c arg2 harg2 arg3 harg3 arg7 x0 x1) (ix2 r e) = Qc x0 x1 (gi 0 r) e := by
  unfold kernelRun0_A.sl.v61
  refine (readCov_unit_apply arg7.view _ _ (ix2 r e) (ix2 (gi 0 r) e) (fun a => by match a with | ⟨0, _⟩ => rfl | ⟨1, _⟩ => exact (Nat.zero_add _).symm)).trans ?_
  exact qcache_canon c i arg2 harg2 arg3 harg3 arg4 harg4 arg5 harg5 arg6 harg6 arg7 harg7 arg8 harg8 arg9 harg9 arg10 harg10 arg11 harg11 arg12 harg12 arg13 harg13 hk x0 x1 x2 x3 (gi 0 r) e

/-- Query tile 1 read out of the query cache. -/
theorem qblk_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (e : Fin 64) :
    (kernelRun0_A.sl.v61_1 (F := Ideal) c arg2 harg2 arg3 harg3 arg7 x0 x1) (ix2 r e) = Qc x0 x1 (gi 1 r) e := by
  unfold kernelRun0_A.sl.v61_1
  refine (readCov_unit_apply arg7.view _ _ (ix2 r e) (ix2 (gi 1 r) e) (fun a => by match a with | ⟨0, _⟩ => rfl | ⟨1, _⟩ => exact (Nat.zero_add _).symm)).trans ?_
  exact qcache_canon c i arg2 harg2 arg3 harg3 arg4 harg4 arg5 harg5 arg6 harg6 arg7 harg7 arg8 harg8 arg9 harg9 arg10 harg10 arg11 harg11 arg12 harg12 arg13 harg13 hk x0 x1 x2 x3 (gi 1 r) e

/-- Query tile 2 read out of the query cache. -/
theorem qblk_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (e : Fin 64) :
    (kernelRun0_A.sl.v61_2 (F := Ideal) c arg2 harg2 arg3 harg3 arg7 x0 x1) (ix2 r e) = Qc x0 x1 (gi 2 r) e := by
  unfold kernelRun0_A.sl.v61_2
  refine (readCov_unit_apply arg7.view _ _ (ix2 r e) (ix2 (gi 2 r) e) (fun a => by match a with | ⟨0, _⟩ => rfl | ⟨1, _⟩ => exact (Nat.zero_add _).symm)).trans ?_
  exact qcache_canon c i arg2 harg2 arg3 harg3 arg4 harg4 arg5 harg5 arg6 harg6 arg7 harg7 arg8 harg8 arg9 harg9 arg10 harg10 arg11 harg11 arg12 harg12 arg13 harg13 hk x0 x1 x2 x3 (gi 2 r) e

/-- Query tile 3 read out of the query cache. -/
theorem qblk_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (e : Fin 64) :
    (kernelRun0_A.sl.v61_3 (F := Ideal) c arg2 harg2 arg3 harg3 arg7 x0 x1) (ix2 r e) = Qc x0 x1 (gi 3 r) e := by
  unfold kernelRun0_A.sl.v61_3
  refine (readCov_unit_apply arg7.view _ _ (ix2 r e) (ix2 (gi 3 r) e) (fun a => by match a with | ⟨0, _⟩ => rfl | ⟨1, _⟩ => exact (Nat.zero_add _).symm)).trans ?_
  exact qcache_canon c i arg2 harg2 arg3 harg3 arg4 harg4 arg5 harg5 arg6 harg6 arg7 harg7 arg8 harg8 arg9 harg9 arg10 harg10 arg11 harg11 arg12 harg12 arg13 harg13 hk x0 x1 x2 x3 (gi 3 r) e

/-- The key tile read out of the key cache. -/
theorem ktile (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) (e : Fin 64) :
    (kernelRun0_A.sl.v6 (F := Ideal) c i arg2 harg2 arg4 harg4 arg8 x0 x2) (ix2 cc e) = Pc x0 x2 (gi 0 cc) e := by
  unfold kernelRun0_A.sl.v6
  refine (readAt_junk_unit_apply arg8.view _ _ (off1_zero i hk) (ix2 cc e) (ix2 (gi 0 cc) e) (fun a => by match a with | ⟨0, _⟩ => rfl | ⟨1, _⟩ => exact (Nat.zero_add _).symm)).trans ?_
  exact kcache_canon c i arg2 harg2 arg3 harg3 arg4 harg4 arg5 harg5 arg6 harg6 arg7 harg7 arg8 harg8 arg9 harg9 arg10 harg10 arg11 harg11 arg12 harg12 arg13 harg13 hk x0 x1 x2 x3 (gi 0 cc) e

/-- The value tile read out of the value cache. -/
theorem vtile (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) (e : Fin 64) :
    (kernelRun0_A.sl.v8 (F := Ideal) c i arg2 harg2 arg5 harg5 arg9 x0 x3) (ix2 cc e) = Pc x0 x3 (gi 0 cc) e := by
  unfold kernelRun0_A.sl.v8
  refine (readAt_junk_unit_apply arg9.view _ _ (off1_zero i hk) (ix2 cc e) (ix2 (gi 0 cc) e) (fun a => by match a with | ⟨0, _⟩ => rfl | ⟨1, _⟩ => exact (Nat.zero_add _).symm)).trans ?_
  exact vcache_canon c i arg2 harg2 arg3 harg3 arg4 harg4 arg5 harg5 arg6 harg6 arg7 harg7 arg8 harg8 arg9 harg9 arg10 harg10 arg11 harg11 arg12 harg12 arg13 harg13 hk x0 x1 x2 x3 (gi 0 cc) e

/-! ## The masked scores -/

/-- The masked score block of query tile 0 against key tile 0. -/
theorem score_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay25 (F := Ideal) i (kernelRun0_A.sl.v6 (F := Ideal) c i arg2 harg2 arg4 harg4 arg8 x0 x2) (kernelRun0_A.sl.v61 (F := Ideal) c arg2 harg2 arg3 harg3 arg7 x0 x1) (ix2 r cc) = gscore (Qc x0 x1) (Pc x0 x2) (gi 0 r) (gi 0 cc) := by
  refine (pay25_apply i _ _ r cc 0 hk (by omega)).trans ?_
  unfold gscore
  refine if_congr ?_ (Finset.sum_congr rfl fun e _ => ?_) rfl
  · show cc.val ≤ r.val + (0 - 0) * 512 ↔ 0 * 512 + cc.val ≤ 0 * 512 + r.val
    omega
  · rw [qblk_0 c i arg2 harg2 arg3 harg3 arg4 harg4 arg5 harg5 arg6 harg6 arg7 harg7 arg8 harg8 arg9 harg9 arg10 harg10 arg11 harg11 arg12 harg12 arg13 harg13 hk x0 x1 x2 x3 r e, ktile c i arg2 harg2 arg3 harg3 arg4 harg4 arg5 harg5 arg6 harg6 arg7 harg7 arg8 harg8 arg9 harg9 arg10 harg10 arg11 harg11 arg12 harg12 arg13 harg13 hk x0 x1 x2 x3 cc e]

/-- The same block read back out of the score buffer. -/
theorem sblk_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_4 (F := Ideal) c i arg2 harg2 arg3 harg3 arg4 harg4 arg7 arg8 arg10 x0 x1 x2) (ix2 r cc) = gscore (Qc x0 x1) (Pc x0 x2) (gi 0 r) (gi 0 cc) := by
  have hr := r.isLt
  unfold kernelRun0_A.sl.v61_4 kernelRun0_A.sl.HS3_4
  refine (readCov_unit_apply arg10.view _ _ (ix2 r cc) (ix2 (gi 0 r) cc) (fun a => by match a with | ⟨0, _⟩ => rfl | ⟨1, _⟩ => exact (Nat.zero_add _).symm)).trans ?_
  refine (canon_unit_not_mem _ _ _ _ (0 : Fin 2) (Or.inl (by show 0 * 512 + r.val < 1536; omega))).trans ?_
  refine (canon_unit_not_mem _ _ _ _ (0 : Fin 2) (Or.inl (by show 0 * 512 + r.val < 1024; omega))).trans ?_
  refine (canon_unit_not_mem _ _ _ _ (0 : Fin 2) (Or.inl (by show 0 * 512 + r.val < 512; omega))).trans ?_
  refine (canon_unit_mem _ _ _ _ (ix2 r cc) (fun a => by match a with | ⟨0, _⟩ => rfl | ⟨1, _⟩ => exact (Nat.zero_add _).symm)).trans ?_
  refine (congrFun (pay26_eq i _ _) _).trans ?_
  exact score_0 c i arg2 harg2 arg3 harg3 arg4 harg4 arg5 harg5 arg6 harg6 arg7 harg7 arg8 harg8 arg9 harg9 arg10 harg10 arg11 harg11 arg12 harg12 arg13 harg13 hk x0 x1 x2 x3 r cc

/-- The masked score block of query tile 1 against key tile 0. -/
theorem score_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay28 (F := Ideal) i (kernelRun0_A.sl.v6 (F := Ideal) c i arg2 harg2 arg4 harg4 arg8 x0 x2) (kernelRun0_A.sl.v61_1 (F := Ideal) c arg2 harg2 arg3 harg3 arg7 x0 x1) (ix2 r cc) = gscore (Qc x0 x1) (Pc x0 x2) (gi 1 r) (gi 0 cc) := by
  refine (pay28_apply i _ _ r cc 0 hk (by omega)).trans ?_
  unfold gscore
  refine if_congr ?_ (Finset.sum_congr rfl fun e _ => ?_) rfl
  · show cc.val ≤ r.val + (1 - 0) * 512 ↔ 0 * 512 + cc.val ≤ 1 * 512 + r.val
    omega
  · rw [qblk_1 c i arg2 harg2 arg3 harg3 arg4 harg4 arg5 harg5 arg6 harg6 arg7 harg7 arg8 harg8 arg9 harg9 arg10 harg10 arg11 harg11 arg12 harg12 arg13 harg13 hk x0 x1 x2 x3 r e, ktile c i arg2 harg2 arg3 harg3 arg4 harg4 arg5 harg5 arg6 harg6 arg7 harg7 arg8 harg8 arg9 harg9 arg10 harg10 arg11 harg11 arg12 harg12 arg13 harg13 hk x0 x1 x2 x3 cc e]

/-- The same block read back out of the score buffer. -/
theorem sblk_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_5 (F := Ideal) c i arg2 harg2 arg3 harg3 arg4 harg4 arg7 arg8 arg10 x0 x1 x2) (ix2 r cc) = gscore (Qc x0 x1) (Pc x0 x2) (gi 1 r) (gi 0 cc) := by
  have hr := r.isLt
  unfold kernelRun0_A.sl.v61_5 kernelRun0_A.sl.HS3_4
  refine (readCov_unit_apply arg10.view _ _ (ix2 r cc) (ix2 (gi 1 r) cc) (fun a => by match a with | ⟨0, _⟩ => rfl | ⟨1, _⟩ => exact (Nat.zero_add _).symm)).trans ?_
  refine (canon_unit_not_mem _ _ _ _ (0 : Fin 2) (Or.inl (by show 1 * 512 + r.val < 1536; omega))).trans ?_
  refine (canon_unit_not_mem _ _ _ _ (0 : Fin 2) (Or.inl (by show 1 * 512 + r.val < 1024; omega))).trans ?_
  refine (canon_unit_mem _ _ _ _ (ix2 r cc) (fun a => by match a with | ⟨0, _⟩ => rfl | ⟨1, _⟩ => exact (Nat.zero_add _).symm)).trans ?_
  refine (congrFun (pay29_eq i _ _) _).trans ?_
  exact score_1 c i arg2 harg2 arg3 harg3 arg4 harg4 arg5 harg5 arg6 harg6 arg7 harg7 arg8 harg8 arg9 harg9 arg10 harg10 arg11 harg11 arg12 harg12 arg13 harg13 hk x0 x1 x2 x3 r cc

/-- The masked score block of query tile 2 against key tile 0. -/
theorem score_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay31 (F := Ideal) i (kernelRun0_A.sl.v6 (F := Ideal) c i arg2 harg2 arg4 harg4 arg8 x0 x2) (kernelRun0_A.sl.v61_2 (F := Ideal) c arg2 harg2 arg3 harg3 arg7 x0 x1) (ix2 r cc) = gscore (Qc x0 x1) (Pc x0 x2) (gi 2 r) (gi 0 cc) := by
  refine (pay31_apply i _ _ r cc 0 hk (by omega)).trans ?_
  unfold gscore
  refine if_congr ?_ (Finset.sum_congr rfl fun e _ => ?_) rfl
  · show cc.val ≤ r.val + (2 - 0) * 512 ↔ 0 * 512 + cc.val ≤ 2 * 512 + r.val
    omega
  · rw [qblk_2 c i arg2 harg2 arg3 harg3 arg4 harg4 arg5 harg5 arg6 harg6 arg7 harg7 arg8 harg8 arg9 harg9 arg10 harg10 arg11 harg11 arg12 harg12 arg13 harg13 hk x0 x1 x2 x3 r e, ktile c i arg2 harg2 arg3 harg3 arg4 harg4 arg5 harg5 arg6 harg6 arg7 harg7 arg8 harg8 arg9 harg9 arg10 harg10 arg11 harg11 arg12 harg12 arg13 harg13 hk x0 x1 x2 x3 cc e]

/-- The same block read back out of the score buffer. -/
theorem sblk_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_6 (F := Ideal) c i arg2 harg2 arg3 harg3 arg4 harg4 arg7 arg8 arg10 x0 x1 x2) (ix2 r cc) = gscore (Qc x0 x1) (Pc x0 x2) (gi 2 r) (gi 0 cc) := by
  have hr := r.isLt
  unfold kernelRun0_A.sl.v61_6 kernelRun0_A.sl.HS3_4
  refine (readCov_unit_apply arg10.view _ _ (ix2 r cc) (ix2 (gi 2 r) cc) (fun a => by match a with | ⟨0, _⟩ => rfl | ⟨1, _⟩ => exact (Nat.zero_add _).symm)).trans ?_
  refine (canon_unit_not_mem _ _ _ _ (0 : Fin 2) (Or.inl (by show 2 * 512 + r.val < 1536; omega))).trans ?_
  refine (canon_unit_mem _ _ _ _ (ix2 r cc) (fun a => by match a with | ⟨0, _⟩ => rfl | ⟨1, _⟩ => exact (Nat.zero_add _).symm)).trans ?_
  refine (congrFun (pay32_eq i _ _) _).trans ?_
  exact score_2 c i arg2 harg2 arg3 harg3 arg4 harg4 arg5 harg5 arg6 harg6 arg7 harg7 arg8 harg8 arg9 harg9 arg10 harg10 arg11 harg11 arg12 harg12 arg13 harg13 hk x0 x1 x2 x3 r cc

/-- The masked score block of query tile 3 against key tile 0. -/
theorem score_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay34 (F := Ideal) i (kernelRun0_A.sl.v6 (F := Ideal) c i arg2 harg2 arg4 harg4 arg8 x0 x2) (kernelRun0_A.sl.v61_3 (F := Ideal) c arg2 harg2 arg3 harg3 arg7 x0 x1) (ix2 r cc) = gscore (Qc x0 x1) (Pc x0 x2) (gi 3 r) (gi 0 cc) := by
  refine (pay34_apply i _ _ r cc 0 hk (by omega)).trans ?_
  unfold gscore
  refine if_congr ?_ (Finset.sum_congr rfl fun e _ => ?_) rfl
  · show cc.val ≤ r.val + (3 - 0) * 512 ↔ 0 * 512 + cc.val ≤ 3 * 512 + r.val
    omega
  · rw [qblk_3 c i arg2 harg2 arg3 harg3 arg4 harg4 arg5 harg5 arg6 harg6 arg7 harg7 arg8 harg8 arg9 harg9 arg10 harg10 arg11 harg11 arg12 harg12 arg13 harg13 hk x0 x1 x2 x3 r e, ktile c i arg2 harg2 arg3 harg3 arg4 harg4 arg5 harg5 arg6 harg6 arg7 harg7 arg8 harg8 arg9 harg9 arg10 harg10 arg11 harg11 arg12 harg12 arg13 harg13 hk x0 x1 x2 x3 cc e]

/-- The same block read back out of the score buffer. -/
theorem sblk_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_7 (F := Ideal) c i arg2 harg2 arg3 harg3 arg4 harg4 arg7 arg8 arg10 x0 x1 x2) (ix2 r cc) = gscore (Qc x0 x1) (Pc x0 x2) (gi 3 r) (gi 0 cc) := by
  have hr := r.isLt
  unfold kernelRun0_A.sl.v61_7 kernelRun0_A.sl.HS3_4
  refine (readCov_unit_apply arg10.view _ _ (ix2 r cc) (ix2 (gi 3 r) cc) (fun a => by match a with | ⟨0, _⟩ => rfl | ⟨1, _⟩ => exact (Nat.zero_add _).symm)).trans ?_
  refine (canon_unit_mem _ _ _ _ (ix2 r cc) (fun a => by match a with | ⟨0, _⟩ => rfl | ⟨1, _⟩ => exact (Nat.zero_add _).symm)).trans ?_
  refine (congrFun (pay35_eq i _ _) _).trans ?_
  exact score_3 c i arg2 harg2 arg3 harg3 arg4 harg4 arg5 harg5 arg6 harg6 arg7 harg7 arg8 harg8 arg9 harg9 arg10 harg10 arg11 harg11 arg12 harg12 arg13 harg13 hk x0 x1 x2 x3 r cc

/-! ## The running column maximum -/

theorem maxld_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v75 (F := Ideal) c arg12) = k0_pay23 (F := Ideal) := by
  unfold kernelRun0_A.sl.v75 kernelRun0_A.sl.HS5_1
  exact View.readCov_cons_toLoadRect _ _ _ _

theorem maxld_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v75_1 (F := Ideal) c i arg2 harg2 arg3 harg3 arg4 harg4 arg7 arg8 arg12 x0 x1 x2) = k0_pay27 (F := Ideal) i (kernelRun0_A.sl.v6 (F := Ideal) c i arg2 harg2 arg4 harg4 arg8 x0 x2) (kernelRun0_A.sl.v61 (F := Ideal) c arg2 harg2 arg3 harg3 arg7 x0 x1) (kernelRun0_A.sl.v75 (F := Ideal) c arg12) := by
  unfold kernelRun0_A.sl.v75_1 kernelRun0_A.sl.HS5_2
  exact View.readCov_cons_toLoadRect _ _ _ _

theorem maxld_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v75_2 (F := Ideal) c i arg2 harg2 arg3 harg3 arg4 harg4 arg7 arg8 arg12 x0 x1 x2) = k0_pay30 (F := Ideal) i (kernelRun0_A.sl.v6 (F := Ideal) c i arg2 harg2 arg4 harg4 arg8 x0 x2) (kernelRun0_A.sl.v61_1 (F := Ideal) c arg2 harg2 arg3 harg3 arg7 x0 x1) (kernelRun0_A.sl.v75_1 (F := Ideal) c i arg2 harg2 arg3 harg3 arg4 harg4 arg7 arg8 arg12 x0 x1 x2) := by
  unfold kernelRun0_A.sl.v75_2 kernelRun0_A.sl.HS5_3
  exact View.readCov_cons_toLoadRect _ _ _ _

theorem maxld_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v75_3 (F := Ideal) c i arg2 harg2 arg3 harg3 arg4 harg4 arg7 arg8 arg12 x0 x1 x2) = k0_pay33 (F := Ideal) i (kernelRun0_A.sl.v6 (F := Ideal) c i arg2 harg2 arg4 harg4 arg8 x0 x2) (kernelRun0_A.sl.v61_2 (F := Ideal) c arg2 harg2 arg3 harg3 arg7 x0 x1) (kernelRun0_A.sl.v75_2 (F := Ideal) c i arg2 harg2 arg3 harg3 arg4 harg4 arg7 arg8 arg12 x0 x1 x2) := by
  unfold kernelRun0_A.sl.v75_3 kernelRun0_A.sl.HS5_4
  exact View.readCov_cons_toLoadRect _ _ _ _

theorem maxld_4 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v62 (F := Ideal) c i arg2 harg2 arg3 harg3 arg4 harg4 arg7 arg8 arg12 x0 x1 x2) = k0_pay36 (F := Ideal) i (kernelRun0_A.sl.v6 (F := Ideal) c i arg2 harg2 arg4 harg4 arg8 x0 x2) (kernelRun0_A.sl.v61_3 (F := Ideal) c arg2 harg2 arg3 harg3 arg7 x0 x1) (kernelRun0_A.sl.v75_3 (F := Ideal) c i arg2 harg2 arg3 harg3 arg4 harg4 arg7 arg8 arg12 x0 x1 x2) := by
  unfold kernelRun0_A.sl.v62 kernelRun0_A.sl.HS5_5
  exact View.readCov_cons_toLoadRect _ _ _ _

theorem gmax1_eq_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    ((Finset.univ : Finset (Fin 512)).fold max ⊥ fun r => k0_pay25 (F := Ideal) i (kernelRun0_A.sl.v6 (F := Ideal) c i arg2 harg2 arg4 harg4 arg8 x0 x2) (kernelRun0_A.sl.v61 (F := Ideal) c arg2 harg2 arg3 harg3 arg7 x0 x1) (ix2 r cc)) = gmax1 (Qc x0 x1) (Pc x0 x2) 0 0 cc := by
  unfold gmax1
  exact congrArg (fun f : Fin 512 → EReal => (Finset.univ : Finset (Fin 512)).fold max ⊥ f) (funext fun r => score_0 c i arg2 harg2 arg3 harg3 arg4 harg4 arg5 harg5 arg6 harg6 arg7 harg7 arg8 harg8 arg9 harg9 arg10 harg10 arg11 harg11 arg12 harg12 arg13 harg13 hk x0 x1 x2 x3 r cc)

theorem gmax1_eq_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    ((Finset.univ : Finset (Fin 512)).fold max ⊥ fun r => k0_pay28 (F := Ideal) i (kernelRun0_A.sl.v6 (F := Ideal) c i arg2 harg2 arg4 harg4 arg8 x0 x2) (kernelRun0_A.sl.v61_1 (F := Ideal) c arg2 harg2 arg3 harg3 arg7 x0 x1) (ix2 r cc)) = gmax1 (Qc x0 x1) (Pc x0 x2) 1 0 cc := by
  unfold gmax1
  exact congrArg (fun f : Fin 512 → EReal => (Finset.univ : Finset (Fin 512)).fold max ⊥ f) (funext fun r => score_1 c i arg2 harg2 arg3 harg3 arg4 harg4 arg5 harg5 arg6 harg6 arg7 harg7 arg8 harg8 arg9 harg9 arg10 harg10 arg11 harg11 arg12 harg12 arg13 harg13 hk x0 x1 x2 x3 r cc)

theorem gmax1_eq_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    ((Finset.univ : Finset (Fin 512)).fold max ⊥ fun r => k0_pay31 (F := Ideal) i (kernelRun0_A.sl.v6 (F := Ideal) c i arg2 harg2 arg4 harg4 arg8 x0 x2) (kernelRun0_A.sl.v61_2 (F := Ideal) c arg2 harg2 arg3 harg3 arg7 x0 x1) (ix2 r cc)) = gmax1 (Qc x0 x1) (Pc x0 x2) 2 0 cc := by
  unfold gmax1
  exact congrArg (fun f : Fin 512 → EReal => (Finset.univ : Finset (Fin 512)).fold max ⊥ f) (funext fun r => score_2 c i arg2 harg2 arg3 harg3 arg4 harg4 arg5 harg5 arg6 harg6 arg7 harg7 arg8 harg8 arg9 harg9 arg10 harg10 arg11 harg11 arg12 harg12 arg13 harg13 hk x0 x1 x2 x3 r cc)

theorem gmax1_eq_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    ((Finset.univ : Finset (Fin 512)).fold max ⊥ fun r => k0_pay34 (F := Ideal) i (kernelRun0_A.sl.v6 (F := Ideal) c i arg2 harg2 arg4 harg4 arg8 x0 x2) (kernelRun0_A.sl.v61_3 (F := Ideal) c arg2 harg2 arg3 harg3 arg7 x0 x1) (ix2 r cc)) = gmax1 (Qc x0 x1) (Pc x0 x2) 3 0 cc := by
  unfold gmax1
  exact congrArg (fun f : Fin 512 → EReal => (Finset.univ : Finset (Fin 512)).fold max ⊥ f) (funext fun r => score_3 c i arg2 harg2 arg3 harg3 arg4 harg4 arg5 harg5 arg6 harg6 arg7 harg7 arg8 harg8 arg9 harg9 arg10 harg10 arg11 harg11 arg12 harg12 arg13 harg13 hk x0 x1 x2 x3 r cc)

theorem rmax_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) : (kernelRun0_A.sl.v75 (F := Ideal) c arg12) (ix2 (0 : Fin 1) cc) = ⊥ := by
  rw [maxld_0 c i arg2 harg2 arg3 harg3 arg4 harg4 arg5 harg5 arg6 harg6 arg7 harg7 arg8 harg8 arg9 harg9 arg10 harg10 arg11 harg11 arg12 harg12 arg13 harg13 hk x0 x1 x2 x3]
  exact pay23_apply _

theorem rmax_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v75_1 (F := Ideal) c i arg2 harg2 arg3 harg3 arg4 harg4 arg7 arg8 arg12 x0 x1 x2) (ix2 (0 : Fin 1) cc) = max (⊥) (gmax1 (Qc x0 x1) (Pc x0 x2) 0 0 cc) := by
  rw [maxld_1 c i arg2 harg2 arg3 harg3 arg4 harg4 arg5 harg5 arg6 harg6 arg7 harg7 arg8 harg8 arg9 harg9 arg10 harg10 arg11 harg11 arg12 harg12 arg13 harg13 hk x0 x1 x2 x3]
  refine (pay27_apply i _ _ _ cc).trans ?_
  rw [rmax_0 c i arg2 harg2 arg3 harg3 arg4 harg4 arg5 harg5 arg6 harg6 arg7 harg7 arg8 harg8 arg9 harg9 arg10 harg10 arg11 harg11 arg12 harg12 arg13 harg13 hk x0 x1 x2 x3 cc, gmax1_eq_0 c i arg2 harg2 arg3 harg3 arg4 harg4 arg5 harg5 arg6 harg6 arg7 harg7 arg8 harg8 arg9 harg9 arg10 harg10 arg11 harg11 arg12 harg12 arg13 harg13 hk x0 x1 x2 x3 cc]

theorem rmax_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v75_2 (F := Ideal) c i arg2 harg2 arg3 harg3 arg4 harg4 arg7 arg8 arg12 x0 x1 x2) (ix2 (0 : Fin 1) cc) = max (max (⊥) (gmax1 (Qc x0 x1) (Pc x0 x2) 0 0 cc)) (gmax1 (Qc x0 x1) (Pc x0 x2) 1 0 cc) := by
  rw [maxld_2 c i arg2 harg2 arg3 harg3 arg4 harg4 arg5 harg5 arg6 harg6 arg7 harg7 arg8 harg8 arg9 harg9 arg10 harg10 arg11 harg11 arg12 harg12 arg13 harg13 hk x0 x1 x2 x3]
  refine (pay30_apply i _ _ _ cc).trans ?_
  rw [rmax_1 c i arg2 harg2 arg3 harg3 arg4 harg4 arg5 harg5 arg6 harg6 arg7 harg7 arg8 harg8 arg9 harg9 arg10 harg10 arg11 harg11 arg12 harg12 arg13 harg13 hk x0 x1 x2 x3 cc, gmax1_eq_1 c i arg2 harg2 arg3 harg3 arg4 harg4 arg5 harg5 arg6 harg6 arg7 harg7 arg8 harg8 arg9 harg9 arg10 harg10 arg11 harg11 arg12 harg12 arg13 harg13 hk x0 x1 x2 x3 cc]

theorem rmax_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v75_3 (F := Ideal) c i arg2 harg2 arg3 harg3 arg4 harg4 arg7 arg8 arg12 x0 x1 x2) (ix2 (0 : Fin 1) cc) = max (max (max (⊥) (gmax1 (Qc x0 x1) (Pc x0 x2) 0 0 cc)) (gmax1 (Qc x0 x1) (Pc x0 x2) 1 0 cc)) (gmax1 (Qc x0 x1) (Pc x0 x2) 2 0 cc) := by
  rw [maxld_3 c i arg2 harg2 arg3 harg3 arg4 harg4 arg5 harg5 arg6 harg6 arg7 harg7 arg8 harg8 arg9 harg9 arg10 harg10 arg11 harg11 arg12 harg12 arg13 harg13 hk x0 x1 x2 x3]
  refine (pay33_apply i _ _ _ cc).trans ?_
  rw [rmax_2 c i arg2 harg2 arg3 harg3 arg4 harg4 arg5 harg5 arg6 harg6 arg7 harg7 arg8 harg8 arg9 harg9 arg10 harg10 arg11 harg11 arg12 harg12 arg13 harg13 hk x0 x1 x2 x3 cc, gmax1_eq_2 c i arg2 harg2 arg3 harg3 arg4 harg4 arg5 harg5 arg6 harg6 arg7 harg7 arg8 harg8 arg9 harg9 arg10 harg10 arg11 harg11 arg12 harg12 arg13 harg13 hk x0 x1 x2 x3 cc]

theorem rmax_4 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v62 (F := Ideal) c i arg2 harg2 arg3 harg3 arg4 harg4 arg7 arg8 arg12 x0 x1 x2) (ix2 (0 : Fin 1) cc) = max (max (max (max (⊥) (gmax1 (Qc x0 x1) (Pc x0 x2) 0 0 cc)) (gmax1 (Qc x0 x1) (Pc x0 x2) 1 0 cc)) (gmax1 (Qc x0 x1) (Pc x0 x2) 2 0 cc)) (gmax1 (Qc x0 x1) (Pc x0 x2) 3 0 cc) := by
  rw [maxld_4 c i arg2 harg2 arg3 harg3 arg4 harg4 arg5 harg5 arg6 harg6 arg7 harg7 arg8 harg8 arg9 harg9 arg10 harg10 arg11 harg11 arg12 harg12 arg13 harg13 hk x0 x1 x2 x3]
  refine (pay36_apply i _ _ _ cc).trans ?_
  rw [rmax_3 c i arg2 harg2 arg3 harg3 arg4 harg4 arg5 harg5 arg6 harg6 arg7 harg7 arg8 harg8 arg9 harg9 arg10 harg10 arg11 harg11 arg12 harg12 arg13 harg13 hk x0 x1 x2 x3 cc, gmax1_eq_3 c i arg2 harg2 arg3 harg3 arg4 harg4 arg5 harg5 arg6 harg6 arg7 harg7 arg8 harg8 arg9 harg9 arg10 harg10 arg11 harg11 arg12 harg12 arg13 harg13 hk x0 x1 x2 x3 cc]

/-- The running maximum after all four query tiles is the column maximum of key tile 0. -/
theorem rmax (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) : (kernelRun0_A.sl.v62 (F := Ideal) c i arg2 harg2 arg3 harg3 arg4 harg4 arg7 arg8 arg12 x0 x1 x2) (ix2 (0 : Fin 1) cc) = gmax (Qc x0 x1) (Pc x0 x2) 0 cc :=
  (rmax_4 c i arg2 harg2 arg3 harg3 arg4 harg4 arg5 harg5 arg6 harg6 arg7 harg7 arg8 harg8 arg9 harg9 arg10 harg10 arg11 harg11 arg12 harg12 arg13 harg13 hk x0 x1 x2 x3 cc).trans (gmax_at0 (Qc x0 x1) (Pc x0 x2) cc).symm

/-! ## The shifted exponentials -/

theorem expblk_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay1 (F := Ideal) (kernelRun0_A.sl.v61_4 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (ix2 r cc) = gp (Qc x0 x1) (Pc x0 x2) 0 (gi 0 r) cc := by
  refine (pay1_apply _ _ r cc).trans ?_
  rw [sblk_0 c i arg2 harg2 arg3 harg3 arg4 harg4 arg5 harg5 arg6 harg6 arg7 harg7 arg8 harg8 arg9 harg9 arg10 harg10 arg11 harg11 arg12 harg12 arg13 harg13 hk x0 x1 x2 x3 r cc, rmax c i arg2 harg2 arg3 harg3 arg4 harg4 arg5 harg5 arg6 harg6 arg7 harg7 arg8 harg8 arg9 harg9 arg10 harg10 arg11 harg11 arg12 harg12 arg13 harg13 hk x0 x1 x2 x3 cc]
  rfl

/-- The weight block of query tile 0 read back out of the weight buffer. -/
theorem pblk_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_8 (F := Ideal) c i arg2 harg2 arg3 harg3 arg4 harg4 arg7 arg8 arg10 arg11 arg12 x0 x1 x2) (ix2 r cc) = gp (Qc x0 x1) (Pc x0 x2) 0 (gi 0 r) cc := by
  have hr := r.isLt
  unfold kernelRun0_A.sl.v61_8 kernelRun0_A.sl.HS4_4
  refine (readCov_unit_apply arg11.view _ _ (ix2 r cc) (ix2 (gi 0 r) cc) (fun a => by match a with | ⟨0, _⟩ => rfl | ⟨1, _⟩ => exact (Nat.zero_add _).symm)).trans ?_
  refine (canon_unit_not_mem _ _ _ _ (0 : Fin 2) (Or.inl (by show 0 * 512 + r.val < 1536; omega))).trans ?_
  refine (canon_unit_not_mem _ _ _ _ (0 : Fin 2) (Or.inl (by show 0 * 512 + r.val < 1024; omega))).trans ?_
  refine (canon_unit_not_mem _ _ _ _ (0 : Fin 2) (Or.inl (by show 0 * 512 + r.val < 512; omega))).trans ?_
  refine (canon_unit_mem _ _ _ _ (ix2 r cc) (fun a => by match a with | ⟨0, _⟩ => rfl | ⟨1, _⟩ => exact (Nat.zero_add _).symm)).trans ?_
  refine (congrFun (pay2_eq _ _) _).trans ?_
  exact expblk_0 c i arg2 harg2 arg3 harg3 arg4 harg4 arg5 harg5 arg6 harg6 arg7 harg7 arg8 harg8 arg9 harg9 arg10 harg10 arg11 harg11 arg12 harg12 arg13 harg13 hk x0 x1 x2 x3 r cc

theorem expblk_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay4 (F := Ideal) (kernelRun0_A.sl.v61_5 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (ix2 r cc) = gp (Qc x0 x1) (Pc x0 x2) 0 (gi 1 r) cc := by
  refine (pay4_apply _ _ r cc).trans ?_
  rw [sblk_1 c i arg2 harg2 arg3 harg3 arg4 harg4 arg5 harg5 arg6 harg6 arg7 harg7 arg8 harg8 arg9 harg9 arg10 harg10 arg11 harg11 arg12 harg12 arg13 harg13 hk x0 x1 x2 x3 r cc, rmax c i arg2 harg2 arg3 harg3 arg4 harg4 arg5 harg5 arg6 harg6 arg7 harg7 arg8 harg8 arg9 harg9 arg10 harg10 arg11 harg11 arg12 harg12 arg13 harg13 hk x0 x1 x2 x3 cc]
  rfl

/-- The weight block of query tile 1 read back out of the weight buffer. -/
theorem pblk_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_9 (F := Ideal) c i arg2 harg2 arg3 harg3 arg4 harg4 arg7 arg8 arg10 arg11 arg12 x0 x1 x2) (ix2 r cc) = gp (Qc x0 x1) (Pc x0 x2) 0 (gi 1 r) cc := by
  have hr := r.isLt
  unfold kernelRun0_A.sl.v61_9 kernelRun0_A.sl.HS4_4
  refine (readCov_unit_apply arg11.view _ _ (ix2 r cc) (ix2 (gi 1 r) cc) (fun a => by match a with | ⟨0, _⟩ => rfl | ⟨1, _⟩ => exact (Nat.zero_add _).symm)).trans ?_
  refine (canon_unit_not_mem _ _ _ _ (0 : Fin 2) (Or.inl (by show 1 * 512 + r.val < 1536; omega))).trans ?_
  refine (canon_unit_not_mem _ _ _ _ (0 : Fin 2) (Or.inl (by show 1 * 512 + r.val < 1024; omega))).trans ?_
  refine (canon_unit_mem _ _ _ _ (ix2 r cc) (fun a => by match a with | ⟨0, _⟩ => rfl | ⟨1, _⟩ => exact (Nat.zero_add _).symm)).trans ?_
  refine (congrFun (pay5_eq _ _) _).trans ?_
  exact expblk_1 c i arg2 harg2 arg3 harg3 arg4 harg4 arg5 harg5 arg6 harg6 arg7 harg7 arg8 harg8 arg9 harg9 arg10 harg10 arg11 harg11 arg12 harg12 arg13 harg13 hk x0 x1 x2 x3 r cc

theorem expblk_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay7 (F := Ideal) (kernelRun0_A.sl.v61_6 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (ix2 r cc) = gp (Qc x0 x1) (Pc x0 x2) 0 (gi 2 r) cc := by
  refine (pay7_apply _ _ r cc).trans ?_
  rw [sblk_2 c i arg2 harg2 arg3 harg3 arg4 harg4 arg5 harg5 arg6 harg6 arg7 harg7 arg8 harg8 arg9 harg9 arg10 harg10 arg11 harg11 arg12 harg12 arg13 harg13 hk x0 x1 x2 x3 r cc, rmax c i arg2 harg2 arg3 harg3 arg4 harg4 arg5 harg5 arg6 harg6 arg7 harg7 arg8 harg8 arg9 harg9 arg10 harg10 arg11 harg11 arg12 harg12 arg13 harg13 hk x0 x1 x2 x3 cc]
  rfl

/-- The weight block of query tile 2 read back out of the weight buffer. -/
theorem pblk_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_10 (F := Ideal) c i arg2 harg2 arg3 harg3 arg4 harg4 arg7 arg8 arg10 arg11 arg12 x0 x1 x2) (ix2 r cc) = gp (Qc x0 x1) (Pc x0 x2) 0 (gi 2 r) cc := by
  have hr := r.isLt
  unfold kernelRun0_A.sl.v61_10 kernelRun0_A.sl.HS4_4
  refine (readCov_unit_apply arg11.view _ _ (ix2 r cc) (ix2 (gi 2 r) cc) (fun a => by match a with | ⟨0, _⟩ => rfl | ⟨1, _⟩ => exact (Nat.zero_add _).symm)).trans ?_
  refine (canon_unit_not_mem _ _ _ _ (0 : Fin 2) (Or.inl (by show 2 * 512 + r.val < 1536; omega))).trans ?_
  refine (canon_unit_mem _ _ _ _ (ix2 r cc) (fun a => by match a with | ⟨0, _⟩ => rfl | ⟨1, _⟩ => exact (Nat.zero_add _).symm)).trans ?_
  refine (congrFun (pay8_eq _ _) _).trans ?_
  exact expblk_2 c i arg2 harg2 arg3 harg3 arg4 harg4 arg5 harg5 arg6 harg6 arg7 harg7 arg8 harg8 arg9 harg9 arg10 harg10 arg11 harg11 arg12 harg12 arg13 harg13 hk x0 x1 x2 x3 r cc

theorem expblk_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    k0_pay10 (F := Ideal) (kernelRun0_A.sl.v61_7 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (ix2 r cc) = gp (Qc x0 x1) (Pc x0 x2) 0 (gi 3 r) cc := by
  refine (pay10_apply _ _ r cc).trans ?_
  rw [sblk_3 c i arg2 harg2 arg3 harg3 arg4 harg4 arg5 harg5 arg6 harg6 arg7 harg7 arg8 harg8 arg9 harg9 arg10 harg10 arg11 harg11 arg12 harg12 arg13 harg13 hk x0 x1 x2 x3 r cc, rmax c i arg2 harg2 arg3 harg3 arg4 harg4 arg5 harg5 arg6 harg6 arg7 harg7 arg8 harg8 arg9 harg9 arg10 harg10 arg11 harg11 arg12 harg12 arg13 harg13 hk x0 x1 x2 x3 cc]
  rfl

/-- The weight block of query tile 3 read back out of the weight buffer. -/
theorem pblk_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r cc : Fin 512) :
    (kernelRun0_A.sl.v61_11 (F := Ideal) c i arg2 harg2 arg3 harg3 arg4 harg4 arg7 arg8 arg10 arg11 arg12 x0 x1 x2) (ix2 r cc) = gp (Qc x0 x1) (Pc x0 x2) 0 (gi 3 r) cc := by
  have hr := r.isLt
  unfold kernelRun0_A.sl.v61_11 kernelRun0_A.sl.HS4_4
  refine (readCov_unit_apply arg11.view _ _ (ix2 r cc) (ix2 (gi 3 r) cc) (fun a => by match a with | ⟨0, _⟩ => rfl | ⟨1, _⟩ => exact (Nat.zero_add _).symm)).trans ?_
  refine (canon_unit_mem _ _ _ _ (ix2 r cc) (fun a => by match a with | ⟨0, _⟩ => rfl | ⟨1, _⟩ => exact (Nat.zero_add _).symm)).trans ?_
  refine (congrFun (pay11_eq _ _) _).trans ?_
  exact expblk_3 c i arg2 harg2 arg3 harg3 arg4 harg4 arg5 harg5 arg6 harg6 arg7 harg7 arg8 harg8 arg9 harg9 arg10 harg10 arg11 harg11 arg12 harg12 arg13 harg13 hk x0 x1 x2 x3 r cc

/-! ## The running column sum -/

theorem sumld_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v70 (F := Ideal) c arg13) = k0_pay24 (F := Ideal) := by
  unfold kernelRun0_A.sl.v70 kernelRun0_A.sl.HS6_1
  exact View.readCov_cons_toLoadRect _ _ _ _

theorem sumld_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v70_1 (F := Ideal) c i arg2 harg2 arg3 harg3 arg4 harg4 arg7 arg8 arg10 arg12 arg13 x0 x1 x2) = k0_pay3 (F := Ideal) (kernelRun0_A.sl.v61_4 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (kernelRun0_A.sl.v70 (F := Ideal) c arg13) := by
  unfold kernelRun0_A.sl.v70_1 kernelRun0_A.sl.HS6_2
  exact View.readCov_cons_toLoadRect _ _ _ _

theorem sumld_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v70_2 (F := Ideal) c i arg2 harg2 arg3 harg3 arg4 harg4 arg7 arg8 arg10 arg12 arg13 x0 x1 x2) = k0_pay6 (F := Ideal) (kernelRun0_A.sl.v61_5 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (kernelRun0_A.sl.v70_1 (F := Ideal) c i arg2 harg2 arg3 harg3 arg4 harg4 arg7 arg8 arg10 arg12 arg13 x0 x1 x2) := by
  unfold kernelRun0_A.sl.v70_2 kernelRun0_A.sl.HS6_3
  exact View.readCov_cons_toLoadRect _ _ _ _

theorem sumld_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v70_3 (F := Ideal) c i arg2 harg2 arg3 harg3 arg4 harg4 arg7 arg8 arg10 arg12 arg13 x0 x1 x2) = k0_pay9 (F := Ideal) (kernelRun0_A.sl.v61_6 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (kernelRun0_A.sl.v70_2 (F := Ideal) c i arg2 harg2 arg3 harg3 arg4 harg4 arg7 arg8 arg10 arg12 arg13 x0 x1 x2) := by
  unfold kernelRun0_A.sl.v70_3 kernelRun0_A.sl.HS6_4
  exact View.readCov_cons_toLoadRect _ _ _ _

theorem sumld_4 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) : (kernelRun0_A.sl.v43 (F := Ideal) c i arg2 harg2 arg3 harg3 arg4 harg4 arg7 arg8 arg10 arg12 arg13 x0 x1 x2) = k0_pay12 (F := Ideal) (kernelRun0_A.sl.v61_7 (F := Ideal) c i arg2 harg2 arg3 harg3 arg4 harg4 arg7 arg8 arg10 x0 x1 x2) (kernelRun0_A.sl.v62 (F := Ideal) c i arg2 harg2 arg3 harg3 arg4 harg4 arg7 arg8 arg12 x0 x1 x2) (kernelRun0_A.sl.v70_3 (F := Ideal) c i arg2 harg2 arg3 harg3 arg4 harg4 arg7 arg8 arg10 arg12 arg13 x0 x1 x2) := by
  unfold kernelRun0_A.sl.v43 kernelRun0_A.sl.HS6_5
  exact View.readCov_cons_toLoadRect _ _ _ _

theorem rsum_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) : (kernelRun0_A.sl.v70 (F := Ideal) c arg13) (ix2 (0 : Fin 1) cc) = 0 := by
  rw [sumld_0 c i arg2 harg2 arg3 harg3 arg4 harg4 arg5 harg5 arg6 harg6 arg7 harg7 arg8 harg8 arg9 harg9 arg10 harg10 arg11 harg11 arg12 harg12 arg13 harg13 hk x0 x1 x2 x3]
  exact pay24_apply _

theorem rsum_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v70_1 (F := Ideal) c i arg2 harg2 arg3 harg3 arg4 harg4 arg7 arg8 arg10 arg12 arg13 x0 x1 x2) (ix2 (0 : Fin 1) cc) = (0) + ∑ r : Fin 512, gp (Qc x0 x1) (Pc x0 x2) 0 (gi 0 r) cc := by
  rw [sumld_1 c i arg2 harg2 arg3 harg3 arg4 harg4 arg5 harg5 arg6 harg6 arg7 harg7 arg8 harg8 arg9 harg9 arg10 harg10 arg11 harg11 arg12 harg12 arg13 harg13 hk x0 x1 x2 x3]
  refine (pay3_apply _ _ _ cc).trans ?_
  rw [rsum_0 c i arg2 harg2 arg3 harg3 arg4 harg4 arg5 harg5 arg6 harg6 arg7 harg7 arg8 harg8 arg9 harg9 arg10 harg10 arg11 harg11 arg12 harg12 arg13 harg13 hk x0 x1 x2 x3 cc]
  exact congrArg (_ + ·) (Finset.sum_congr rfl fun r _ => expblk_0 c i arg2 harg2 arg3 harg3 arg4 harg4 arg5 harg5 arg6 harg6 arg7 harg7 arg8 harg8 arg9 harg9 arg10 harg10 arg11 harg11 arg12 harg12 arg13 harg13 hk x0 x1 x2 x3 r cc)

theorem rsum_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v70_2 (F := Ideal) c i arg2 harg2 arg3 harg3 arg4 harg4 arg7 arg8 arg10 arg12 arg13 x0 x1 x2) (ix2 (0 : Fin 1) cc) = ((0) + ∑ r : Fin 512, gp (Qc x0 x1) (Pc x0 x2) 0 (gi 0 r) cc) + ∑ r : Fin 512, gp (Qc x0 x1) (Pc x0 x2) 0 (gi 1 r) cc := by
  rw [sumld_2 c i arg2 harg2 arg3 harg3 arg4 harg4 arg5 harg5 arg6 harg6 arg7 harg7 arg8 harg8 arg9 harg9 arg10 harg10 arg11 harg11 arg12 harg12 arg13 harg13 hk x0 x1 x2 x3]
  refine (pay6_apply _ _ _ cc).trans ?_
  rw [rsum_1 c i arg2 harg2 arg3 harg3 arg4 harg4 arg5 harg5 arg6 harg6 arg7 harg7 arg8 harg8 arg9 harg9 arg10 harg10 arg11 harg11 arg12 harg12 arg13 harg13 hk x0 x1 x2 x3 cc]
  exact congrArg (_ + ·) (Finset.sum_congr rfl fun r _ => expblk_1 c i arg2 harg2 arg3 harg3 arg4 harg4 arg5 harg5 arg6 harg6 arg7 harg7 arg8 harg8 arg9 harg9 arg10 harg10 arg11 harg11 arg12 harg12 arg13 harg13 hk x0 x1 x2 x3 r cc)

theorem rsum_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v70_3 (F := Ideal) c i arg2 harg2 arg3 harg3 arg4 harg4 arg7 arg8 arg10 arg12 arg13 x0 x1 x2) (ix2 (0 : Fin 1) cc) = (((0) + ∑ r : Fin 512, gp (Qc x0 x1) (Pc x0 x2) 0 (gi 0 r) cc) + ∑ r : Fin 512, gp (Qc x0 x1) (Pc x0 x2) 0 (gi 1 r) cc) + ∑ r : Fin 512, gp (Qc x0 x1) (Pc x0 x2) 0 (gi 2 r) cc := by
  rw [sumld_3 c i arg2 harg2 arg3 harg3 arg4 harg4 arg5 harg5 arg6 harg6 arg7 harg7 arg8 harg8 arg9 harg9 arg10 harg10 arg11 harg11 arg12 harg12 arg13 harg13 hk x0 x1 x2 x3]
  refine (pay9_apply _ _ _ cc).trans ?_
  rw [rsum_2 c i arg2 harg2 arg3 harg3 arg4 harg4 arg5 harg5 arg6 harg6 arg7 harg7 arg8 harg8 arg9 harg9 arg10 harg10 arg11 harg11 arg12 harg12 arg13 harg13 hk x0 x1 x2 x3 cc]
  exact congrArg (_ + ·) (Finset.sum_congr rfl fun r _ => expblk_2 c i arg2 harg2 arg3 harg3 arg4 harg4 arg5 harg5 arg6 harg6 arg7 harg7 arg8 harg8 arg9 harg9 arg10 harg10 arg11 harg11 arg12 harg12 arg13 harg13 hk x0 x1 x2 x3 r cc)

theorem rsum_4 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) :
    (kernelRun0_A.sl.v43 (F := Ideal) c i arg2 harg2 arg3 harg3 arg4 harg4 arg7 arg8 arg10 arg12 arg13 x0 x1 x2) (ix2 (0 : Fin 1) cc) = ((((0) + ∑ r : Fin 512, gp (Qc x0 x1) (Pc x0 x2) 0 (gi 0 r) cc) + ∑ r : Fin 512, gp (Qc x0 x1) (Pc x0 x2) 0 (gi 1 r) cc) + ∑ r : Fin 512, gp (Qc x0 x1) (Pc x0 x2) 0 (gi 2 r) cc) + ∑ r : Fin 512, gp (Qc x0 x1) (Pc x0 x2) 0 (gi 3 r) cc := by
  rw [sumld_4 c i arg2 harg2 arg3 harg3 arg4 harg4 arg5 harg5 arg6 harg6 arg7 harg7 arg8 harg8 arg9 harg9 arg10 harg10 arg11 harg11 arg12 harg12 arg13 harg13 hk x0 x1 x2 x3]
  refine (pay12_apply _ _ _ cc).trans ?_
  rw [rsum_3 c i arg2 harg2 arg3 harg3 arg4 harg4 arg5 harg5 arg6 harg6 arg7 harg7 arg8 harg8 arg9 harg9 arg10 harg10 arg11 harg11 arg12 harg12 arg13 harg13 hk x0 x1 x2 x3 cc]
  exact congrArg (_ + ·) (Finset.sum_congr rfl fun r _ => expblk_3 c i arg2 harg2 arg3 harg3 arg4 harg4 arg5 harg5 arg6 harg6 arg7 harg7 arg8 harg8 arg9 harg9 arg10 harg10 arg11 harg11 arg12 harg12 arg13 harg13 hk x0 x1 x2 x3 r cc)

/-- The running sum after all four query tiles is the column sum of key tile 0. -/
theorem rsum (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (cc : Fin 512) : (kernelRun0_A.sl.v43 (F := Ideal) c i arg2 harg2 arg3 harg3 arg4 harg4 arg7 arg8 arg10 arg12 arg13 x0 x1 x2) (ix2 (0 : Fin 1) cc) = gsum (Qc x0 x1) (Pc x0 x2) 0 cc :=
  (rsum_4 c i arg2 harg2 arg3 harg3 arg4 harg4 arg5 harg5 arg6 harg6 arg7 harg7 arg8 harg8 arg9 harg9 arg10 harg10 arg11 harg11 arg12 harg12 arg13 harg13 hk x0 x1 x2 x3 cc).trans (gsum_at0 (Qc x0 x1) (Pc x0 x2) cc).symm

/-- The value tile divided by the column sums. -/
theorem vdiv (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (e : Fin 512) (d : Fin 64) :
    k0_pay13 (F := Ideal) (kernelRun0_A.sl.v8 (F := Ideal) c i arg2 harg2 arg5 harg5 arg9 x0 x3) (kernelRun0_A.sl.v43 (F := Ideal) c i arg2 harg2 arg3 harg3 arg4 harg4 arg7 arg8 arg10 arg12 arg13 x0 x1 x2) (ix2 e d) = Ideal.div (Pc x0 x3 (gi 0 e) d) (gsum (Qc x0 x1) (Pc x0 x2) 0 e) := by
  refine (pay13_apply _ _ e d).trans ?_
  rw [vtile c i arg2 harg2 arg3 harg3 arg4 harg4 arg5 harg5 arg6 harg6 arg7 harg7 arg8 harg8 arg9 harg9 arg10 harg10 arg11 harg11 arg12 harg12 arg13 harg13 hk x0 x1 x2 x3 e d, rsum c i arg2 harg2 arg3 harg3 arg4 harg4 arg5 harg5 arg6 harg6 arg7 harg7 arg8 harg8 arg9 harg9 arg10 harg10 arg11 harg11 arg12 harg12 arg13 harg13 hk x0 x1 x2 x3 e]

/-! ## The output block -/

/-- What the output block holds at query tile 0 before its store: the zero fill. -/
theorem prior_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) : (kernelRun0_A.sl.v63 (F := Ideal) c arg6) (ix3 (0 : Fin 1) r d) = 0 := by
  have hr := r.isLt
  unfold kernelRun0_A.sl.v63 kernelRun0_A.sl.H4_1
  refine (readCov_unit_apply arg6.view _ _ (ix3 (0 : Fin 1) r d) (ix3 (0 : Fin 1) (gi 0 r) d) (fun a => by match a with | ⟨0, _⟩ => rfl | ⟨1, _⟩ => rfl | ⟨2, _⟩ => exact (Nat.zero_add _).symm)).trans ?_
  rw [View.canon_unit_zero zero3]
  exact pay22_apply _

/-- What the output block holds at query tile 1 before its store: the zero fill. -/
theorem prior_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) : (kernelRun0_A.sl.v63_1 (F := Ideal) c i arg2 harg2 arg3 harg3 arg4 harg4 arg5 harg5 arg6 arg7 arg8 arg9 arg10 arg11 arg12 arg13 x0 x1 x2 x3) (ix3 (0 : Fin 1) r d) = 0 := by
  have hr := r.isLt
  unfold kernelRun0_A.sl.v63_1 kernelRun0_A.sl.H4_2 kernelRun0_A.sl.H4_1
  refine (readCov_unit_apply arg6.view _ _ (ix3 (0 : Fin 1) r d) (ix3 (0 : Fin 1) (gi 1 r) d) (fun a => by match a with | ⟨0, _⟩ => rfl | ⟨1, _⟩ => rfl | ⟨2, _⟩ => exact (Nat.zero_add _).symm)).trans ?_
  refine (canon_unit_not_mem _ _ _ _ (1 : Fin 3) (Or.inr (by show 0 + 512 ≤ 1 * 512 + r.val; omega))).trans ?_
  rw [View.canon_unit_zero zero3]
  exact pay22_apply _

/-- What the output block holds at query tile 2 before its store: the zero fill. -/
theorem prior_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) : (kernelRun0_A.sl.v63_2 (F := Ideal) c i arg2 harg2 arg3 harg3 arg4 harg4 arg5 harg5 arg6 arg7 arg8 arg9 arg10 arg11 arg12 arg13 x0 x1 x2 x3) (ix3 (0 : Fin 1) r d) = 0 := by
  have hr := r.isLt
  unfold kernelRun0_A.sl.v63_2 kernelRun0_A.sl.H4_3 kernelRun0_A.sl.H4_2 kernelRun0_A.sl.H4_1
  refine (readCov_unit_apply arg6.view _ _ (ix3 (0 : Fin 1) r d) (ix3 (0 : Fin 1) (gi 2 r) d) (fun a => by match a with | ⟨0, _⟩ => rfl | ⟨1, _⟩ => rfl | ⟨2, _⟩ => exact (Nat.zero_add _).symm)).trans ?_
  refine (canon_unit_not_mem _ _ _ _ (1 : Fin 3) (Or.inr (by show 512 + 512 ≤ 2 * 512 + r.val; omega))).trans ?_
  refine (canon_unit_not_mem _ _ _ _ (1 : Fin 3) (Or.inr (by show 0 + 512 ≤ 2 * 512 + r.val; omega))).trans ?_
  rw [View.canon_unit_zero zero3]
  exact pay22_apply _

/-- What the output block holds at query tile 3 before its store: the zero fill. -/
theorem prior_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) : (kernelRun0_A.sl.v63_3 (F := Ideal) c i arg2 harg2 arg3 harg3 arg4 harg4 arg5 harg5 arg6 arg7 arg8 arg9 arg10 arg11 arg12 arg13 x0 x1 x2 x3) (ix3 (0 : Fin 1) r d) = 0 := by
  have hr := r.isLt
  unfold kernelRun0_A.sl.v63_3 kernelRun0_A.sl.H4_4 kernelRun0_A.sl.H4_3 kernelRun0_A.sl.H4_2 kernelRun0_A.sl.H4_1
  refine (readCov_unit_apply arg6.view _ _ (ix3 (0 : Fin 1) r d) (ix3 (0 : Fin 1) (gi 3 r) d) (fun a => by match a with | ⟨0, _⟩ => rfl | ⟨1, _⟩ => rfl | ⟨2, _⟩ => exact (Nat.zero_add _).symm)).trans ?_
  refine (canon_unit_not_mem _ _ _ _ (1 : Fin 3) (Or.inr (by show 1024 + 512 ≤ 3 * 512 + r.val; omega))).trans ?_
  refine (canon_unit_not_mem _ _ _ _ (1 : Fin 3) (Or.inr (by show 512 + 512 ≤ 3 * 512 + r.val; omega))).trans ?_
  refine (canon_unit_not_mem _ _ _ _ (1 : Fin 3) (Or.inr (by show 0 + 512 ≤ 3 * 512 + r.val; omega))).trans ?_
  rw [View.canon_unit_zero zero3]
  exact pay22_apply _

/-- The piece stored for query tile 0: the first key tile's share of the output. -/
theorem contrib_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    k0_pay14 (F := Ideal) (kernelRun0_A.sl.v8 (F := Ideal) c i arg2 harg2 arg5 harg5 arg9 x0 x3) (kernelRun0_A.sl.v43 (F := Ideal) c i arg2 harg2 arg3 harg3 arg4 harg4 arg7 arg8 arg10 arg12 arg13 x0 x1 x2) (kernelRun0_A.sl.v61_8 (F := Ideal) c i arg2 harg2 arg3 harg3 arg4 harg4 arg7 arg8 arg10 arg11 arg12 x0 x1 x2) (kernelRun0_A.sl.v63 (F := Ideal) c arg6) (ix3 (0 : Fin 1) r d)
      = 0 + gcontrib (Qc x0 x1) (Pc x0 x2) (Pc x0 x3) 0 (gi 0 r) d := by
  refine (pay14_apply _ _ _ _ r d).trans ?_
  rw [prior_0 c i arg2 harg2 arg3 harg3 arg4 harg4 arg5 harg5 arg6 harg6 arg7 harg7 arg8 harg8 arg9 harg9 arg10 harg10 arg11 harg11 arg12 harg12 arg13 harg13 hk x0 x1 x2 x3 r d]
  unfold gcontrib
  refine congrArg (0 + ·) (Finset.sum_congr rfl fun e _ => ?_)
  rw [pblk_0 c i arg2 harg2 arg3 harg3 arg4 harg4 arg5 harg5 arg6 harg6 arg7 harg7 arg8 harg8 arg9 harg9 arg10 harg10 arg11 harg11 arg12 harg12 arg13 harg13 hk x0 x1 x2 x3 r e, vdiv c i arg2 harg2 arg3 harg3 arg4 harg4 arg5 harg5 arg6 harg6 arg7 harg7 arg8 harg8 arg9 harg9 arg10 harg10 arg11 harg11 arg12 harg12 arg13 harg13 hk x0 x1 x2 x3 e d]

theorem out_canon_0 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    View.canon (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).1 (ix3 (0 : Fin 1) (gi 0 r) d) = 0 + gcontrib (Qc x0 x1) (Pc x0 x2) (Pc x0 x3) 0 (gi 0 r) d := by
  have hr := r.isLt
  unfold kernelRun0_A
  dsimp only
  unfold kernelRun0_A.sl.H4_4 kernelRun0_A.sl.H4_3 kernelRun0_A.sl.H4_2
  refine (canon_unit_not_mem _ _ _ _ (1 : Fin 3) (Or.inl (by show 0 * 512 + r.val < 1536; omega))).trans ?_
  refine (canon_unit_not_mem _ _ _ _ (1 : Fin 3) (Or.inl (by show 0 * 512 + r.val < 1024; omega))).trans ?_
  refine (canon_unit_not_mem _ _ _ _ (1 : Fin 3) (Or.inl (by show 0 * 512 + r.val < 512; omega))).trans ?_
  refine (canon_unit_mem _ _ _ _ (ix3 (0 : Fin 1) r d) (fun a => by match a with | ⟨0, _⟩ => rfl | ⟨1, _⟩ => rfl | ⟨2, _⟩ => exact (Nat.zero_add _).symm)).trans ?_
  exact contrib_0 c i arg2 harg2 arg3 harg3 arg4 harg4 arg5 harg5 arg6 harg6 arg7 harg7 arg8 harg8 arg9 harg9 arg10 harg10 arg11 harg11 arg12 harg12 arg13 harg13 hk x0 x1 x2 x3 r d

/-- The piece stored for query tile 1: the first key tile's share of the output. -/
theorem contrib_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    k0_pay15 (F := Ideal) (kernelRun0_A.sl.v8 (F := Ideal) c i arg2 harg2 arg5 harg5 arg9 x0 x3) (kernelRun0_A.sl.v43 (F := Ideal) c i arg2 harg2 arg3 harg3 arg4 harg4 arg7 arg8 arg10 arg12 arg13 x0 x1 x2) (kernelRun0_A.sl.v61_9 (F := Ideal) c i arg2 harg2 arg3 harg3 arg4 harg4 arg7 arg8 arg10 arg11 arg12 x0 x1 x2) (kernelRun0_A.sl.v63_1 (F := Ideal) c i arg2 harg2 arg3 harg3 arg4 harg4 arg5 harg5 arg6 arg7 arg8 arg9 arg10 arg11 arg12 arg13 x0 x1 x2 x3) (ix3 (0 : Fin 1) r d)
      = 0 + gcontrib (Qc x0 x1) (Pc x0 x2) (Pc x0 x3) 0 (gi 1 r) d := by
  refine (pay15_apply _ _ _ _ r d).trans ?_
  rw [prior_1 c i arg2 harg2 arg3 harg3 arg4 harg4 arg5 harg5 arg6 harg6 arg7 harg7 arg8 harg8 arg9 harg9 arg10 harg10 arg11 harg11 arg12 harg12 arg13 harg13 hk x0 x1 x2 x3 r d]
  unfold gcontrib
  refine congrArg (0 + ·) (Finset.sum_congr rfl fun e _ => ?_)
  rw [pblk_1 c i arg2 harg2 arg3 harg3 arg4 harg4 arg5 harg5 arg6 harg6 arg7 harg7 arg8 harg8 arg9 harg9 arg10 harg10 arg11 harg11 arg12 harg12 arg13 harg13 hk x0 x1 x2 x3 r e, vdiv c i arg2 harg2 arg3 harg3 arg4 harg4 arg5 harg5 arg6 harg6 arg7 harg7 arg8 harg8 arg9 harg9 arg10 harg10 arg11 harg11 arg12 harg12 arg13 harg13 hk x0 x1 x2 x3 e d]

theorem out_canon_1 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    View.canon (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).1 (ix3 (0 : Fin 1) (gi 1 r) d) = 0 + gcontrib (Qc x0 x1) (Pc x0 x2) (Pc x0 x3) 0 (gi 1 r) d := by
  have hr := r.isLt
  unfold kernelRun0_A
  dsimp only
  unfold kernelRun0_A.sl.H4_4 kernelRun0_A.sl.H4_3
  refine (canon_unit_not_mem _ _ _ _ (1 : Fin 3) (Or.inl (by show 1 * 512 + r.val < 1536; omega))).trans ?_
  refine (canon_unit_not_mem _ _ _ _ (1 : Fin 3) (Or.inl (by show 1 * 512 + r.val < 1024; omega))).trans ?_
  refine (canon_unit_mem _ _ _ _ (ix3 (0 : Fin 1) r d) (fun a => by match a with | ⟨0, _⟩ => rfl | ⟨1, _⟩ => rfl | ⟨2, _⟩ => exact (Nat.zero_add _).symm)).trans ?_
  exact contrib_1 c i arg2 harg2 arg3 harg3 arg4 harg4 arg5 harg5 arg6 harg6 arg7 harg7 arg8 harg8 arg9 harg9 arg10 harg10 arg11 harg11 arg12 harg12 arg13 harg13 hk x0 x1 x2 x3 r d

/-- The piece stored for query tile 2: the first key tile's share of the output. -/
theorem contrib_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    k0_pay16 (F := Ideal) (kernelRun0_A.sl.v8 (F := Ideal) c i arg2 harg2 arg5 harg5 arg9 x0 x3) (kernelRun0_A.sl.v43 (F := Ideal) c i arg2 harg2 arg3 harg3 arg4 harg4 arg7 arg8 arg10 arg12 arg13 x0 x1 x2) (kernelRun0_A.sl.v61_10 (F := Ideal) c i arg2 harg2 arg3 harg3 arg4 harg4 arg7 arg8 arg10 arg11 arg12 x0 x1 x2) (kernelRun0_A.sl.v63_2 (F := Ideal) c i arg2 harg2 arg3 harg3 arg4 harg4 arg5 harg5 arg6 arg7 arg8 arg9 arg10 arg11 arg12 arg13 x0 x1 x2 x3) (ix3 (0 : Fin 1) r d)
      = 0 + gcontrib (Qc x0 x1) (Pc x0 x2) (Pc x0 x3) 0 (gi 2 r) d := by
  refine (pay16_apply _ _ _ _ r d).trans ?_
  rw [prior_2 c i arg2 harg2 arg3 harg3 arg4 harg4 arg5 harg5 arg6 harg6 arg7 harg7 arg8 harg8 arg9 harg9 arg10 harg10 arg11 harg11 arg12 harg12 arg13 harg13 hk x0 x1 x2 x3 r d]
  unfold gcontrib
  refine congrArg (0 + ·) (Finset.sum_congr rfl fun e _ => ?_)
  rw [pblk_2 c i arg2 harg2 arg3 harg3 arg4 harg4 arg5 harg5 arg6 harg6 arg7 harg7 arg8 harg8 arg9 harg9 arg10 harg10 arg11 harg11 arg12 harg12 arg13 harg13 hk x0 x1 x2 x3 r e, vdiv c i arg2 harg2 arg3 harg3 arg4 harg4 arg5 harg5 arg6 harg6 arg7 harg7 arg8 harg8 arg9 harg9 arg10 harg10 arg11 harg11 arg12 harg12 arg13 harg13 hk x0 x1 x2 x3 e d]

theorem out_canon_2 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    View.canon (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).1 (ix3 (0 : Fin 1) (gi 2 r) d) = 0 + gcontrib (Qc x0 x1) (Pc x0 x2) (Pc x0 x3) 0 (gi 2 r) d := by
  have hr := r.isLt
  unfold kernelRun0_A
  dsimp only
  unfold kernelRun0_A.sl.H4_4
  refine (canon_unit_not_mem _ _ _ _ (1 : Fin 3) (Or.inl (by show 2 * 512 + r.val < 1536; omega))).trans ?_
  refine (canon_unit_mem _ _ _ _ (ix3 (0 : Fin 1) r d) (fun a => by match a with | ⟨0, _⟩ => rfl | ⟨1, _⟩ => rfl | ⟨2, _⟩ => exact (Nat.zero_add _).symm)).trans ?_
  exact contrib_2 c i arg2 harg2 arg3 harg3 arg4 harg4 arg5 harg5 arg6 harg6 arg7 harg7 arg8 harg8 arg9 harg9 arg10 harg10 arg11 harg11 arg12 harg12 arg13 harg13 hk x0 x1 x2 x3 r d

/-- The piece stored for query tile 3: the first key tile's share of the output. -/
theorem contrib_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    k0_pay17 (F := Ideal) (kernelRun0_A.sl.v8 (F := Ideal) c i arg2 harg2 arg5 harg5 arg9 x0 x3) (kernelRun0_A.sl.v43 (F := Ideal) c i arg2 harg2 arg3 harg3 arg4 harg4 arg7 arg8 arg10 arg12 arg13 x0 x1 x2) (kernelRun0_A.sl.v61_11 (F := Ideal) c i arg2 harg2 arg3 harg3 arg4 harg4 arg7 arg8 arg10 arg11 arg12 x0 x1 x2) (kernelRun0_A.sl.v63_3 (F := Ideal) c i arg2 harg2 arg3 harg3 arg4 harg4 arg5 harg5 arg6 arg7 arg8 arg9 arg10 arg11 arg12 arg13 x0 x1 x2 x3) (ix3 (0 : Fin 1) r d)
      = 0 + gcontrib (Qc x0 x1) (Pc x0 x2) (Pc x0 x3) 0 (gi 3 r) d := by
  refine (pay17_apply _ _ _ _ r d).trans ?_
  rw [prior_3 c i arg2 harg2 arg3 harg3 arg4 harg4 arg5 harg5 arg6 harg6 arg7 harg7 arg8 harg8 arg9 harg9 arg10 harg10 arg11 harg11 arg12 harg12 arg13 harg13 hk x0 x1 x2 x3 r d]
  unfold gcontrib
  refine congrArg (0 + ·) (Finset.sum_congr rfl fun e _ => ?_)
  rw [pblk_3 c i arg2 harg2 arg3 harg3 arg4 harg4 arg5 harg5 arg6 harg6 arg7 harg7 arg8 harg8 arg9 harg9 arg10 harg10 arg11 harg11 arg12 harg12 arg13 harg13 hk x0 x1 x2 x3 r e, vdiv c i arg2 harg2 arg3 harg3 arg4 harg4 arg5 harg5 arg6 harg6 arg7 harg7 arg8 harg8 arg9 harg9 arg10 harg10 arg11 harg11 arg12 harg12 arg13 harg13 hk x0 x1 x2 x3 e d]

theorem out_canon_3 (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (r : Fin 512) (d : Fin 64) :
    View.canon (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).1 (ix3 (0 : Fin 1) (gi 3 r) d) = 0 + gcontrib (Qc x0 x1) (Pc x0 x2) (Pc x0 x3) 0 (gi 3 r) d := by
  have hr := r.isLt
  unfold kernelRun0_A
  dsimp only
  refine (canon_unit_mem _ _ _ _ (ix3 (0 : Fin 1) r d) (fun a => by match a with | ⟨0, _⟩ => rfl | ⟨1, _⟩ => rfl | ⟨2, _⟩ => exact (Nat.zero_add _).symm)).trans ?_
  exact contrib_3 c i arg2 harg2 arg3 harg3 arg4 harg4 arg5 harg5 arg6 harg6 arg7 harg7 arg8 harg8 arg9 harg9 arg10 harg10 arg11 harg11 arg12 harg12 arg13 harg13 hk x0 x1 x2 x3 r d

/-- Key tile 0 leaves in the output block, at every row, the zero fill plus the first key tile's share. -/
theorem out_A (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 0) (x0 : Vec Ideal S1x2048x384 .f32) (x1 x2 x3 : Vec Ideal S384x64 .f32) (s : Fin 2048) (d : Fin 64) :
    (Memref.whole cc0_stg4_0 : Memref sig .tc .vmem S1x2048x64 .f32).view.read (Elt Ideal)
        ((Memref.whole cc0_stg4_0 : Memref sig .tc .vmem S1x2048x64 .f32).view.writes (Elt Ideal)
          (Memref.whole cc0_stg4_0 : Memref sig .tc .vmem S1x2048x64 .f32).view.junk (kernelRun0_A (F := Ideal) c i arg2 harg2 arg3 harg3 arg4 harg4 arg5 harg5 arg6 harg6 arg7 harg7 arg8 harg8 arg9 harg9 arg10 harg10 arg11 harg11 arg12 harg12 arg13 harg13 hk x0 x1 x2 x3).1) (ix3 (0 : Fin 1) s d)
      = 0 + Cert.AttnTile.gcontrib (fun p e => (∑ e' : Fin 384, x0 (ix3 (0 : Fin 1) p e') * x1 (ix2 e' e)) * Cert.AttnSpec.eighth) (fun p e => ∑ e' : Fin 384, x0 (ix3 (0 : Fin 1) p e') * x2 (ix2 e' e)) (fun p e => ∑ e' : Fin 384, x0 (ix3 (0 : Fin 1) p e') * x3 (ix2 e' e)) 0 s d := by
  refine (View.read_writes_junk_apply_eq_canon _ (ix3 (0 : Fin 1) s d) _).trans ?_
  have hs := s.isLt
  obtain ⟨q, r, rfl⟩ : ∃ (q : Fin 4) (r : Fin 512), s = gi q r :=
    ⟨⟨s.val / 512, by omega⟩, ⟨s.val % 512, Nat.mod_lt _ (by omega)⟩, Fin.ext (by
      show s.val = s.val / 512 * 512 + s.val % 512
      omega)⟩
  fin_cases q
  · exact out_canon_0 c i arg2 harg2 arg3 harg3 arg4 harg4 arg5 harg5 arg6 harg6 arg7 harg7 arg8 harg8 arg9 harg9 arg10 harg10 arg11 harg11 arg12 harg12 arg13 harg13 hk x0 x1 x2 x3 r d
  · exact out_canon_1 c i arg2 harg2 arg3 harg3 arg4 harg4 arg5 harg5 arg6 harg6 arg7 harg7 arg8 harg8 arg9 harg9 arg10 harg10 arg11 harg11 arg12 harg12 arg13 harg13 hk x0 x1 x2 x3 r d
  · exact out_canon_2 c i arg2 harg2 arg3 harg3 arg4 harg4 arg5 harg5 arg6 harg6 arg7 harg7 arg8 harg8 arg9 harg9 arg10 harg10 arg11 harg11 arg12 harg12 arg13 harg13 hk x0 x1 x2 x3 r d
  · exact out_canon_3 c i arg2 harg2 arg3 harg3 arg4 harg4 arg5 harg5 arg6 harg6 arg7 harg7 arg8 harg8 arg9 harg9 arg10 harg10 arg11 harg11 arg12 harg12 arg13 harg13 hk x0 x1 x2 x3 r d

end Cert.KernelIdeal.ValA

end
-- ==== Proof.KIValB.lean ====
/-
  Key tile 1 of the attention kernel's body, read back as mathematics: what the body's stores leave in the output
  block. The rows of the query tiles at or below the diagonal tile get the key tile's share of the attention output
  added to what the block held; the rows of the query tile above it are not stored into.
-/
import proofs.«422935_j26276609917310_3_alg».proof.Proof.KIRunD
import proofs.«422935_j26276609917310_3_alg».proof.Proof.KIPayA
import proofs.«422935_j26276609917310_3_alg».proof.Proof.KIPayB
import proofs.«422935_j26276609917310_3_alg».proof.Proof.AttnTileAlg
import Idealize.ShloMosaic.Lib.ValueIdx
import Idealize.ShloMosaic.Lib.WholeRead
import Idealize.ShloMosaic.Lib.Writes
import Idealize.ShloMosaic.Lib.WritesUnit
import Idealize.ShloMosaic.Lib.Pipeline.FrameBody
import Idealize.ShloMosaic.Lib.Pipeline.RowLoads

set_option maxRecDepth 16384

noncomputable section

open scoped BigOperators

namespace Cert.KernelIdeal.ValB

open Idealize.ShloMosaic Idealize.ShloMosaic.ValueIdx Idealize.ShloMosaic.TcCoe
open Idealize.SL.Sem
open Cert.KernelIdeal Cert.KernelIdeal.Gen Cert.KernelIdeal.Pay Cert.AttnTile Cert.AttnSpec

namespace B

/-! ## Loads of a tile of rows from a whole array -/

/-- Rows `[512 q, 512 q + 512)` of a whole `2048 × 64` array, read at `(r, e)`: the array at position `q · 512 + r`. -/
theorem readAt_rows (m : Memref sig .tc .vmem S2048x64 .bf16) (hm : m.IsWhole) (X : Vec Ideal S2048x64 .bf16)
    (off : Fin 2 → ℕ) (h : ∀ a, off a + S512x64.size a ≤ S2048x64.size a) (q : Fin 4) (hoff : off = ![512 * q.val, 0])
    (r : Fin 512) (e : Fin 64) :
    View.readAt (Elt Ideal) m.view (Rect.unit (s := S2048x64) off S512x64.size h).toLoadRect (hm.unread X) (ix2 r e)
      = X (ix2 (gi q r) e) := by
  subst hoff
  rw [Memref.IsWhole.readAt_unread]
  refine congrArg X ?_
  funext a
  refine Fin.ext ?_
  match a with
  | ⟨0, _⟩ => show 512 * q.val + 1 * r.val = q.val * 512 + r.val; omega
  | ⟨1, _⟩ => show 0 + 1 * e.val = e.val; omega

/-- Rows `[512 q, 512 q + 512)` of a whole `1 × 2048 × 64` array, read at `(0, r, d)`. -/
theorem readAt_orows (m : Memref sig .tc .vmem S1x2048x64 .f32) (hm : m.IsWhole) (X : Vec Ideal S1x2048x64 .f32)
    (off : Fin 3 → ℕ) (h : ∀ a, off a + S1x512x64.size a ≤ S1x2048x64.size a) (q : Fin 4)
    (hoff : off = ![0, 512 * q.val, 0]) (r : Fin 512) (d : Fin 64) :
    View.readAt (Elt Ideal) m.view (Rect.unit (s := S1x2048x64) off S1x512x64.size h).toLoadRect (hm.unread X) (ix3 (0 : Fin 1) r d)
      = X (ix3 (0 : Fin 1) (gi q r) d) := by
  subst hoff
  rw [Memref.IsWhole.readAt_unread]
  refine congrArg X ?_
  funext a
  refine Fin.ext ?_
  match a with
  | ⟨0, _⟩ => rfl
  | ⟨1, _⟩ => show 512 * q.val + 1 * r.val = q.val * 512 + r.val; omega
  | ⟨2, _⟩ => show 0 + 1 * d.val = d.val; omega

/-! ## The payloads at key tile 1, over cached arrays `Q`, `K`, `V` -/

section Math

variable (Q K V : Fin 2048 → Fin 64 → EReal)

/-- The masked product of query tile `q ≥ 1` with key tile 1 is the masked score. -/
theorem score_eq_gscore (Kt Qt : Vec Ideal S512x64 .bf16) (q : Fin 4) (hq : 1 ≤ q.val)
    (hK : ∀ c e, Kt (ix2 c e) = K (gi 1 c) e) (hQ : ∀ r e, Qt (ix2 r e) = Q (gi q r) e) (r c : Fin 512) :
    (if c.val ≤ r.val + (q.val - 1) * 512 then ∑ e : Fin 64, Qt (ix2 r e) * Kt (ix2 c e) else ⊥)
      = gscore Q K (gi q r) (gi 1 c) := by
  unfold gscore
  have hiff : c.val ≤ r.val + (q.val - 1) * 512 ↔ (gi 1 c).val ≤ (gi q r).val := by
    show _ ↔ (1 : Fin 4).val * 512 + c.val ≤ q.val * 512 + r.val
    have h1 : (1 : Fin 4).val = 1 := rfl
    omega
  simp only [hiff, hQ, hK]

variable (i : grid0.Coords)

theorem score1 (hk : (i 1).val = 1) (Kt Qt : Vec Ideal S512x64 .bf16) (hK : ∀ c e, Kt (ix2 c e) = K (gi 1 c) e)
    (hQ : ∀ r e, Qt (ix2 r e) = Q (gi 1 r) e) (r c : Fin 512) :
    k0_pay28 (F := Ideal) i Kt Qt (ix2 r c) = gscore Q K (gi 1 r) (gi 1 c) :=
  (pay28_apply i Kt Qt r c 1 hk (Nat.le_refl 1)).trans (score_eq_gscore Q K Kt Qt 1 (Nat.le_refl 1) hK hQ r c)

theorem score2 (hk : (i 1).val = 1) (Kt Qt : Vec Ideal S512x64 .bf16) (hK : ∀ c e, Kt (ix2 c e) = K (gi 1 c) e)
    (hQ : ∀ r e, Qt (ix2 r e) = Q (gi 2 r) e) (r c : Fin 512) :
    k0_pay31 (F := Ideal) i Kt Qt (ix2 r c) = gscore Q K (gi 2 r) (gi 1 c) :=
  (pay31_apply i Kt Qt r c 1 hk (by decide)).trans (score_eq_gscore Q K Kt Qt 2 (by decide) hK hQ r c)

theorem score3 (hk : (i 1).val = 1) (Kt Qt : Vec Ideal S512x64 .bf16) (hK : ∀ c e, Kt (ix2 c e) = K (gi 1 c) e)
    (hQ : ∀ r e, Qt (ix2 r e) = Q (gi 3 r) e) (r c : Fin 512) :
    k0_pay34 (F := Ideal) i Kt Qt (ix2 r c) = gscore Q K (gi 3 r) (gi 1 c) :=
  (pay34_apply i Kt Qt r c 1 hk (by decide)).trans (score_eq_gscore Q K Kt Qt 3 (by decide) hK hQ r c)

/-! ### The running column maximum -/

theorem max1 (hk : (i 1).val = 1) (Kt Qt : Vec Ideal S512x64 .bf16) (Mp : Vec Ideal S1x512 .f32)
    (hK : ∀ c e, Kt (ix2 c e) = K (gi 1 c) e) (hQ : ∀ r e, Qt (ix2 r e) = Q (gi 1 r) e) (c : Fin 512) :
    k0_pay30 (F := Ideal) i Kt Qt Mp (ix2 (0 : Fin 1) c) = max (Mp (ix2 0 c)) (gmax1 Q K 1 1 c) := by
  rw [pay30_apply]
  unfold gmax1
  exact congrArg (fun f : Fin 512 → EReal => max (Mp (ix2 0 c)) ((Finset.univ : Finset (Fin 512)).fold max ⊥ f))
    (funext fun r => score1 Q K i hk Kt Qt hK hQ r c)

theorem max2 (hk : (i 1).val = 1) (Kt Qt : Vec Ideal S512x64 .bf16) (Mp : Vec Ideal S1x512 .f32)
    (hK : ∀ c e, Kt (ix2 c e) = K (gi 1 c) e) (hQ : ∀ r e, Qt (ix2 r e) = Q (gi 2 r) e) (c : Fin 512) :
    k0_pay33 (F := Ideal) i Kt Qt Mp (ix2 (0 : Fin 1) c) = max (Mp (ix2 0 c)) (gmax1 Q K 2 1 c) := by
  rw [pay33_apply]
  unfold gmax1
  exact congrArg (fun f : Fin 512 → EReal => max (Mp (ix2 0 c)) ((Finset.univ : Finset (Fin 512)).fold max ⊥ f))
    (funext fun r => score2 Q K i hk Kt Qt hK hQ r c)

theorem max3 (hk : (i 1).val = 1) (Kt Qt : Vec Ideal S512x64 .bf16) (Mp : Vec Ideal S1x512 .f32)
    (hK : ∀ c e, Kt (ix2 c e) = K (gi 1 c) e) (hQ : ∀ r e, Qt (ix2 r e) = Q (gi 3 r) e) (c : Fin 512) :
    k0_pay36 (F := Ideal) i Kt Qt Mp (ix2 (0 : Fin 1) c) = max (Mp (ix2 0 c)) (gmax1 Q K 3 1 c) := by
  rw [pay36_apply]
  unfold gmax1
  exact congrArg (fun f : Fin 512 → EReal => max (Mp (ix2 0 c)) ((Finset.univ : Finset (Fin 512)).fold max ⊥ f))
    (funext fun r => score3 Q K i hk Kt Qt hK hQ r c)

/-! ### The weights -/

theorem wt_eq (Sb : Vec Ideal S512x512 .f32) (M : Vec Ideal S1x512 .f32) (q : Fin 4)
    (hS : ∀ r c, Sb (ix2 r c) = gscore Q K (gi q r) (gi 1 c)) (hM : ∀ c, M (ix2 (0 : Fin 1) c) = gmax Q K 1 c)
    (r c : Fin 512) : Ideal.exp (Sb (ix2 r c) - M (ix2 (0 : Fin 1) c)) = gp Q K 1 (gi q r) c := by
  unfold gp
  rw [hS, hM]

theorem wt1 (Sb : Vec Ideal S512x512 .f32) (M : Vec Ideal S1x512 .f32)
    (hS : ∀ r c, Sb (ix2 r c) = gscore Q K (gi 1 r) (gi 1 c)) (hM : ∀ c, M (ix2 (0 : Fin 1) c) = gmax Q K 1 c)
    (r c : Fin 512) : k0_pay4 (F := Ideal) Sb M (ix2 r c) = gp Q K 1 (gi 1 r) c :=
  (pay4_apply Sb M r c).trans (wt_eq Q K Sb M 1 hS hM r c)

theorem wt2 (Sb : Vec Ideal S512x512 .f32) (M : Vec Ideal S1x512 .f32)
    (hS : ∀ r c, Sb (ix2 r c) = gscore Q K (gi 2 r) (gi 1 c)) (hM : ∀ c, M (ix2 (0 : Fin 1) c) = gmax Q K 1 c)
    (r c : Fin 512) : k0_pay7 (F := Ideal) Sb M (ix2 r c) = gp Q K 1 (gi 2 r) c :=
  (pay7_apply Sb M r c).trans (wt_eq Q K Sb M 2 hS hM r c)

theorem wt3 (Sb : Vec Ideal S512x512 .f32) (M : Vec Ideal S1x512 .f32)
    (hS : ∀ r c, Sb (ix2 r c) = gscore Q K (gi 3 r) (gi 1 c)) (hM : ∀ c, M (ix2 (0 : Fin 1) c) = gmax Q K 1 c)
    (r c : Fin 512) : k0_pay10 (F := Ideal) Sb M (ix2 r c) = gp Q K 1 (gi 3 r) c :=
  (pay10_apply Sb M r c).trans (wt_eq Q K Sb M 3 hS hM r c)

/-! ### The running column sum -/

theorem sum1 (Sb : Vec Ideal S512x512 .f32) (M Lp : Vec Ideal S1x512 .f32)
    (hS : ∀ r c, Sb (ix2 r c) = gscore Q K (gi 1 r) (gi 1 c)) (hM : ∀ c, M (ix2 (0 : Fin 1) c) = gmax Q K 1 c)
    (c : Fin 512) :
    k0_pay6 (F := Ideal) Sb M Lp (ix2 (0 : Fin 1) c) = Lp (ix2 0 c) + ∑ r : Fin 512, gp Q K 1 (gi 1 r) c := by
  rw [pay6_apply]
  exact congrArg (Lp (ix2 0 c) + ·) (Finset.sum_congr rfl fun r _ => wt1 Q K Sb M hS hM r c)

theorem sum2 (Sb : Vec Ideal S512x512 .f32) (M Lp : Vec Ideal S1x512 .f32)
    (hS : ∀ r c, Sb (ix2 r c) = gscore Q K (gi 2 r) (gi 1 c)) (hM : ∀ c, M (ix2 (0 : Fin 1) c) = gmax Q K 1 c)
    (c : Fin 512) :
    k0_pay9 (F := Ideal) Sb M Lp (ix2 (0 : Fin 1) c) = Lp (ix2 0 c) + ∑ r : Fin 512, gp Q K 1 (gi 2 r) c := by
  rw [pay9_apply]
  exact congrArg (Lp (ix2 0 c) + ·) (Finset.sum_congr rfl fun r _ => wt2 Q K Sb M hS hM r c)

theorem sum3 (Sb : Vec Ideal S512x512 .f32) (M Lp : Vec Ideal S1x512 .f32)
    (hS : ∀ r c, Sb (ix2 r c) = gscore Q K (gi 3 r) (gi 1 c)) (hM : ∀ c, M (ix2 (0 : Fin 1) c) = gmax Q K 1 c)
    (c : Fin 512) :
    k0_pay12 (F := Ideal) Sb M Lp (ix2 (0 : Fin 1) c) = Lp (ix2 0 c) + ∑ r : Fin 512, gp Q K 1 (gi 3 r) c := by
  rw [pay12_apply]
  exact congrArg (Lp (ix2 0 c) + ·) (Finset.sum_congr rfl fun r _ => wt3 Q K Sb M hS hM r c)

/-! ### The output block -/

theorem contrib_eq (Vt : Vec Ideal S512x64 .bf16) (L : Vec Ideal S1x512 .f32) (Pb : Vec Ideal S512x512 .bf16) (q : Fin 4)
    (hV : ∀ c d, Vt (ix2 c d) = V (gi 1 c) d) (hL : ∀ c, L (ix2 (0 : Fin 1) c) = gsum Q K 1 c)
    (hP : ∀ r c, Pb (ix2 r c) = gp Q K 1 (gi q r) c) (r : Fin 512) (d : Fin 64) :
    ∑ e : Fin 512, Pb (ix2 r e) * k0_pay13 (F := Ideal) Vt L (ix2 e d) = gcontrib Q K V 1 (gi q r) d := by
  unfold gcontrib
  refine Finset.sum_congr rfl fun e _ => ?_
  rw [pay13_apply, hP, hV, hL]

theorem out1 (Vt : Vec Ideal S512x64 .bf16) (L : Vec Ideal S1x512 .f32) (Pb : Vec Ideal S512x512 .bf16)
    (Ob : Vec Ideal S1x512x64 .f32) (hV : ∀ c d, Vt (ix2 c d) = V (gi 1 c) d)
    (hL : ∀ c, L (ix2 (0 : Fin 1) c) = gsum Q K 1 c) (hP : ∀ r c, Pb (ix2 r c) = gp Q K 1 (gi 1 r) c)
    (r : Fin 512) (d : Fin 64) :
    k0_pay15 (F := Ideal) Vt L Pb Ob (ix3 (0 : Fin 1) r d) = Ob (ix3 0 r d) + gcontrib Q K V 1 (gi 1 r) d := by
  rw [pay15_apply]
  exact congrArg (Ob (ix3 0 r d) + ·) (contrib_eq Q K V Vt L Pb 1 hV hL hP r d)

theorem out2 (Vt : Vec Ideal S512x64 .bf16) (L : Vec Ideal S1x512 .f32) (Pb : Vec Ideal S512x512 .bf16)
    (Ob : Vec Ideal S1x512x64 .f32) (hV : ∀ c d, Vt (ix2 c d) = V (gi 1 c) d)
    (hL : ∀ c, L (ix2 (0 : Fin 1) c) = gsum Q K 1 c) (hP : ∀ r c, Pb (ix2 r c) = gp Q K 1 (gi 2 r) c)
    (r : Fin 512) (d : Fin 64) :
    k0_pay16 (F := Ideal) Vt L Pb Ob (ix3 (0 : Fin 1) r d) = Ob (ix3 0 r d) + gcontrib Q K V 1 (gi 2 r) d := by
  rw [pay16_apply]
  exact congrArg (Ob (ix3 0 r d) + ·) (contrib_eq Q K V Vt L Pb 2 hV hL hP r d)

theorem out3 (Vt : Vec Ideal S512x64 .bf16) (L : Vec Ideal S1x512 .f32) (Pb : Vec Ideal S512x512 .bf16)
    (Ob : Vec Ideal S1x512x64 .f32) (hV : ∀ c d, Vt (ix2 c d) = V (gi 1 c) d)
    (hL : ∀ c, L (ix2 (0 : Fin 1) c) = gsum Q K 1 c) (hP : ∀ r c, Pb (ix2 r c) = gp Q K 1 (gi 3 r) c)
    (r : Fin 512) (d : Fin 64) :
    k0_pay17 (F := Ideal) Vt L Pb Ob (ix3 (0 : Fin 1) r d) = Ob (ix3 0 r d) + gcontrib Q K V 1 (gi 3 r) d := by
  rw [pay17_apply]
  exact congrArg (Ob (ix3 0 r d) + ·) (contrib_eq Q K V Vt L Pb 3 hV hL hP r d)

end Math

/-! ## The run's named values at key tile 1 -/

section Run

/-- A cached array as a function of position and head coordinate. -/
abbrev arr (X : Vec Ideal S2048x64 .bf16) : Fin 2048 → Fin 64 → EReal := fun p e => X (ix2 p e)

variable (c : Dev nD) (i : grid0.Coords)
  (arg6 : Memref sig .tc .vmem S1x2048x64 .f32) (harg6 : arg6.IsWhole)
  (arg7 : Memref sig .tc .vmem S2048x64 .bf16) (harg7 : arg7.IsWhole)
  (arg8 : Memref sig .tc .vmem S2048x64 .bf16) (harg8 : arg8.IsWhole)
  (arg9 : Memref sig .tc .vmem S2048x64 .bf16) (harg9 : arg9.IsWhole)
  (arg10 : Memref sig .tc .vmem S2048x512 .f32) (arg11 : Memref sig .tc .vmem S2048x512 .bf16)
  (arg12 : Memref sig .tc .vmem S1x512 .f32) (arg13 : Memref sig .tc .vmem S1x512 .f32)
  (xo : Vec Ideal S1x2048x64 .f32) (xs0 xs1 xs2 : Vec Ideal S2048x64 .bf16)

/-- The tile of a cache at the key tile's dynamic offset is tile 1. -/
theorem tile1_apply (hk : (i 1).val = 1) (m : Memref sig .tc .vmem S2048x64 .bf16) (hm : m.IsWhole)
    (X : Vec Ideal S2048x64 .bf16) (h : ∀ a, k0_off1 i a + S512x64.size a ≤ S2048x64.size a) (r : Fin 512) (e : Fin 64) :
    View.readAt (Elt Ideal) m.view (Rect.unit (s := S2048x64) (k0_off1 i) S512x64.size h).toLoadRect (hm.unread X) (ix2 r e)
      = X (ix2 (gi 1 r) e) :=
  readAt_rows m hm X _ h 1 (by rw [k0_off1_eq, hk]; rfl) r e

/-- The value tile. -/
theorem r_apply (hk : (i 1).val = 1) (r : Fin 512) (d : Fin 64) :
    kernelRun0_B.sl.r (F := Ideal) c i arg9 harg9 xs2 (ix2 r d) = arr xs2 (gi 1 r) d := by
  unfold kernelRun0_B.sl.r
  exact tile1_apply i hk arg9 harg9 xs2 _ r d

/-! ### Pass A: the running maximum -/

theorem v75_apply (c' : Fin 512) : kernelRun0_B.sl.v75 (F := Ideal) c arg12 (ix2 (0 : Fin 1) c') = ⊥ := by
  unfold kernelRun0_B.sl.v75 kernelRun0_B.sl.HS5_1
  rw [View.readCov_cons_toLoadRect]
  exact pay23_apply _

theorem v75_1_apply (hk : (i 1).val = 1) (c' : Fin 512) :
    kernelRun0_B.sl.v75_1 (F := Ideal) c i arg7 harg7 arg8 harg8 arg12 xs0 xs1 (ix2 (0 : Fin 1) c')
      = max ⊥ (gmax1 (arr xs0) (arr xs1) 1 1 c') := by
  unfold kernelRun0_B.sl.v75_1 kernelRun0_B.sl.HS5_2
  rw [View.readCov_cons_toLoadRect]
  refine (max1 (arr xs0) (arr xs1) i hk _ _ _ (fun r e => tile1_apply i hk arg8 harg8 xs1 _ r e)
    (fun r e => readAt_rows arg7 harg7 xs0 _ _ 1 rfl r e) c').trans ?_
  rw [v75_apply]

theorem v75_2_apply (hk : (i 1).val = 1) (c' : Fin 512) :
    kernelRun0_B.sl.v75_2 (F := Ideal) c i arg7 harg7 arg8 harg8 arg12 xs0 xs1 (ix2 (0 : Fin 1) c')
      = max (max ⊥ (gmax1 (arr xs0) (arr xs1) 1 1 c')) (gmax1 (arr xs0) (arr xs1) 2 1 c') := by
  unfold kernelRun0_B.sl.v75_2 kernelRun0_B.sl.HS5_3
  rw [View.readCov_cons_toLoadRect]
  refine (max2 (arr xs0) (arr xs1) i hk _ _ _ (fun r e => tile1_apply i hk arg8 harg8 xs1 _ r e)
    (fun r e => readAt_rows arg7 harg7 xs0 _ _ 2 rfl r e) c').trans ?_
  rw [v75_1_apply c i arg7 harg7 arg8 harg8 arg12 xs0 xs1 hk]

/-- The running maximum after pass A is the column maximum over the query tiles at or below the diagonal tile. -/
theorem v62_apply (hk : (i 1).val = 1) (c' : Fin 512) :
    kernelRun0_B.sl.v62 (F := Ideal) c i arg7 harg7 arg8 harg8 arg12 xs0 xs1 (ix2 (0 : Fin 1) c') = gmax (arr xs0) (arr xs1) 1 c' := by
  unfold kernelRun0_B.sl.v62 kernelRun0_B.sl.HS5_4
  rw [View.readCov_cons_toLoadRect]
  refine (max3 (arr xs0) (arr xs1) i hk _ _ _ (fun r e => tile1_apply i hk arg8 harg8 xs1 _ r e)
    (fun r e => readAt_rows arg7 harg7 xs0 _ _ 3 rfl r e) c').trans ?_
  rw [v75_2_apply c i arg7 harg7 arg8 harg8 arg12 xs0 xs1 hk, gmax_at1]

/-! ### The score blocks read back -/

theorem v61_apply (hk : (i 1).val = 1) (r c' : Fin 512) :
    kernelRun0_B.sl.v61 (F := Ideal) c i arg7 harg7 arg8 harg8 arg10 xs0 xs1 (ix2 r c') = gscore (arr xs0) (arr xs1) (gi 1 r) (gi 1 c') := by
  unfold kernelRun0_B.sl.v61 kernelRun0_B.sl.HS3_3
  rw [View.readCov_cons_of_rows_disjoint (k := 512) (k' := 512) _ 1536 512 (by decide),
    View.readCov_cons_of_rows_disjoint (k := 512) (k' := 512) _ 1024 512 (by decide), View.readCov_cons_toLoadRect, pay29_eq]
  exact score1 (arr xs0) (arr xs1) i hk _ _ (fun r e => tile1_apply i hk arg8 harg8 xs1 _ r e) (fun r e => readAt_rows arg7 harg7 xs0 _ _ 1 rfl r e) r c'

theorem v61_1_apply (hk : (i 1).val = 1) (r c' : Fin 512) :
    kernelRun0_B.sl.v61_1 (F := Ideal) c i arg7 harg7 arg8 harg8 arg10 xs0 xs1 (ix2 r c') = gscore (arr xs0) (arr xs1) (gi 2 r) (gi 1 c') := by
  unfold kernelRun0_B.sl.v61_1 kernelRun0_B.sl.HS3_3
  rw [View.readCov_cons_of_rows_disjoint (k := 512) (k' := 512) _ 1536 1024 (by decide), View.readCov_cons_toLoadRect, pay32_eq]
  exact score2 (arr xs0) (arr xs1) i hk _ _ (fun r e => tile1_apply i hk arg8 harg8 xs1 _ r e) (fun r e => readAt_rows arg7 harg7 xs0 _ _ 2 rfl r e) r c'

theorem v61_2_apply (hk : (i 1).val = 1) (r c' : Fin 512) :
    kernelRun0_B.sl.v61_2 (F := Ideal) c i arg7 harg7 arg8 harg8 arg10 xs0 xs1 (ix2 r c') = gscore (arr xs0) (arr xs1) (gi 3 r) (gi 1 c') := by
  unfold kernelRun0_B.sl.v61_2 kernelRun0_B.sl.HS3_3
  rw [View.readCov_cons_toLoadRect, pay35_eq]
  exact score3 (arr xs0) (arr xs1) i hk _ _ (fun r e => tile1_apply i hk arg8 harg8 xs1 _ r e) (fun r e => readAt_rows arg7 harg7 xs0 _ _ 3 rfl r e) r c'

/-! ### Pass B: the running sum -/

theorem v70_apply (c' : Fin 512) : kernelRun0_B.sl.v70 (F := Ideal) c arg13 (ix2 (0 : Fin 1) c') = 0 := by
  unfold kernelRun0_B.sl.v70 kernelRun0_B.sl.HS6_1
  rw [View.readCov_cons_toLoadRect]
  exact pay24_apply _

theorem v70_1_apply (hk : (i 1).val = 1) (c' : Fin 512) :
    kernelRun0_B.sl.v70_1 (F := Ideal) c i arg7 harg7 arg8 harg8 arg10 arg12 arg13 xs0 xs1 (ix2 (0 : Fin 1) c')
      = 0 + ∑ r : Fin 512, gp (arr xs0) (arr xs1) 1 (gi 1 r) c' := by
  unfold kernelRun0_B.sl.v70_1 kernelRun0_B.sl.HS6_2
  rw [View.readCov_cons_toLoadRect]
  refine (sum1 (arr xs0) (arr xs1) _ _ _ (fun r c'' => v61_apply c i arg7 harg7 arg8 harg8 arg10 xs0 xs1 hk r c'') (fun c'' => v62_apply c i arg7 harg7 arg8 harg8 arg12 xs0 xs1 hk c'') c').trans ?_
  rw [v70_apply]

theorem v70_2_apply (hk : (i 1).val = 1) (c' : Fin 512) :
    kernelRun0_B.sl.v70_2 (F := Ideal) c i arg7 harg7 arg8 harg8 arg10 arg12 arg13 xs0 xs1 (ix2 (0 : Fin 1) c')
      = (0 + ∑ r : Fin 512, gp (arr xs0) (arr xs1) 1 (gi 1 r) c') + ∑ r : Fin 512, gp (arr xs0) (arr xs1) 1 (gi 2 r) c' := by
  unfold kernelRun0_B.sl.v70_2 kernelRun0_B.sl.HS6_3
  rw [View.readCov_cons_toLoadRect]
  refine (sum2 (arr xs0) (arr xs1) _ _ _ (fun r c'' => v61_1_apply c i arg7 harg7 arg8 harg8 arg10 xs0 xs1 hk r c'') (fun c'' => v62_apply c i arg7 harg7 arg8 harg8 arg12 xs0 xs1 hk c'') c').trans ?_
  rw [v70_1_apply c i arg7 harg7 arg8 harg8 arg10 arg12 arg13 xs0 xs1 hk]

/-- The running sum after pass B is the column sum over the query tiles at or below the diagonal tile. -/
theorem v43_apply (hk : (i 1).val = 1) (c' : Fin 512) :
    kernelRun0_B.sl.v43 (F := Ideal) c i arg7 harg7 arg8 harg8 arg10 arg12 arg13 xs0 xs1 (ix2 (0 : Fin 1) c') = gsum (arr xs0) (arr xs1) 1 c' := by
  unfold kernelRun0_B.sl.v43 kernelRun0_B.sl.HS6_4
  rw [View.readCov_cons_toLoadRect]
  refine (sum3 (arr xs0) (arr xs1) _ _ _ (fun r c'' => v61_2_apply c i arg7 harg7 arg8 harg8 arg10 xs0 xs1 hk r c'') (fun c'' => v62_apply c i arg7 harg7 arg8 harg8 arg12 xs0 xs1 hk c'') c').trans ?_
  rw [v70_2_apply c i arg7 harg7 arg8 harg8 arg10 arg12 arg13 xs0 xs1 hk, gsum_at1]

/-! ### The weight blocks read back -/

theorem v61_3_apply (hk : (i 1).val = 1) (r c' : Fin 512) :
    kernelRun0_B.sl.v61_3 (F := Ideal) c i arg7 harg7 arg8 harg8 arg10 arg11 arg12 xs0 xs1 (ix2 r c') = gp (arr xs0) (arr xs1) 1 (gi 1 r) c' := by
  unfold kernelRun0_B.sl.v61_3 kernelRun0_B.sl.HS4_3
  rw [View.readCov_cons_of_rows_disjoint (k := 512) (k' := 512) _ 1536 512 (by decide),
    View.readCov_cons_of_rows_disjoint (k := 512) (k' := 512) _ 1024 512 (by decide), View.readCov_cons_toLoadRect, pay5_eq]
  exact wt1 (arr xs0) (arr xs1) _ _ (fun r c'' => v61_apply c i arg7 harg7 arg8 harg8 arg10 xs0 xs1 hk r c'') (fun c'' => v62_apply c i arg7 harg7 arg8 harg8 arg12 xs0 xs1 hk c'') r c'

theorem v61_4_apply (hk : (i 1).val = 1) (r c' : Fin 512) :
    kernelRun0_B.sl.v61_4 (F := Ideal) c i arg7 harg7 arg8 harg8 arg10 arg11 arg12 xs0 xs1 (ix2 r c') = gp (arr xs0) (arr xs1) 1 (gi 2 r) c' := by
  unfold kernelRun0_B.sl.v61_4 kernelRun0_B.sl.HS4_3
  rw [View.readCov_cons_of_rows_disjoint (k := 512) (k' := 512) _ 1536 1024 (by decide), View.readCov_cons_toLoadRect, pay8_eq]
  exact wt2 (arr xs0) (arr xs1) _ _ (fun r c'' => v61_1_apply c i arg7 harg7 arg8 harg8 arg10 xs0 xs1 hk r c'') (fun c'' => v62_apply c i arg7 harg7 arg8 harg8 arg12 xs0 xs1 hk c'') r c'

theorem v61_5_apply (hk : (i 1).val = 1) (r c' : Fin 512) :
    kernelRun0_B.sl.v61_5 (F := Ideal) c i arg7 harg7 arg8 harg8 arg10 arg11 arg12 xs0 xs1 (ix2 r c') = gp (arr xs0) (arr xs1) 1 (gi 3 r) c' := by
  unfold kernelRun0_B.sl.v61_5 kernelRun0_B.sl.HS4_3
  rw [View.readCov_cons_toLoadRect, pay11_eq]
  exact wt3 (arr xs0) (arr xs1) _ _ (fun r c'' => v61_2_apply c i arg7 harg7 arg8 harg8 arg10 xs0 xs1 hk r c'') (fun c'' => v62_apply c i arg7 harg7 arg8 harg8 arg12 xs0 xs1 hk c'') r c'

/-! ### What the output block held -/

theorem v63_apply (r : Fin 512) (d : Fin 64) :
    kernelRun0_B.sl.v63 (F := Ideal) c arg6 harg6 xo (ix3 (0 : Fin 1) r d) = xo (ix3 (0 : Fin 1) (gi 2 r) d) := by
  unfold kernelRun0_B.sl.v63
  exact readAt_orows arg6 harg6 xo _ _ 2 rfl r d

theorem v63_1_apply (r : Fin 512) (d : Fin 64) :
    kernelRun0_B.sl.v63_1 (F := Ideal) c arg6 harg6 xo (ix3 (0 : Fin 1) r d) = xo (ix3 (0 : Fin 1) (gi 3 r) d) := by
  unfold kernelRun0_B.sl.v63_1
  exact readAt_orows arg6 harg6 xo _ _ 3 rfl r d

end Run

end B

open B

/-! ## The output block after key tile 1 -/

theorem out_B (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 1) (x0 : Vec Ideal S1x2048x384 .f32) (x1 x2 x3 : Vec Ideal S384x64 .f32)
    (xo : Vec Ideal S1x2048x64 .f32) (xs0 xs1 xs2 : Vec Ideal S2048x64 .bf16) (s : Fin 2048) (d : Fin 64) :
    arg6.view.read (Elt Ideal) (arg6.view.writes (Elt Ideal) (harg6.unread xo)
        (kernelRun0_B (F := Ideal) c i arg2 harg2 arg3 harg3 arg4 harg4 arg5 harg5 arg6 harg6 arg7 harg7 arg8 harg8 arg9 harg9 arg10 harg10 arg11 harg11 arg12 harg12 arg13 harg13 hk x0 x1 x2 x3 xo xs0 xs1 xs2).1) (ix3 (0 : Fin 1) s d)
      = if 1 * 512 ≤ s.val then xo (ix3 (0 : Fin 1) s d)
          + Cert.AttnTile.gcontrib (fun p e => xs0 (ix2 p e)) (fun p e => xs1 (ix2 p e)) (fun p e => xs2 (ix2 p e)) 1 s d
        else xo (ix3 (0 : Fin 1) s d) := by
  unfold kernelRun0_B
  dsimp only
  obtain ⟨q, r, rfl⟩ : ∃ (q : Fin 4) (r : Fin 512), s = gi q r :=
    ⟨⟨s.val / 512, by have := s.isLt; omega⟩, ⟨s.val % 512, Nat.mod_lt _ (by decide)⟩,
      Fin.ext (by show s.val = s.val / 512 * 512 + s.val % 512; omega)⟩
  have hr := r.isLt
  rcases (by decide : ∀ q : Fin 4, q = 0 ∨ q = 1 ∨ q = 2 ∨ q = 3) q with rfl | rfl | rfl | rfl
  · have hc : ¬ 1 * 512 ≤ (gi 0 r).val := (show ¬ 1 * 512 ≤ 0 * 512 + r.val by omega)
    rw [if_neg hc]
    refine (View.read_writes_cons_unit_of_not_mem _ _ _ _ _ _ rfl 1
      (Or.inl (show 0 * 512 + r.val < 1536 by omega))).trans ?_
    refine (View.read_writes_cons_unit_of_not_mem _ _ _ _ _ _ rfl 1
      (Or.inl (show 0 * 512 + r.val < 1024 by omega))).trans ?_
    refine (View.read_writes_cons_unit_of_not_mem _ _ _ _ _ _ rfl 1
      (Or.inl (show 0 * 512 + r.val < 512 by omega))).trans ?_
    exact congrFun (harg6.read_unread xo) _
  · have hc : 1 * 512 ≤ (gi 1 r).val := (show 1 * 512 ≤ 1 * 512 + r.val by omega)
    rw [if_pos hc]
    refine (View.read_writes_cons_unit_of_not_mem _ _ _ _ _ _ rfl 1
      (Or.inl (show 1 * 512 + r.val < 1536 by omega))).trans ?_
    refine (View.read_writes_cons_unit_of_not_mem _ _ _ _ _ _ rfl 1
      (Or.inl (show 1 * 512 + r.val < 1024 by omega))).trans ?_
    refine (View.read_writes_cons_unit_of_mem _ _ _ _ _ _ (ix3 (0 : Fin 1) r d) rfl (fun a => match a with
      | ⟨0, _⟩ => rfl
      | ⟨1, _⟩ => (show 1 * 512 + r.val = 512 + r.val by omega)
      | ⟨2, _⟩ => (Nat.zero_add _).symm)).trans ?_
    refine (out1 (arr xs0) (arr xs1) (arr xs2) _ _ _ _ (fun c' d' => r_apply c i arg9 harg9 xs2 hk c' d')
      (fun c' => v43_apply c i arg7 harg7 arg8 harg8 arg10 arg12 arg13 xs0 xs1 hk c')
      (fun r' c' => v61_3_apply c i arg7 harg7 arg8 harg8 arg10 arg11 arg12 xs0 xs1 hk r' c') r d).trans ?_
    exact congrArg (· + gcontrib (arr xs0) (arr xs1) (arr xs2) 1 (gi 1 r) d) (readAt_orows arg6 harg6 xo _ _ 1 rfl r d)
  · have hc : 1 * 512 ≤ (gi 2 r).val := (show 1 * 512 ≤ 2 * 512 + r.val by omega)
    rw [if_pos hc]
    refine (View.read_writes_cons_unit_of_not_mem _ _ _ _ _ _ rfl 1
      (Or.inl (show 2 * 512 + r.val < 1536 by omega))).trans ?_
    refine (View.read_writes_cons_unit_of_mem _ _ _ _ _ _ (ix3 (0 : Fin 1) r d) rfl (fun a => match a with
      | ⟨0, _⟩ => rfl
      | ⟨1, _⟩ => (show 2 * 512 + r.val = 1024 + r.val by omega)
      | ⟨2, _⟩ => (Nat.zero_add _).symm)).trans ?_
    refine (out2 (arr xs0) (arr xs1) (arr xs2) _ _ _ _ (fun c' d' => r_apply c i arg9 harg9 xs2 hk c' d')
      (fun c' => v43_apply c i arg7 harg7 arg8 harg8 arg10 arg12 arg13 xs0 xs1 hk c')
      (fun r' c' => v61_4_apply c i arg7 harg7 arg8 harg8 arg10 arg11 arg12 xs0 xs1 hk r' c') r d).trans ?_
    exact congrArg (· + gcontrib (arr xs0) (arr xs1) (arr xs2) 1 (gi 2 r) d) (v63_apply c arg6 harg6 xo r d)
  · have hc : 1 * 512 ≤ (gi 3 r).val := (show 1 * 512 ≤ 3 * 512 + r.val by omega)
    rw [if_pos hc]
    refine (View.read_writes_cons_unit_of_mem _ _ _ _ _ _ (ix3 (0 : Fin 1) r d) rfl (fun a => match a with
      | ⟨0, _⟩ => rfl
      | ⟨1, _⟩ => (show 3 * 512 + r.val = 1536 + r.val by omega)
      | ⟨2, _⟩ => (Nat.zero_add _).symm)).trans ?_
    refine (out3 (arr xs0) (arr xs1) (arr xs2) _ _ _ _ (fun c' d' => r_apply c i arg9 harg9 xs2 hk c' d')
      (fun c' => v43_apply c i arg7 harg7 arg8 harg8 arg10 arg12 arg13 xs0 xs1 hk c')
      (fun r' c' => v61_5_apply c i arg7 harg7 arg8 harg8 arg10 arg11 arg12 xs0 xs1 hk r' c') r d).trans ?_
    exact congrArg (· + gcontrib (arr xs0) (arr xs1) (arr xs2) 1 (gi 3 r) d) (v63_1_apply c arg6 harg6 xo r d)

end Cert.KernelIdeal.ValB

end
-- ==== Proof.KIValC.lean ====
/-
  What the body's run at key tile 2 leaves in the output block, read back as mathematics: the rows of the query
  tiles at or below the diagonal tile get the key tile's share of the attention output added to what the block held;
  the rows of the tiles above it keep what they held. Each value the run names is read at an index, bottom-up: the
  loads of the three caches and of the output block, the two score blocks, the running maximum after each store,
  the two weight blocks, the running sum after each store, and the two stored output blocks.
-/
import proofs.«422935_j26276609917310_3_alg».proof.Proof.KIRunD
import proofs.«422935_j26276609917310_3_alg».proof.Proof.KIPayA
import proofs.«422935_j26276609917310_3_alg».proof.Proof.KIPayB
import proofs.«422935_j26276609917310_3_alg».proof.Proof.AttnTileAlg
import Idealize.ShloMosaic.Lib.Pipeline.FrameBody
import Idealize.ShloMosaic.Lib.Pipeline.Value
import Idealize.ShloMosaic.Lib.WholeRead
import Idealize.ShloMosaic.Lib.Writes
import Idealize.ShloMosaic.Lib.WritesUnit

set_option maxRecDepth 16384

noncomputable section

open scoped BigOperators

namespace Cert.KernelIdeal.ValC

open Idealize.ShloMosaic Idealize.ShloMosaic.ValueIdx Cert.KernelIdeal Cert.KernelIdeal.Gen Cert.KernelIdeal.Pay
open Cert.AttnSpec (gi)
open Cert.AttnTile

/-- A cache as an array indexed by position and head coordinate. -/
abbrev arr (X : Vec Ideal S2048x64 .bf16) : Fin 2048 → Fin 64 → EReal := fun p e => X (ix2 p e)

/-! ## Loads of whole buffers -/

/-- A load of the 512 rows of tile `q` of a whole cache held at `X`, read at row `r`: row `r` of tile `q` of `X`. -/
theorem load_rows (m : Memref sig .tc .vmem S2048x64 .bf16) (h : m.IsWhole) (X : Vec Ideal S2048x64 .bf16)
    (off : Fin 2 → ℕ) (inb : ∀ a, off a + S512x64.size a ≤ S2048x64.size a) (q : Fin 4)
    (hoff : off = ![q.val * 512, 0]) (r : Fin 512) (e : Fin 64) :
    View.readAt (Elt Ideal) m.view (Rect.unit (s := S2048x64) off S512x64.size inb).toLoadRect (h.unread X) (ix2 r e)
      = X (ix2 (gi q r) e) := by
  subst hoff
  rw [h.readAt_unread]
  refine congrArg X (funext fun a => Fin.ext ?_)
  match a with
  | ⟨0, _⟩ => show q.val * 512 + 1 * r.val = q.val * 512 + r.val; omega
  | ⟨1, _⟩ => show 0 + 1 * e.val = e.val; omega

/-- A load of the 512 rows of tile `q` of the whole output block held at `X`, read at row `r`. -/
theorem load_out (m : Memref sig .tc .vmem S1x2048x64 .f32) (h : m.IsWhole) (X : Vec Ideal S1x2048x64 .f32)
    (off : Fin 3 → ℕ) (inb : ∀ a, off a + S1x512x64.size a ≤ S1x2048x64.size a) (q : Fin 4)
    (hoff : off = ![0, q.val * 512, 0]) (r : Fin 512) (d : Fin 64) :
    View.readAt (Elt Ideal) m.view (Rect.unit (s := S1x2048x64) off S1x512x64.size inb).toLoadRect (h.unread X) (ix3 (0 : Fin 1) r d)
      = X (ix3 (0 : Fin 1) (gi q r) d) := by
  subst hoff
  rw [h.readAt_unread]
  refine congrArg X (funext fun a => Fin.ext ?_)
  match a with
  | ⟨0, _⟩ => rfl
  | ⟨1, _⟩ => show q.val * 512 + 1 * r.val = q.val * 512 + r.val; omega
  | ⟨2, _⟩ => show 0 + 1 * d.val = d.val; omega

/-- The offsets of the key tile's rows at key tile 2. -/
theorem off1_eq (i : grid0.Coords) (hk : (i 1).val = 2) : k0_off1 i = ![(2 : Fin 4).val * 512, 0] := by
  rw [k0_off1_eq, hk]
  rfl

/-! ## The masked score of a query tile against key tile 2 -/

/-- The score block of query tile `q ≥ 2` against key tile 2, masked on the shifted diagonal, is the masked score of
    the positions. -/
theorem score_tile (Q K : Fin 2048 → Fin 64 → EReal) (Kt Qt : Vec Ideal S512x64 .bf16) (q : Fin 4) (n : ℕ)
    (hn : q.val = 2 + n) (hK : ∀ c e, Kt (ix2 c e) = K (gi 2 c) e) (hQ : ∀ r e, Qt (ix2 r e) = Q (gi q r) e)
    (r c : Fin 512) :
    (if c.val ≤ r.val + n * 512 then ∑ e : Fin 64, Qt (ix2 r e) * Kt (ix2 c e) else ⊥)
      = gscore Q K (gi q r) (gi 2 c) := by
  unfold gscore
  have hcond : (c.val ≤ r.val + n * 512) ↔ ((gi 2 c).val ≤ (gi q r).val) := by
    show _ ↔ (2 : Fin 4).val * 512 + c.val ≤ q.val * 512 + r.val
    rw [hn]
    show _ ↔ 2 * 512 + c.val ≤ (2 + n) * 512 + r.val
    omega
  refine (if_congr hcond ?_ rfl)
  exact Finset.sum_congr rfl fun e _ => by rw [hK, hQ]

section

variable (c : Dev nD) (i : grid0.Coords)
  (arg6 : Memref sig .tc .vmem S1x2048x64 .f32) (harg6 : arg6.IsWhole)
  (arg7 : Memref sig .tc .vmem S2048x64 .bf16) (harg7 : arg7.IsWhole)
  (arg8 : Memref sig .tc .vmem S2048x64 .bf16) (harg8 : arg8.IsWhole)
  (arg9 : Memref sig .tc .vmem S2048x64 .bf16) (harg9 : arg9.IsWhole)
  (arg10 : Memref sig .tc .vmem S2048x512 .f32) (arg11 : Memref sig .tc .vmem S2048x512 .bf16)
  (arg12 : Memref sig .tc .vmem S1x512 .f32) (arg13 : Memref sig .tc .vmem S1x512 .f32)
  (xo : Vec Ideal S1x2048x64 .f32) (xs0 xs1 xs2 : Vec Ideal S2048x64 .bf16)

/-! ## The key tile, the two query tiles, the value tile -/

/-- The key tile the run loads. -/
abbrev ktile : Vec Ideal S512x64 .bf16 :=
  View.readAt (Elt Ideal) arg8.view (Rect.unit (s := S2048x64) (k0_off1 i) S512x64.size (k0_off1_inb i)).toLoadRect
    (harg8.unread xs1)
/-- Query tile 2 as the run loads it. -/
abbrev qtile2 : Vec Ideal S512x64 .bf16 :=
  View.readAt (Elt Ideal) arg7.view (Rect.unit (s := S2048x64) ![1024, 0] S512x64.size inb_S2048x64_S512x64_1024_0).toLoadRect
    (harg7.unread xs0)
/-- Query tile 3 as the run loads it. -/
abbrev qtile3 : Vec Ideal S512x64 .bf16 :=
  View.readAt (Elt Ideal) arg7.view (Rect.unit (s := S2048x64) ![1536, 0] S512x64.size inb_S2048x64_S512x64_1536_0).toLoadRect
    (harg7.unread xs0)

theorem ktile_apply (hk : (i 1).val = 2) (cc : Fin 512) (e : Fin 64) :
    ktile i arg8 harg8 xs1 (ix2 cc e) = arr xs1 (gi 2 cc) e :=
  load_rows arg8 harg8 xs1 _ _ 2 (off1_eq i hk) cc e
theorem qtile2_apply (r : Fin 512) (e : Fin 64) : qtile2 arg7 harg7 xs0 (ix2 r e) = arr xs0 (gi 2 r) e :=
  load_rows arg7 harg7 xs0 _ _ 2 rfl r e
theorem qtile3_apply (r : Fin 512) (e : Fin 64) : qtile3 arg7 harg7 xs0 (ix2 r e) = arr xs0 (gi 3 r) e :=
  load_rows arg7 harg7 xs0 _ _ 3 rfl r e

/-- The value tile the run loads, at row `cc`: row `cc` of tile 2 of the value cache. -/
theorem r_apply (hk : (i 1).val = 2) (cc : Fin 512) (d : Fin 64) :
    kernelRun0_C.sl.r (F := Ideal) c i arg9 harg9 xs2 (ix2 cc d) = arr xs2 (gi 2 cc) d :=
  load_rows arg9 harg9 xs2 _ _ 2 (off1_eq i hk) cc d

/-- The output block's prior contents at the rows of tile 3. -/
theorem v63_apply (r : Fin 512) (d : Fin 64) :
    kernelRun0_C.sl.v63 (F := Ideal) c arg6 harg6 xo (ix3 (0 : Fin 1) r d) = xo (ix3 (0 : Fin 1) (gi 3 r) d) :=
  load_out arg6 harg6 xo _ _ 3 rfl r d

/-! ## The two score blocks -/

/-- The masked score of query tile 2 against key tile 2. -/
theorem pay31_tile (hk : (i 1).val = 2) (r cc : Fin 512) :
    k0_pay31 (F := Ideal) i (ktile i arg8 harg8 xs1) (qtile2 arg7 harg7 xs0) (ix2 r cc)
      = gscore (arr xs0) (arr xs1) (gi 2 r) (gi 2 cc) := by
  rw [pay31_apply i _ _ r cc 2 hk le_rfl]
  exact score_tile (arr xs0) (arr xs1) _ _ 2 0 rfl (ktile_apply i arg8 harg8 xs1 hk) (qtile2_apply arg7 harg7 xs0) r cc

/-- The masked score of query tile 3 against key tile 2. -/
theorem pay34_tile (hk : (i 1).val = 2) (r cc : Fin 512) :
    k0_pay34 (F := Ideal) i (ktile i arg8 harg8 xs1) (qtile3 arg7 harg7 xs0) (ix2 r cc)
      = gscore (arr xs0) (arr xs1) (gi 3 r) (gi 2 cc) := by
  rw [pay34_apply i _ _ r cc 2 hk (by omega)]
  exact score_tile (arr xs0) (arr xs1) _ _ 3 1 rfl (ktile_apply i arg8 harg8 xs1 hk) (qtile3_apply arg7 harg7 xs0) r cc

/-- The two blocks of the score buffer the run stores are apart. -/
theorem blocks_disjoint :
    Disjoint (Rect.unit (s := S2048x512) ![1536, 0] S512x512.size inb_S2048x512_S512x512_1536_0).set
      (Rect.unit (s := S2048x512) ![1024, 0] S512x512.size inb_S2048x512_S512x512_1024_0).toLoadRect.set :=
  Rect.unit_disjoint (0 : Fin 2) (by decide)

/-- A load of the rows of tile 2 of a buffer of score or weight blocks skips a last store at the rows of tile 3. -/
theorem readCov_skip {e : EltTy} (v : View sig .tc .vmem S2048x512 e)
    (w : (Rect.unit (s := S2048x512) ![1536, 0] S512x512.size inb_S2048x512_S512x512_1536_0).shape.Idx → Elt Ideal e)
    (L : List (View.Piece (Elt Ideal) S2048x512 e)) :
    v.readCov (⟨Rect.unit (s := S2048x512) ![1536, 0] S512x512.size inb_S2048x512_S512x512_1536_0, w⟩ :: L)
        (Rect.unit (s := S2048x512) ![1024, 0] S512x512.size inb_S2048x512_S512x512_1024_0).toLoadRect
      = v.readCov L (Rect.unit (s := S2048x512) ![1024, 0] S512x512.size inb_S2048x512_S512x512_1024_0).toLoadRect :=
  View.readCov_cons_of_disjoint v
    ⟨Rect.unit (s := S2048x512) ![1536, 0] S512x512.size inb_S2048x512_S512x512_1536_0, w⟩ L
    (Rect.unit (s := S2048x512) ![1024, 0] S512x512.size inb_S2048x512_S512x512_1024_0).toLoadRect blocks_disjoint

/-- The score block of query tile 2 read back. -/
theorem v61_apply (hk : (i 1).val = 2) (r cc : Fin 512) :
    kernelRun0_C.sl.v61 (F := Ideal) c i arg7 harg7 arg8 harg8 arg10 xs0 xs1 (ix2 r cc)
      = gscore (arr xs0) (arr xs1) (gi 2 r) (gi 2 cc) := by
  unfold kernelRun0_C.sl.v61 kernelRun0_C.sl.HS3_2
  rw [readCov_skip, View.readCov_cons_toLoadRect, pay32_eq]
  exact pay31_tile i arg7 harg7 arg8 harg8 xs0 xs1 hk r cc

/-- The score block of query tile 3 read back. -/
theorem v61_1_apply (hk : (i 1).val = 2) (r cc : Fin 512) :
    kernelRun0_C.sl.v61_1 (F := Ideal) c i arg7 harg7 arg8 harg8 arg10 xs0 xs1 (ix2 r cc)
      = gscore (arr xs0) (arr xs1) (gi 3 r) (gi 2 cc) := by
  unfold kernelRun0_C.sl.v61_1 kernelRun0_C.sl.HS3_2
  rw [View.readCov_cons_toLoadRect, pay35_eq]
  exact pay34_tile i arg7 harg7 arg8 harg8 xs0 xs1 hk r cc

/-! ## The running maximum -/

theorem v75_apply (cc : Fin 512) : kernelRun0_C.sl.v75 (F := Ideal) c arg12 (ix2 (0 : Fin 1) cc) = ⊥ := by
  unfold kernelRun0_C.sl.v75 kernelRun0_C.sl.HS5_1
  rw [View.readCov_cons_toLoadRect]
  exact pay23_apply _

theorem v75_1_apply (hk : (i 1).val = 2) (cc : Fin 512) :
    kernelRun0_C.sl.v75_1 (F := Ideal) c i arg7 harg7 arg8 harg8 arg12 xs0 xs1 (ix2 (0 : Fin 1) cc)
      = max ⊥ (gmax1 (arr xs0) (arr xs1) 2 2 cc) := by
  unfold kernelRun0_C.sl.v75_1 kernelRun0_C.sl.HS5_2
  rw [View.readCov_cons_toLoadRect, pay33_apply, v75_apply]
  unfold gmax1
  exact congrArg (max ⊥) (congrArg (fun f : Fin 512 → EReal => (Finset.univ : Finset (Fin 512)).fold max ⊥ f)
    (funext fun r => pay31_tile i arg7 harg7 arg8 harg8 xs0 xs1 hk r cc))

/-- The running maximum after both query tiles: the tile form's column maximum. -/
theorem v62_apply (hk : (i 1).val = 2) (cc : Fin 512) :
    kernelRun0_C.sl.v62 (F := Ideal) c i arg7 harg7 arg8 harg8 arg12 xs0 xs1 (ix2 (0 : Fin 1) cc)
      = gmax (arr xs0) (arr xs1) 2 cc := by
  unfold kernelRun0_C.sl.v62 kernelRun0_C.sl.HS5_3
  rw [View.readCov_cons_toLoadRect, pay36_apply, v75_1_apply c i arg7 harg7 arg8 harg8 arg12 xs0 xs1 hk, gmax_at2]
  refine congrArg (max (max ⊥ (gmax1 (arr xs0) (arr xs1) 2 2 cc))) ?_
  unfold gmax1
  exact congrArg (fun f : Fin 512 → EReal => (Finset.univ : Finset (Fin 512)).fold max ⊥ f)
    (funext fun r => pay34_tile i arg7 harg7 arg8 harg8 xs0 xs1 hk r cc)

end

section

variable (c : Dev nD) (i : grid0.Coords)
  (arg6 : Memref sig .tc .vmem S1x2048x64 .f32) (harg6 : arg6.IsWhole)
  (arg7 : Memref sig .tc .vmem S2048x64 .bf16) (harg7 : arg7.IsWhole)
  (arg8 : Memref sig .tc .vmem S2048x64 .bf16) (harg8 : arg8.IsWhole)
  (arg9 : Memref sig .tc .vmem S2048x64 .bf16) (harg9 : arg9.IsWhole)
  (arg10 : Memref sig .tc .vmem S2048x512 .f32) (arg11 : Memref sig .tc .vmem S2048x512 .bf16)
  (arg12 : Memref sig .tc .vmem S1x512 .f32) (arg13 : Memref sig .tc .vmem S1x512 .f32)
  (xo : Vec Ideal S1x2048x64 .f32) (xs0 xs1 xs2 : Vec Ideal S2048x64 .bf16)

/-! ## The two weight blocks -/

/-- The shifted exponential of query tile 2's score block against the final maximum. -/
theorem pay7_tile (hk : (i 1).val = 2) (r cc : Fin 512) :
    k0_pay7 (F := Ideal) (kernelRun0_C.sl.v61 c i arg7 harg7 arg8 harg8 arg10 xs0 xs1)
        (kernelRun0_C.sl.v62 c i arg7 harg7 arg8 harg8 arg12 xs0 xs1) (ix2 r cc)
      = gp (arr xs0) (arr xs1) 2 (gi 2 r) cc := by
  rw [pay7_apply, v61_apply c i arg7 harg7 arg8 harg8 arg10 xs0 xs1 hk, v62_apply c i arg7 harg7 arg8 harg8 arg12 xs0 xs1 hk]
  rfl

/-- The shifted exponential of query tile 3's score block against the final maximum. -/
theorem pay10_tile (hk : (i 1).val = 2) (r cc : Fin 512) :
    k0_pay10 (F := Ideal) (kernelRun0_C.sl.v61_1 c i arg7 harg7 arg8 harg8 arg10 xs0 xs1)
        (kernelRun0_C.sl.v62 c i arg7 harg7 arg8 harg8 arg12 xs0 xs1) (ix2 r cc)
      = gp (arr xs0) (arr xs1) 2 (gi 3 r) cc := by
  rw [pay10_apply, v61_1_apply c i arg7 harg7 arg8 harg8 arg10 xs0 xs1 hk, v62_apply c i arg7 harg7 arg8 harg8 arg12 xs0 xs1 hk]
  rfl

/-- The weight block of query tile 2 read back. -/
theorem v61_2_apply (hk : (i 1).val = 2) (r cc : Fin 512) :
    kernelRun0_C.sl.v61_2 (F := Ideal) c i arg7 harg7 arg8 harg8 arg10 arg11 arg12 xs0 xs1 (ix2 r cc)
      = gp (arr xs0) (arr xs1) 2 (gi 2 r) cc := by
  unfold kernelRun0_C.sl.v61_2 kernelRun0_C.sl.HS4_2
  rw [readCov_skip, View.readCov_cons_toLoadRect, pay8_eq]
  exact pay7_tile c i arg7 harg7 arg8 harg8 arg10 arg12 xs0 xs1 hk r cc

/-- The weight block of query tile 3 read back. -/
theorem v61_3_apply (hk : (i 1).val = 2) (r cc : Fin 512) :
    kernelRun0_C.sl.v61_3 (F := Ideal) c i arg7 harg7 arg8 harg8 arg10 arg11 arg12 xs0 xs1 (ix2 r cc)
      = gp (arr xs0) (arr xs1) 2 (gi 3 r) cc := by
  unfold kernelRun0_C.sl.v61_3 kernelRun0_C.sl.HS4_2
  rw [View.readCov_cons_toLoadRect, pay11_eq]
  exact pay10_tile c i arg7 harg7 arg8 harg8 arg10 arg12 xs0 xs1 hk r cc

/-! ## The running sum -/

theorem v70_apply (cc : Fin 512) : kernelRun0_C.sl.v70 (F := Ideal) c arg13 (ix2 (0 : Fin 1) cc) = 0 := by
  unfold kernelRun0_C.sl.v70 kernelRun0_C.sl.HS6_1
  rw [View.readCov_cons_toLoadRect]
  exact pay24_apply _

theorem v70_1_apply (hk : (i 1).val = 2) (cc : Fin 512) :
    kernelRun0_C.sl.v70_1 (F := Ideal) c i arg7 harg7 arg8 harg8 arg10 arg12 arg13 xs0 xs1 (ix2 (0 : Fin 1) cc)
      = 0 + ∑ r : Fin 512, gp (arr xs0) (arr xs1) 2 (gi 2 r) cc := by
  unfold kernelRun0_C.sl.v70_1 kernelRun0_C.sl.HS6_2
  rw [View.readCov_cons_toLoadRect, pay9_apply, v70_apply]
  exact congrArg (0 + ·) (Finset.sum_congr rfl fun r _ => pay7_tile c i arg7 harg7 arg8 harg8 arg10 arg12 xs0 xs1 hk r cc)

/-- The running sum after both query tiles: the tile form's column sum. -/
theorem v43_apply (hk : (i 1).val = 2) (cc : Fin 512) :
    kernelRun0_C.sl.v43 (F := Ideal) c i arg7 harg7 arg8 harg8 arg10 arg12 arg13 xs0 xs1 (ix2 (0 : Fin 1) cc)
      = gsum (arr xs0) (arr xs1) 2 cc := by
  unfold kernelRun0_C.sl.v43 kernelRun0_C.sl.HS6_3
  rw [View.readCov_cons_toLoadRect, pay12_apply, v70_1_apply c i arg7 harg7 arg8 harg8 arg10 arg12 arg13 xs0 xs1 hk, gsum_at2]
  exact congrArg ((0 + ∑ r : Fin 512, gp (arr xs0) (arr xs1) 2 (gi 2 r) cc) + ·)
    (Finset.sum_congr rfl fun r _ => pay10_tile c i arg7 harg7 arg8 harg8 arg10 arg12 xs0 xs1 hk r cc)

/-! ## The two stored output blocks -/

/-- The value tile divided by the column sums. -/
theorem pay13_tile (hk : (i 1).val = 2) (cc : Fin 512) (d : Fin 64) :
    k0_pay13 (F := Ideal) (kernelRun0_C.sl.r c i arg9 harg9 xs2)
        (kernelRun0_C.sl.v43 c i arg7 harg7 arg8 harg8 arg10 arg12 arg13 xs0 xs1) (ix2 cc d)
      = Ideal.div (arr xs2 (gi 2 cc) d) (gsum (arr xs0) (arr xs1) 2 cc) := by
  rw [pay13_apply, r_apply c i arg9 harg9 xs2 hk, v43_apply c i arg7 harg7 arg8 harg8 arg10 arg12 arg13 xs0 xs1 hk]

/-- The block stored at the rows of query tile 3: what the block held plus the key tile's share. -/
theorem piece3_apply (hk : (i 1).val = 2) (r : Fin 512) (d : Fin 64) :
    k0_pay17 (F := Ideal) (kernelRun0_C.sl.r c i arg9 harg9 xs2)
        (kernelRun0_C.sl.v43 c i arg7 harg7 arg8 harg8 arg10 arg12 arg13 xs0 xs1)
        (kernelRun0_C.sl.v61_3 c i arg7 harg7 arg8 harg8 arg10 arg11 arg12 xs0 xs1)
        (kernelRun0_C.sl.v63 c arg6 harg6 xo) (ix3 (0 : Fin 1) r d)
      = xo (ix3 (0 : Fin 1) (gi 3 r) d) + gcontrib (arr xs0) (arr xs1) (arr xs2) 2 (gi 3 r) d := by
  rw [pay17_apply, v63_apply]
  unfold gcontrib
  exact congrArg (xo (ix3 (0 : Fin 1) (gi 3 r) d) + ·) (Finset.sum_congr rfl fun e _ => by
    rw [v61_3_apply c i arg7 harg7 arg8 harg8 arg10 arg11 arg12 xs0 xs1 hk,
      pay13_tile c i arg7 harg7 arg8 harg8 arg9 harg9 arg10 arg12 arg13 xs0 xs1 xs2 hk])

/-- The block stored at the rows of query tile 2. -/
theorem piece2_apply (hk : (i 1).val = 2) (r : Fin 512) (d : Fin 64) :
    k0_pay16 (F := Ideal) (kernelRun0_C.sl.r c i arg9 harg9 xs2)
        (kernelRun0_C.sl.v43 c i arg7 harg7 arg8 harg8 arg10 arg12 arg13 xs0 xs1)
        (kernelRun0_C.sl.v61_2 c i arg7 harg7 arg8 harg8 arg10 arg11 arg12 xs0 xs1)
        (View.readAt (Elt Ideal) arg6.view
          (Rect.unit (s := S1x2048x64) ![0, 1024, 0] S1x512x64.size inb_S1x2048x64_S1x512x64_0_1024_0).toLoadRect
          (harg6.unread xo)) (ix3 (0 : Fin 1) r d)
      = xo (ix3 (0 : Fin 1) (gi 2 r) d) + gcontrib (arr xs0) (arr xs1) (arr xs2) 2 (gi 2 r) d := by
  rw [pay16_apply, load_out arg6 harg6 xo ![0, 1024, 0] inb_S1x2048x64_S1x512x64_0_1024_0 2 rfl r d]
  unfold gcontrib
  exact congrArg (xo (ix3 (0 : Fin 1) (gi 2 r) d) + ·) (Finset.sum_congr rfl fun e _ => by
    rw [v61_2_apply c i arg7 harg7 arg8 harg8 arg10 arg11 arg12 xs0 xs1 hk,
      pay13_tile c i arg7 harg7 arg8 harg8 arg9 harg9 arg10 arg12 arg13 xs0 xs1 xs2 hk])

end

/-! ## The output block after the run -/

/-- Every position is a row of a tile. -/
theorem tile_row (s : Fin 2048) : ∃ (q : Fin 4) (r : Fin 512), s = gi q r :=
  ⟨⟨s.val / 512, by have := s.isLt; omega⟩, ⟨s.val % 512, Nat.mod_lt _ (by norm_num)⟩,
    Fin.ext (by show s.val = s.val / 512 * 512 + s.val % 512; omega)⟩

/-- The stores the run leaves in the output block, last first: the rows of query tile 3, then those of query tile 2. -/
theorem pieces_eq (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 2) (x0 : Vec Ideal S1x2048x384 .f32) (x1 x2 x3 : Vec Ideal S384x64 .f32)
    (xo : Vec Ideal S1x2048x64 .f32) (xs0 xs1 xs2 : Vec Ideal S2048x64 .bf16) :
    (kernelRun0_C (F := Ideal) c i arg2 harg2 arg3 harg3 arg4 harg4 arg5 harg5 arg6 harg6 arg7 harg7 arg8 harg8 arg9 harg9 arg10 harg10 arg11 harg11 arg12 harg12 arg13 harg13 hk x0 x1 x2 x3 xo xs0 xs1 xs2).1
      = [⟨Rect.unit (s := S1x2048x64) ![0, 1536, 0] S1x512x64.size inb_S1x2048x64_S1x512x64_0_1536_0,
          k0_pay17 (kernelRun0_C.sl.r c i arg9 harg9 xs2)
            (kernelRun0_C.sl.v43 c i arg7 harg7 arg8 harg8 arg10 arg12 arg13 xs0 xs1)
            (kernelRun0_C.sl.v61_3 c i arg7 harg7 arg8 harg8 arg10 arg11 arg12 xs0 xs1)
            (kernelRun0_C.sl.v63 c arg6 harg6 xo)⟩,
        ⟨Rect.unit (s := S1x2048x64) ![0, 1024, 0] S1x512x64.size inb_S1x2048x64_S1x512x64_0_1024_0,
          k0_pay16 (kernelRun0_C.sl.r c i arg9 harg9 xs2)
            (kernelRun0_C.sl.v43 c i arg7 harg7 arg8 harg8 arg10 arg12 arg13 xs0 xs1)
            (kernelRun0_C.sl.v61_2 c i arg7 harg7 arg8 harg8 arg10 arg11 arg12 xs0 xs1)
            (View.readAt (Elt Ideal) arg6.view
              (Rect.unit (s := S1x2048x64) ![0, 1024, 0] S1x512x64.size inb_S1x2048x64_S1x512x64_0_1024_0).toLoadRect
              (harg6.unread xo))⟩] := rfl

/-- At key tile 2 the rows of the query tiles 2 and 3 get the key tile's share added to what the output block held;
    the rows of the query tiles 0 and 1 keep what they held. -/
theorem out_C (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole)
    (hk : (i 1).val = 2) (x0 : Vec Ideal S1x2048x384 .f32) (x1 x2 x3 : Vec Ideal S384x64 .f32)
    (xo : Vec Ideal S1x2048x64 .f32) (xs0 xs1 xs2 : Vec Ideal S2048x64 .bf16) (s : Fin 2048) (d : Fin 64) :
    arg6.view.read (Elt Ideal) (arg6.view.writes (Elt Ideal) (harg6.unread xo)
        (kernelRun0_C (F := Ideal) c i arg2 harg2 arg3 harg3 arg4 harg4 arg5 harg5 arg6 harg6 arg7 harg7 arg8 harg8 arg9 harg9 arg10 harg10 arg11 harg11 arg12 harg12 arg13 harg13 hk x0 x1 x2 x3 xo xs0 xs1 xs2).1) (ix3 (0 : Fin 1) s d)
      = if 2 * 512 ≤ s.val then xo (ix3 (0 : Fin 1) s d)
          + Cert.AttnTile.gcontrib (fun p e => xs0 (ix2 p e)) (fun p e => xs1 (ix2 p e)) (fun p e => xs2 (ix2 p e)) 2 s d
        else xo (ix3 (0 : Fin 1) s d) := by
  rw [pieces_eq]
  obtain ⟨q, r, rfl⟩ := tile_row s
  have hr := r.isLt
  by_cases h3 : q = 3
  · subst h3
    rw [if_pos (show 2 * 512 ≤ (gi 3 r).val by show 2 * 512 ≤ 3 * 512 + r.val; omega)]
    refine (View.read_writes_cons_unit_of_mem arg6.view _ inb_S1x2048x64_S1x512x64_0_1536_0 _ _
      (ix3 (0 : Fin 1) (gi 3 r) d) (ix3 (0 : Fin 1) r d) rfl fun a => ?_).trans
      (piece3_apply c i arg6 harg6 arg7 harg7 arg8 harg8 arg9 harg9 arg10 arg11 arg12 arg13 xo xs0 xs1 xs2 hk r d)
    match a with
    | ⟨0, _⟩ => rfl
    | ⟨1, _⟩ => rfl
    | ⟨2, _⟩ => exact (Nat.zero_add _).symm
  · by_cases h2 : q = 2
    · subst h2
      rw [if_pos (show 2 * 512 ≤ (gi 2 r).val by show 2 * 512 ≤ 2 * 512 + r.val; omega)]
      refine (View.read_writes_cons_unit_of_not_mem arg6.view _ inb_S1x2048x64_S1x512x64_0_1536_0 _ _
        (ix3 (0 : Fin 1) (gi 2 r) d) rfl (1 : Fin 3)
        (Or.inl (show 2 * 512 + r.val < 1536 by omega))).trans ?_
      refine (View.read_writes_cons_unit_of_mem arg6.view _ inb_S1x2048x64_S1x512x64_0_1024_0 _ _
        (ix3 (0 : Fin 1) (gi 2 r) d) (ix3 (0 : Fin 1) r d) rfl fun a => ?_).trans
        (piece2_apply c i arg6 harg6 arg7 harg7 arg8 harg8 arg9 harg9 arg10 arg11 arg12 arg13 xo xs0 xs1 xs2 hk r d)
      match a with
      | ⟨0, _⟩ => rfl
      | ⟨1, _⟩ => rfl
      | ⟨2, _⟩ => exact (Nat.zero_add _).symm
    · have hq : q.val < 2 := by
        have := q.isLt
        have h3' : q.val ≠ 3 := fun h => h3 (Fin.ext h)
        have h2' : q.val ≠ 2 := fun h => h2 (Fin.ext h)
        omega
      rw [if_neg (show ¬ 2 * 512 ≤ (gi q r).val by show ¬ 2 * 512 ≤ q.val * 512 + r.val; omega)]
      refine (View.read_writes_cons_unit_of_not_mem arg6.view _ inb_S1x2048x64_S1x512x64_0_1536_0 _ _
        (ix3 (0 : Fin 1) (gi q r) d) rfl (1 : Fin 3)
        (Or.inl (show q.val * 512 + r.val < 1536 by omega))).trans ?_
      refine (View.read_writes_cons_unit_of_not_mem arg6.view _ inb_S1x2048x64_S1x512x64_0_1024_0 _ _
        (ix3 (0 : Fin 1) (gi q r) d) rfl (1 : Fin 3)
        (Or.inl (show q.val * 512 + r.val < 1024 by omega))).trans ?_
      rw [View.writes_nil, harg6.read_unread]

end Cert.KernelIdeal.ValC

end
-- ==== Proof.KIValD.lean ====
/-
  Key tile 3 read back as mathematics. At this key tile only the last query tile lies at or below the diagonal, so
  the body stores one score block, one running maximum over `-∞`, one weight block, one running sum over `0` and one
  block of the output. Each stored value is read at an index as plain arithmetic on the extended reals, first over
  arbitrary tiles that are known to hold rows `1536 + ·` of three cached arrays, then for the tiles the body loads.
  The result: the rows of the last query tile get this key tile's contribution added to what the block held; the
  rows above are untouched.
-/
import proofs.«422935_j26276609917310_3_alg».proof.Proof.KIRunD
import proofs.«422935_j26276609917310_3_alg».proof.Proof.KIPayA
import proofs.«422935_j26276609917310_3_alg».proof.Proof.KIPayB
import proofs.«422935_j26276609917310_3_alg».proof.Proof.AttnTileAlg
import Idealize.ShloMosaic.Lib.Pipeline.FrameBody
import Idealize.ShloMosaic.Lib.WholeRead
import Idealize.ShloMosaic.Lib.Writes
import Idealize.ShloMosaic.Lib.WritesUnit

set_option maxRecDepth 16384

noncomputable section

open scoped BigOperators

namespace Cert.KernelIdeal.ValD

open Idealize.ShloMosaic Idealize.ShloMosaic.ValueIdx Idealize.ShloMosaic.TcCoe
open Cert.KernelIdeal Cert.KernelIdeal.Gen Cert.KernelIdeal.Pay Cert.AttnTile Cert.AttnSpec

/-! ## Positions of the last tile -/

/-- Row `r` of tile 3 is position `1536 + r`. -/
theorem gi3_val (r : Fin 512) : (gi 3 r).val = 1536 + r.val := by
  show 3 * 512 + r.val = 1536 + r.val
  omega

/-! ## The stored values over tiles that hold rows `1536 + ·` of three arrays -/

section Math

variable (Q K V : Fin 2048 → Fin 64 → EReal)

/-- The score block of query tile 3 against key tile 3. -/
theorem score33 (i : grid0.Coords) (hk : (i 1).val = 3) (Kt Qt : Vec Ideal S512x64 .bf16)
    (hK : ∀ c e, Kt (ix2 c e) = K (gi 3 c) e) (hQ : ∀ r e, Qt (ix2 r e) = Q (gi 3 r) e) (r c : Fin 512) :
    k0_pay34 (F := Ideal) i Kt Qt (ix2 r c) = gscore Q K (gi 3 r) (gi 3 c) := by
  rw [pay34_apply i Kt Qt r c 3 hk (le_refl 3)]
  unfold gscore
  refine if_congr ?_ (Finset.sum_congr rfl fun e _ => by rw [hQ, hK]) rfl
  rw [gi3_val, gi3_val]
  omega

/-- The running maximum after the one pass over query tile 3, from `-∞`. -/
theorem max3 (i : grid0.Coords) (hk : (i 1).val = 3) (Kt Qt : Vec Ideal S512x64 .bf16) (Mp : Vec Ideal S1x512 .f32)
    (hK : ∀ c e, Kt (ix2 c e) = K (gi 3 c) e) (hQ : ∀ r e, Qt (ix2 r e) = Q (gi 3 r) e)
    (hM : ∀ c, Mp (ix2 (0 : Fin 1) c) = ⊥) (c : Fin 512) :
    k0_pay36 (F := Ideal) i Kt Qt Mp (ix2 (0 : Fin 1) c) = gmax Q K 3 c := by
  rw [pay36_apply, hM, gmax_at3]
  unfold gmax1
  refine congrArg (max ⊥) ?_
  exact congrArg (fun f : Fin 512 → EReal => (Finset.univ : Finset (Fin 512)).fold max ⊥ f)
    (funext fun r => score33 Q K i hk Kt Qt hK hQ r c)

/-- The weight block of query tile 3. -/
theorem p33 (Sb : Vec Ideal S512x512 .f32) (M : Vec Ideal S1x512 .f32)
    (hS : ∀ r c, Sb (ix2 r c) = gscore Q K (gi 3 r) (gi 3 c)) (hM : ∀ c, M (ix2 (0 : Fin 1) c) = gmax Q K 3 c)
    (r c : Fin 512) : k0_pay10 (F := Ideal) Sb M (ix2 r c) = gp Q K 3 (gi 3 r) c := by
  rw [pay10_apply, hS, hM]
  rfl

/-- The running sum after the one pass over query tile 3, from `0`. -/
theorem sum3 (Sb : Vec Ideal S512x512 .f32) (M Lp : Vec Ideal S1x512 .f32)
    (hS : ∀ r c, Sb (ix2 r c) = gscore Q K (gi 3 r) (gi 3 c)) (hM : ∀ c, M (ix2 (0 : Fin 1) c) = gmax Q K 3 c)
    (hL : ∀ c, Lp (ix2 (0 : Fin 1) c) = 0) (c : Fin 512) :
    k0_pay12 (F := Ideal) Sb M Lp (ix2 (0 : Fin 1) c) = gsum Q K 3 c := by
  rw [pay12_apply, hL, gsum_at3]
  exact congrArg (0 + ·) (Finset.sum_congr rfl fun r _ => p33 Q K Sb M hS hM r c)

/-- The output block of query tile 3: what it held plus key tile 3's contribution. -/
theorem out3 (Vt : Vec Ideal S512x64 .bf16) (L : Vec Ideal S1x512 .f32) (Pb : Vec Ideal S512x512 .bf16)
    (Ob : Vec Ideal S1x512x64 .f32) (hV : ∀ c d, Vt (ix2 c d) = V (gi 3 c) d)
    (hL : ∀ c, L (ix2 (0 : Fin 1) c) = gsum Q K 3 c) (hP : ∀ r c, Pb (ix2 r c) = gp Q K 3 (gi 3 r) c)
    (r : Fin 512) (d : Fin 64) :
    k0_pay17 (F := Ideal) Vt L Pb Ob (ix3 (0 : Fin 1) r d) = Ob (ix3 0 r d) + gcontrib Q K V 3 (gi 3 r) d := by
  rw [pay17_apply]
  unfold gcontrib
  exact congrArg (Ob (ix3 0 r d) + ·) (Finset.sum_congr rfl fun e _ => by rw [hP, pay13_apply, hV, hL])

end Math

/-! ## The tiles the body loads from whole buffers -/

section Loads

/-- A cached array by position and head coordinate. -/
abbrev arr (X : Vec Ideal S2048x64 .bf16) : Fin 2048 → Fin 64 → EReal := fun p e => X (ix2 p e)

variable {m : Memref sig .tc .vmem S2048x64 .bf16} (hm : m.IsWhole) (X : Vec Ideal S2048x64 .bf16)

/-- At key tile 3 the load at the key tile's rows reads rows `1536 + ·`. -/
theorem tile_at (i : grid0.Coords) (hk : (i 1).val = 3) (h : ∀ a, k0_off1 i a + S512x64.size a ≤ S2048x64.size a)
    (r : Fin 512) (e : Fin 64) :
    View.readAt (Elt Ideal) m.view (Rect.unit (s := S2048x64) (k0_off1 i) S512x64.size h).toLoadRect (hm.unread X) (ix2 r e)
      = X (ix2 (gi 3 r) e) := by
  refine (hm.readAt_unread X _ _).trans (congrArg X ?_)
  have ho := k0_off1_eq i
  funext a; apply Fin.ext
  match a with
  | ⟨0, _⟩ =>
    show k0_off1 i 0 + 1 * r.val = (gi 3 r).val
    rw [gi3_val, ho]
    show 512 * (i 1).val + 1 * r.val = _
    rw [hk]
    omega
  | ⟨1, _⟩ =>
    show k0_off1 i 1 + 1 * e.val = e.val
    rw [ho]
    show 0 + 1 * e.val = _
    omega

/-- The load of query tile 3 reads rows `1536 + ·`. -/
theorem q3_at (h : ∀ a, (![1536, 0] : Fin 2 → ℕ) a + S512x64.size a ≤ S2048x64.size a) (r : Fin 512) (e : Fin 64) :
    View.readAt (Elt Ideal) m.view (Rect.unit (s := S2048x64) ![1536, 0] S512x64.size h).toLoadRect (hm.unread X) (ix2 r e)
      = X (ix2 (gi 3 r) e) := by
  refine (hm.readAt_unread X _ _).trans (congrArg X ?_)
  funext a; apply Fin.ext
  match a with
  | ⟨0, _⟩ =>
    show 1536 + 1 * r.val = (gi 3 r).val
    rw [gi3_val]; omega
  | ⟨1, _⟩ =>
    show 0 + 1 * e.val = e.val
    omega

end Loads

/-! ## The run's named values -/

section Run

variable (c : Dev nD) (i : grid0.Coords)
  (arg7 : Memref sig .tc .vmem S2048x64 .bf16) (harg7 : arg7.IsWhole) (arg8 : Memref sig .tc .vmem S2048x64 .bf16) (harg8 : arg8.IsWhole)
  (arg9 : Memref sig .tc .vmem S2048x64 .bf16) (harg9 : arg9.IsWhole)
  (arg10 : Memref sig .tc .vmem S2048x512 .f32) (arg11 : Memref sig .tc .vmem S2048x512 .bf16)
  (arg12 : Memref sig .tc .vmem S1x512 .f32) (arg13 : Memref sig .tc .vmem S1x512 .f32)
  (xs0 xs1 xs2 : Vec Ideal S2048x64 .bf16)

/-- The score block read back. -/
theorem v61_at (hk : (i 1).val = 3) (r e : Fin 512) :
    kernelRun0_D.sl.v61 (F := Ideal) c i arg7 harg7 arg8 harg8 arg10 xs0 xs1 (ix2 r e)
      = gscore (arr xs0) (arr xs1) (gi 3 r) (gi 3 e) := by
  unfold kernelRun0_D.sl.v61 kernelRun0_D.sl.HS3_1
  rw [View.readCov_cons_toLoadRect, pay35_eq]
  exact score33 (arr xs0) (arr xs1) i hk _ _ (fun a b => tile_at harg8 xs1 i hk _ a b) (fun a b => q3_at harg7 xs0 _ a b) r e

/-- The running maximum before the pass is `-∞`. -/
theorem v75_at (e : Fin 512) : kernelRun0_D.sl.v75 (F := Ideal) c arg12 (ix2 (0 : Fin 1) e) = ⊥ := by
  unfold kernelRun0_D.sl.v75 kernelRun0_D.sl.HS5_1
  rw [View.readCov_cons_toLoadRect]
  exact pay23_apply _

/-- The running maximum after the pass is the column maximum. -/
theorem v62_at (hk : (i 1).val = 3) (e : Fin 512) :
    kernelRun0_D.sl.v62 (F := Ideal) c i arg7 harg7 arg8 harg8 arg12 xs0 xs1 (ix2 (0 : Fin 1) e)
      = gmax (arr xs0) (arr xs1) 3 e := by
  unfold kernelRun0_D.sl.v62 kernelRun0_D.sl.HS5_2
  rw [View.readCov_cons_toLoadRect]
  exact max3 (arr xs0) (arr xs1) i hk _ _ _ (fun a b => tile_at harg8 xs1 i hk _ a b) (fun a b => q3_at harg7 xs0 _ a b)
    (fun a => v75_at c arg12 a) e

/-- The weight block read back. -/
theorem v61_1_at (hk : (i 1).val = 3) (r e : Fin 512) :
    kernelRun0_D.sl.v61_1 (F := Ideal) c i arg7 harg7 arg8 harg8 arg10 arg11 arg12 xs0 xs1 (ix2 r e)
      = gp (arr xs0) (arr xs1) 3 (gi 3 r) e := by
  unfold kernelRun0_D.sl.v61_1 kernelRun0_D.sl.HS4_1
  rw [View.readCov_cons_toLoadRect, pay11_eq]
  exact p33 (arr xs0) (arr xs1) _ _ (fun a b => v61_at c i arg7 harg7 arg8 harg8 arg10 xs0 xs1 hk a b)
    (fun a => v62_at c i arg7 harg7 arg8 harg8 arg12 xs0 xs1 hk a) r e

/-- The running sum before the pass is `0`. -/
theorem v70_at (e : Fin 512) : kernelRun0_D.sl.v70 (F := Ideal) c arg13 (ix2 (0 : Fin 1) e) = 0 := by
  unfold kernelRun0_D.sl.v70 kernelRun0_D.sl.HS6_1
  rw [View.readCov_cons_toLoadRect]
  exact pay24_apply _

/-- The running sum after the pass is the column sum. -/
theorem v43_at (hk : (i 1).val = 3) (e : Fin 512) :
    kernelRun0_D.sl.v43 (F := Ideal) c i arg7 harg7 arg8 harg8 arg10 arg12 arg13 xs0 xs1 (ix2 (0 : Fin 1) e)
      = gsum (arr xs0) (arr xs1) 3 e := by
  unfold kernelRun0_D.sl.v43 kernelRun0_D.sl.HS6_2
  rw [View.readCov_cons_toLoadRect]
  exact sum3 (arr xs0) (arr xs1) _ _ _ (fun a b => v61_at c i arg7 harg7 arg8 harg8 arg10 xs0 xs1 hk a b)
    (fun a => v62_at c i arg7 harg7 arg8 harg8 arg12 xs0 xs1 hk a) (fun a => v70_at c arg13 a) e

/-- The value tile read. -/
theorem r_at (hk : (i 1).val = 3) (e : Fin 512) (d : Fin 64) :
    kernelRun0_D.sl.r (F := Ideal) c i arg9 harg9 xs2 (ix2 e d) = xs2 (ix2 (gi 3 e) d) := by
  unfold kernelRun0_D.sl.r
  exact tile_at harg9 xs2 i hk _ e d

end Run

/-! ## The output block after key tile 3 -/

/-- At key tile 3 the rows of query tile 3 get the key tile's contribution added to what the block held; the rows
    above are untouched. -/
theorem out_D (c : Dev nD) (i : grid0.Coords) (arg2 : Memref sig .tc .vmem S1x2048x384 .f32) (harg2 : arg2.IsWhole) (arg3 : Memref sig .tc .vmem S384x64 .f32) (harg3 : arg3.IsWhole) (arg4 : Memref sig .tc .vmem S384x64 .f32) (harg4 : arg4.IsWhole) (arg5 : Memref sig .tc .vmem S384x64 .f32) (harg5 : arg5.IsWhole) (arg6 : Memref sig .tc .vmem S1x2048x64 .f32) (harg6 : arg6.IsWhole) (arg7 : Memref sig .tc .vmem S2048x64 .bf16) (harg7 : arg7.IsWhole) (arg8 : Memref sig .tc .vmem S2048x64 .bf16) (harg8 : arg8.IsWhole) (arg9 : Memref sig .tc .vmem S2048x64 .bf16) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S1x512 .f32) (harg13 : arg13.IsWhole) (hk : (i 1).val = 3) (x0 : Vec Ideal S1x2048x384 .f32) (x1 x2 x3 : Vec Ideal S384x64 .f32) (xo : Vec Ideal S1x2048x64 .f32) (xs0 xs1 xs2 : Vec Ideal S2048x64 .bf16) (s : Fin 2048) (d : Fin 64) :
    arg6.view.read (Elt Ideal) (arg6.view.writes (Elt Ideal) (harg6.unread xo) (kernelRun0_D (F := Ideal) c i arg2 harg2 arg3 harg3 arg4 harg4 arg5 harg5 arg6 harg6 arg7 harg7 arg8 harg8 arg9 harg9 arg10 harg10 arg11 harg11 arg12 harg12 arg13 harg13 hk x0 x1 x2 x3 xo xs0 xs1 xs2).1) (ix3 (0 : Fin 1) s d)
      = if 3 * 512 ≤ s.val then xo (ix3 (0 : Fin 1) s d) + Cert.AttnTile.gcontrib (fun p e => xs0 (ix2 p e)) (fun p e => xs1 (ix2 p e)) (fun p e => xs2 (ix2 p e)) 3 s d else xo (ix3 (0 : Fin 1) s d) := by
  unfold kernelRun0_D
  dsimp only
  by_cases hs : 3 * 512 ≤ s.val
  · rw [if_pos hs]
    have hr : s.val - 1536 < 512 := by have := s.isLt; omega
    have hgi : gi 3 (⟨s.val - 1536, hr⟩ : Fin 512) = s := Fin.ext (by rw [gi3_val]; show 1536 + (s.val - 1536) = s.val; omega)
    refine (View.read_writes_cons_unit_of_mem arg6.view (harg6.unread xo) _ _ [] (ix3 (0 : Fin 1) s d)
      (ix3 (0 : Fin 1) (⟨s.val - 1536, hr⟩ : Fin 512) d) rfl ?_).trans ?_
    · intro a
      match a with
      | ⟨0, _⟩ => rfl
      | ⟨1, _⟩ => show s.val = 1536 + (s.val - 1536); omega
      | ⟨2, _⟩ => show d.val = 0 + d.val; omega
    · rw [out3 (arr xs0) (arr xs1) (arr xs2) _ _ _ _ (fun a b => r_at c i arg9 harg9 xs2 hk a b)
        (fun a => v43_at c i arg7 harg7 arg8 harg8 arg10 arg12 arg13 xs0 xs1 hk a)
        (fun a b => v61_1_at c i arg7 harg7 arg8 harg8 arg10 arg11 arg12 xs0 xs1 hk a b), hgi]
      refine congrArg (· + _) ?_
      refine (harg6.readAt_unread xo _ _).trans (congrArg xo ?_)
      funext a; apply Fin.ext
      match a with
      | ⟨0, _⟩ => rfl
      | ⟨1, _⟩ => show 1536 + 1 * (s.val - 1536) = s.val; omega
      | ⟨2, _⟩ => show 0 + 1 * d.val = d.val; omega
  · rw [if_neg hs, View.read_writes_cons_unit_of_not_mem arg6.view (harg6.unread xo) _ _ [] (ix3 (0 : Fin 1) s d) rfl 1
      (Or.inl (by show s.val < 1536; omega)), View.writes_nil]
    exact congrFun (harg6.read_unread xo) _

end Cert.KernelIdeal.ValD

end
-- ==== Proof.KIValue.lean ====
/-
  The idealized kernel's result array, read off its run. After the point of batch `b` and key tile `k` the three
  caches hold the batch's scaled query, key and value projections, and the output block holds, row by row, the
  contributions of the key tiles `0 … k` that lie at or before the row's own tile: by induction over the points,
  key tile 0 starting the batch afresh (`inv_A`) and each later tile adding its share (`inv_B`, `inv_C`,
  `inv_D`), each step being that tile's run read back (Proof/KIValA … KIValD). After key tile 3 the block is the
  batch's attention output in its tile form, and that is when it is written back; the eight write-backs cover the
  result array (`final`).
-/
import proofs.«422935_j26276609917310_3_alg».proof.Proof.KIFrame
import proofs.«422935_j26276609917310_3_alg».proof.Proof.KIValA
import proofs.«422935_j26276609917310_3_alg».proof.Proof.KIValB
import proofs.«422935_j26276609917310_3_alg».proof.Proof.KIValC
import proofs.«422935_j26276609917310_3_alg».proof.Proof.KIValD
import proofs.«422935_j26276609917310_3_alg».proof.Proof.AttnTileAlg
import Idealize.ShloMosaic.Lib.Pipeline.Value
import Idealize.ShloMosaic.Lib.StableHlo.Run
import Idealize.ShloMosaic.Lib.Tactic

set_option maxRecDepth 16384

noncomputable section

open scoped BigOperators

/-! ## The arrays and the blocks -/

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.AttnSpec Cert.AttnTile
open Cert.KernelIdeal.ValA (qcache_A kcache_A vcache_A out_A)
open Cert.KernelIdeal.ValB (out_B)
open Cert.KernelIdeal.ValC (out_C)
open Cert.KernelIdeal.ValD (out_D)

variable (m : (ℓ : Loc nD τ sig) → Buf (Elt Ideal) ℓ) (ρ : Dev nD → PrngReg)

/-- The four argument arrays. -/
abbrev aX (c : Dev nD) : SX.Idx → EReal := m ((c : Thread nD τ).loc main_arg0)
abbrev aQ (c : Dev nD) : SW.Idx → EReal := m ((c : Thread nD τ).loc main_arg1)
abbrev aK (c : Dev nD) : SW.Idx → EReal := m ((c : Thread nD τ).loc main_arg2)
abbrev aV (c : Dev nD) : SW.Idx → EReal := m ((c : Thread nD τ).loc main_arg3)

/-- The input blocks of point `t`, at their literal types. -/
abbrev xblk (c : Dev nD) (t : Fin cfg0.N) : Vec Ideal S1x2048x384 .f32 := iblk m c 0 t
abbrev wblk1 (c : Dev nD) (t : Fin cfg0.N) : Vec Ideal S384x64 .f32 := iblk m c 1 t
abbrev wblk2 (c : Dev nD) (t : Fin cfg0.N) : Vec Ideal S384x64 .f32 := iblk m c 2 t
abbrev wblk3 (c : Dev nD) (t : Fin cfg0.N) : Vec Ideal S384x64 .f32 := iblk m c 3 t

/-- The block indices over the grid: the input block and the output block of point `t` are batch `t / 4`, whole;
    the weights are one block. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = 0 ∧ win0_4.index t (2 : Fin 3) = 0 :=
  (by decide +kernel : ∀ t : Fin grid0.N, _)

/-- Row `s` of the input block of point `t` is row `s` of batch `t / 4`. -/
theorem xblk_apply (c : Dev nD) (t : Fin cfg0.N) (b : Fin 8) (hb : b.val = t.val / 4) (s : Fin 2048) (e : Fin 384) :
    xblk m c t (ix3 (0 : Fin 1) s e) = aX m c (ix3 b s e) := by
  obtain ⟨e0, e1, e2, -⟩ := idx_facts t
  unfold xblk iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 384 + 1 * e.val = e.val; omega

theorem wblk1_apply (c : Dev nD) (t : Fin cfg0.N) (e : Fin 384) (d : Fin 64) : wblk1 m c t (ix2 e d) = aQ m c (ix2 e d) := by
  obtain ⟨-, -, -, e0, e1, -⟩ := idx_facts t
  unfold wblk1 iblk
  rw [View.read_apply]
  show V m c main_arg1 _ = m ((c : Thread nD τ).loc main_arg1) _
  unfold V
  congr 1
  funext a
  apply Fin.ext
  match a with
  | ⟨0, _⟩ => show win0_1.index t (0 : Fin 2) * 384 + 1 * e.val = e.val; omega
  | ⟨1, _⟩ => show win0_1.index t (1 : Fin 2) * 64 + 1 * d.val = d.val; omega
theorem wblk2_apply (c : Dev nD) (t : Fin cfg0.N) (e : Fin 384) (d : Fin 64) : wblk2 m c t (ix2 e d) = aK m c (ix2 e d) := by
  obtain ⟨-, -, -, -, -, e0, e1, -⟩ := idx_facts t
  unfold wblk2 iblk
  rw [View.read_apply]
  show V m c main_arg2 _ = m ((c : Thread nD τ).loc main_arg2) _
  unfold V
  congr 1
  funext a
  apply Fin.ext
  match a with
  | ⟨0, _⟩ => show win0_2.index t (0 : Fin 2) * 384 + 1 * e.val = e.val; omega
  | ⟨1, _⟩ => show win0_2.index t (1 : Fin 2) * 64 + 1 * d.val = d.val; omega
theorem wblk3_apply (c : Dev nD) (t : Fin cfg0.N) (e : Fin 384) (d : Fin 64) : wblk3 m c t (ix2 e d) = aV m c (ix2 e d) := by
  obtain ⟨-, -, -, -, -, -, -, e0, e1, -⟩ := idx_facts t
  unfold wblk3 iblk
  rw [View.read_apply]
  show V m c main_arg3 _ = m ((c : Thread nD τ).loc main_arg3) _
  unfold V
  congr 1
  funext a
  apply Fin.ext
  match a with
  | ⟨0, _⟩ => show win0_3.index t (0 : Fin 2) * 384 + 1 * e.val = e.val; omega
  | ⟨1, _⟩ => show win0_3.index t (1 : Fin 2) * 64 + 1 * d.val = d.val; omega

/-! ## What the points leave, as mathematics -/

/-- After the point at position `n` (batch `b = n / 4`, key tile `n % 4`): the caches hold the batch's scaled query,
    key and value projections, and the output block the contributions of the key tiles up to this one. -/
def Inv (c : Dev nD) (n : ℕ) (hn : n < cfg0.N) (b : Fin 8) (_hb : b.val = n / 4) : Prop :=
  (∀ (s : Fin 2048) (d : Fin 64), (outsAt0 m c n hn).2.1 (ix2 s d) = qs (aX m c) (aQ m c) b s d)
  ∧ (∀ (s : Fin 2048) (d : Fin 64), (outsAt0 m c n hn).2.2.1 (ix2 s d) = proj (aX m c) (aK m c) b s d)
  ∧ (∀ (s : Fin 2048) (d : Fin 64), (outsAt0 m c n hn).2.2.2 (ix2 s d) = proj (aX m c) (aV m c) b s d)
  ∧ (∀ (s : Fin 2048) (d : Fin 64), (outsAt0 m c n hn).1 (ix3 (0 : Fin 1) s d)
      = acc (qs (aX m c) (aQ m c) b) (proj (aX m c) (aK m c) b) (proj (aX m c) (aV m c) b) (n % 4) s d)

/-- Key tile 0 caches the batch's projections and leaves the first contribution. -/
theorem inv_A (c : Dev nD) (t : Fin cfg0.N) (h : t.val % 4 = 0) (b : Fin 8) (hb : b.val = t.val / 4) : Inv m c t.val t.isLt b hb := by
  have hQ : (fun (p : Fin 2048) (e : Fin 64) => (∑ e' : Fin 384, xblk m c t (ix3 (0 : Fin 1) p e') * wblk1 m c t (ix2 e' e)) * eighth) = qs (aX m c) (aQ m c) b :=
    funext fun p => funext fun e => by unfold qs proj; simp only [xblk_apply m c t b hb, wblk1_apply]
  have hK : (fun (p : Fin 2048) (e : Fin 64) => ∑ e' : Fin 384, xblk m c t (ix3 (0 : Fin 1) p e') * wblk2 m c t (ix2 e' e)) = proj (aX m c) (aK m c) b :=
    funext fun p => funext fun e => by unfold proj; simp only [xblk_apply m c t b hb, wblk2_apply]
  have hV : (fun (p : Fin 2048) (e : Fin 64) => ∑ e' : Fin 384, xblk m c t (ix3 (0 : Fin 1) p e') * wblk3 m c t (ix2 e' e)) = proj (aX m c) (aV m c) b :=
    funext fun p => funext fun e => by unfold proj; simp only [xblk_apply m c t b hb, wblk3_apply]
  unfold Inv
  rw [outsAt0_A m c t h]
  unfold stepA
  (try dsimp only)
  refine ⟨fun s d => ?_, fun s d => ?_, fun s d => ?_, fun s d => ?_⟩
  · exact (qcache_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) s d).trans (congrFun (congrFun hQ s) d)
  · exact (kcache_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) s d).trans (congrFun (congrFun hK s) d)
  · exact (vcache_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) s d).trans (congrFun (congrFun hV s) d)
  · refine (out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) s d).trans ?_
    rw [hQ, hK, hV, h]
    exact (acc_zero _ _ _ s d).symm

/-- Key tile 1 keeps the caches and adds its contribution to the rows at or below its diagonal tile. -/
theorem inv_B (c : Dev nD) (t : Fin cfg0.N) (h : t.val % 4 = 1) (b : Fin 8) (hb : b.val = t.val / 4)
    (ih : Inv m c (t.val - 1) (Nat.lt_of_le_of_lt (Nat.sub_le _ _) t.isLt) b (by omega)) : Inv m c t.val t.isLt b hb := by
  obtain ⟨iq, ik, iv, io⟩ := ih
  unfold Inv
  rw [outsAt0_B m c t h]
  unfold stepB
  refine ⟨fun s d => iq s d, fun s d => ik s d, fun s d => iv s d, fun s d => ?_⟩
  refine (out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) _ _ _ _ s d).trans ?_
  have hQ : (fun p e => (outsAt0 m c (t.val - 1) (Nat.lt_of_le_of_lt (Nat.sub_le _ _) t.isLt)).2.1 (ix2 p e)) = qs (aX m c) (aQ m c) b := funext fun p => funext fun e => iq p e
  have hK : (fun p e => (outsAt0 m c (t.val - 1) (Nat.lt_of_le_of_lt (Nat.sub_le _ _) t.isLt)).2.2.1 (ix2 p e)) = proj (aX m c) (aK m c) b := funext fun p => funext fun e => ik p e
  have hV : (fun p e => (outsAt0 m c (t.val - 1) (Nat.lt_of_le_of_lt (Nat.sub_le _ _) t.isLt)).2.2.2 (ix2 p e)) = proj (aX m c) (aV m c) b := funext fun p => funext fun e => iv p e
  rw [hQ, hK, hV, io s d, show (t.val - 1) % 4 = 0 from by omega, h]
  exact (acc_succ _ _ _ s d 0 (by omega)).symm

/-- Key tile 2 keeps the caches and adds its contribution to the rows at or below its diagonal tile. -/
theorem inv_C (c : Dev nD) (t : Fin cfg0.N) (h : t.val % 4 = 2) (b : Fin 8) (hb : b.val = t.val / 4)
    (ih : Inv m c (t.val - 1) (Nat.lt_of_le_of_lt (Nat.sub_le _ _) t.isLt) b (by omega)) : Inv m c t.val t.isLt b hb := by
  obtain ⟨iq, ik, iv, io⟩ := ih
  unfold Inv
  rw [outsAt0_C m c t h]
  unfold stepC
  refine ⟨fun s d => iq s d, fun s d => ik s d, fun s d => iv s d, fun s d => ?_⟩
  refine (out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) _ _ _ _ s d).trans ?_
  have hQ : (fun p e => (outsAt0 m c (t.val - 1) (Nat.lt_of_le_of_lt (Nat.sub_le _ _) t.isLt)).2.1 (ix2 p e)) = qs (aX m c) (aQ m c) b := funext fun p => funext fun e => iq p e
  have hK : (fun p e => (outsAt0 m c (t.val - 1) (Nat.lt_of_le_of_lt (Nat.sub_le _ _) t.isLt)).2.2.1 (ix2 p e)) = proj (aX m c) (aK m c) b := funext fun p => funext fun e => ik p e
  have hV : (fun p e => (outsAt0 m c (t.val - 1) (Nat.lt_of_le_of_lt (Nat.sub_le _ _) t.isLt)).2.2.2 (ix2 p e)) = proj (aX m c) (aV m c) b := funext fun p => funext fun e => iv p e
  rw [hQ, hK, hV, io s d, show (t.val - 1) % 4 = 1 from by omega, h]
  exact (acc_succ _ _ _ s d 1 (by omega)).symm

/-- Key tile 3 keeps the caches and adds its contribution to the rows at or below its diagonal tile. -/
theorem inv_D (c : Dev nD) (t : Fin cfg0.N) (h : t.val % 4 = 3) (b : Fin 8) (hb : b.val = t.val / 4)
    (ih : Inv m c (t.val - 1) (Nat.lt_of_le_of_lt (Nat.sub_le _ _) t.isLt) b (by omega)) : Inv m c t.val t.isLt b hb := by
  obtain ⟨iq, ik, iv, io⟩ := ih
  unfold Inv
  rw [outsAt0_D m c t h]
  unfold stepD
  refine ⟨fun s d => iq s d, fun s d => ik s d, fun s d => iv s d, fun s d => ?_⟩
  refine (out_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((ki_eq t).trans h) (xblk m c t) (wblk1 m c t) (wblk2 m c t) (wblk3 m c t) _ _ _ _ s d).trans ?_
  have hQ : (fun p e => (outsAt0 m c (t.val - 1) (Nat.lt_of_le_of_lt (Nat.sub_le _ _) t.isLt)).2.1 (ix2 p e)) = qs (aX m c) (aQ m c) b := funext fun p => funext fun e => iq p e
  have hK : (fun p e => (outsAt0 m c (t.val - 1) (Nat.lt_of_le_of_lt (Nat.sub_le _ _) t.isLt)).2.2.1 (ix2 p e)) = proj (aX m c) (aK m c) b := funext fun p => funext fun e => ik p e
  have hV : (fun p e => (outsAt0 m c (t.val - 1) (Nat.lt_of_le_of_lt (Nat.sub_le _ _) t.isLt)).2.2.2 (ix2 p e)) = proj (aX m c) (aV m c) b := funext fun p => funext fun e => iv p e
  rw [hQ, hK, hV, io s d, show (t.val - 1) % 4 = 2 from by omega, h]
  exact (acc_succ _ _ _ s d 2 (by omega)).symm

/-- The invariant at every point, by induction on the position. -/
theorem inv_all (c : Dev nD) : ∀ (n : ℕ) (hn : n < cfg0.N) (b : Fin 8) (hb : b.val = n / 4), Inv m c n hn b hb
  | 0, hn, b, hb => inv_A m c ⟨0, hn⟩ rfl b hb
  | n + 1, hn, b, hb => by
    have hN : cfg0.N = 32 := N_0
    have hcases : (n + 1) % 4 = 0 ∨ (n + 1) % 4 = 1 ∨ (n + 1) % 4 = 2 ∨ (n + 1) % 4 = 3 := by omega
    rcases hcases with h | h | h | h
    · exact inv_A m c ⟨n + 1, hn⟩ h b hb
    · exact inv_B m c ⟨n + 1, hn⟩ h b hb (inv_all c n (Nat.lt_of_succ_lt hn) b (by omega))
    · exact inv_C m c ⟨n + 1, hn⟩ h b hb (inv_all c n (Nat.lt_of_succ_lt hn) b (by omega))
    · exact inv_D m c ⟨n + 1, hn⟩ h b hb (inv_all c n (Nat.lt_of_succ_lt hn) b (by omega))

/-! ## The result array -/

/-- The attention output as contents of the result array. -/
def G (c : Dev nD) : Buf (Elt Ideal) ((c : Thread nD τ).loc main_v0) :=
  fun o => tileOut (aX m c) (aQ m c) (aK m c) (aV m c) ⟨(o 0).val, (o 0).isLt⟩ ⟨(o 1).val, (o 1).isLt⟩ ⟨(o 2).val, (o 2).isLt⟩

/-- After key tile 3 of batch `b` the output block holds the batch's attention output, and that is what is written back. -/
theorem flushed_eq (c : Dev nD) (t : Fin cfg0.N) (hf : (cfg0.win 4).flush t = true) :
    (dats m 0 c).flushed 4 t = ((cfg0.win 4).blk t).view.read (Elt Ideal) (G m c) := by
  have hN : cfg0.N = 32 := N_0
  have h3 : t.val % 4 = 3 := (flush0_4 t).mp hf
  obtain ⟨-, -, -, -, -, -, -, -, -, e0, e1, e2⟩ := idx_facts t
  have hb : t.val / 4 < 8 := by have := t.isLt; omega
  show (cfg0.win 4).cut (grid0.coords t) ((dats m 0 c).after 4 t) = _
  rw [after0_4]
  funext j
  rw [View.read_apply]
  show (outsAt0 m c t.val t.isLt).1 j = G m c (((cfg0.win 4).blk t).view.emb j)
  obtain ⟨a, s, d, rfl⟩ : ∃ (a : Fin 1) (s : Fin 2048) (d : Fin 64), j = ix3 a s d := ⟨j 0, j 1, j 2, eq_ix3 j⟩
  obtain rfl : a = 0 := Subsingleton.elim _ _
  rw [(inv_all m c t.val t.isLt ⟨t.val / 4, hb⟩ rfl).2.2.2 s d, h3, ← tileOut_eq_acc]
  unfold G
  congr 1
  · apply Fin.ext; show t.val / 4 = win0_4.index t (0 : Fin 3) * 1 + 1 * 0; omega
  · apply Fin.ext; show s.val = win0_4.index t (1 : Fin 3) * 2048 + 1 * s.val; omega
  · apply Fin.ext; show d.val = win0_4.index t (2 : Fin 3) * 64 + 1 * d.val; omega

/-- An index of the result array is in point `t`'s block iff each coordinate is in the block's range on its axis. -/
theorem mem_blk (t : Fin cfg0.N) (i : S8x2048x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v0).slice (win0_4.rect t)).set ↔ _
  rw [View.set_slice_whole, Rect.mem_set_unit]
  exact Iff.rfl

/-- The result array after the run: the attention output (batch `b`'s block is written back by point `4 b + 3`). -/
theorem final (c : Dev nD) : (dats m 0 c).arrAt 4 cfg0.N = G m c :=
  (dats m 0 c).arrAt_eq_of_cover 4 (G m c) (fun t hf => flushed_eq m c t hf) fun i => by
    have hN : cfg0.N = 32 := N_0
    have hi0 : (i 0).val < 8 := (i 0).isLt
    have hi1 : (i 1).val < 2048 := (i 1).isLt
    have hi2 : (i 2).val < 64 := (i 2).isLt
    refine ⟨⟨4 * (i 0).val + 3, by omega⟩, (flush0_4 _).mpr (by dsimp only; omega), ?_⟩
    obtain ⟨-, -, -, -, -, -, -, -, -, e0, e1, e2⟩ := idx_facts ⟨4 * (i 0).val + 3, by omega⟩
    rw [mem_blk]
    intro a
    match a with
    | ⟨0, _⟩ => show win0_4.index _ (0 : Fin 3) * 1 ≤ (i 0).val ∧ (i 0).val < win0_4.index _ (0 : Fin 3) * 1 + 1; dsimp only at e0; omega
    | ⟨1, _⟩ => show win0_4.index _ (1 : Fin 3) * 2048 ≤ (i 1).val ∧ (i 1).val < win0_4.index _ (1 : Fin 3) * 2048 + 2048; omega
    | ⟨2, _⟩ => show win0_4.index _ (2 : Fin 3) * 64 ≤ (i 2).val ∧ (i 2).val < win0_4.index _ (2 : Fin 3) * 64 + 64; omega

/-- The run, read: the result array at the attention output, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Val

end
-- ==== Proof.RefIsSpec.lean ====
/-
  The printed reference program, read one operation at a time at an index, is the plain closed form of causal
  attention whose softmax runs over the query axis: project, score, mask above the diagonal with `-∞`, subtract each
  column's maximum, exponentiate, divide by the column's sum, contract with the values. Every step is the same
  expression over the extended reals on both sides; what is proved is the bookkeeping of indices, that the two
  literal words are `-∞` and `0`, and that the integer comparison of the two position words is `j ≤ i`.
-/
import proofs.«422935_j26276609917310_3_alg».proof.Proof.Gen.ReferenceIdeal.Read
import proofs.«422935_j26276609917310_3_alg».proof.Proof.AttnSpec
import Idealize.ShloMosaic.PureOps.Reduce
import Idealize.ShloMosaic.PureOps.Ideal.Laws
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.Read Cert.AttnSpec
open Idealize.ShloMosaic Idealize.ShloMosaic.ValueIdx Idealize.ShloMosaic.TcCoe Idealize.SL.Sem Idealize.ShloMosaic.StableHlo

/-- Two rank-3 indices agree when they agree on each of the three axes, each axis by computation. -/
local macro "idx3" : tactic =>
  `(tactic| (funext a; match a with | ⟨0, _⟩ => rfl | ⟨1, _⟩ => rfl | ⟨2, _⟩ => rfl))
/-- The same for rank 2. -/
local macro "idx2" : tactic =>
  `(tactic| (funext a; match a with | ⟨0, _⟩ => rfl | ⟨1, _⟩ => rfl))

variable (x0 : (⟨S8x2048x384, .f32⟩ : BufTy).Contents (Elt Ideal)) (x1 x2 x3 : (⟨S384x64, .f32⟩ : BufTy).Contents (Elt Ideal))

/-! ## The literals -/

/-- The word `0xFF800000` is `-∞`. -/
theorem negInf : Ideal.ofBits .f32 0xFF800000#32 = (⊥ : EReal) := by simp [Ideal.ofBits, Ideal.ieee]

/-! ## The three projections -/

theorem v0_at (b : Fin 8) (s : Fin 2048) (d : Fin 64) :
    val_main_v0 (F := Ideal) x0 x1 (ix3 b s d) = proj x0 x1 b s d := by
  rw [val_main_v0_apply]
  unfold proj
  refine Finset.sum_congr rfl fun c _ => ?_
  have el : lidx_main_v0 (ix3 b s d) c = ix3 b s c := by idx3
  have er : ridx_main_v0 (ix3 b s d) c = ix2 c d := by idx2
  rw [el, er]

theorem v1_at (b : Fin 8) (s : Fin 2048) (d : Fin 64) :
    val_main_v1 (F := Ideal) x0 x2 (ix3 b s d) = proj x0 x2 b s d := by
  rw [val_main_v1_apply]
  unfold proj
  refine Finset.sum_congr rfl fun c _ => ?_
  have el : lidx_main_v1 (ix3 b s d) c = ix3 b s c := by idx3
  have er : ridx_main_v1 (ix3 b s d) c = ix2 c d := by idx2
  rw [el, er]

theorem v2_at (b : Fin 8) (s : Fin 2048) (d : Fin 64) :
    val_main_v2 (F := Ideal) x0 x3 (ix3 b s d) = proj x0 x3 b s d := by
  rw [val_main_v2_apply]
  unfold proj
  refine Finset.sum_congr rfl fun c _ => ?_
  have el : lidx_main_v2 (ix3 b s d) c = ix3 b s c := by idx3
  have er : ridx_main_v2 (ix3 b s d) c = ix2 c d := by idx2
  rw [el, er]

/-! ## The mask -/

/-- The mask bit at row `i`, column `j`: the signed comparison `i + 0 ≥ j` of the two position words, which are below
    `2 ^ 31`, then a choice between the constant `true` and the constant `false`. -/
theorem mask_at (b : Fin 8) (i j : Fin 2048) :
    val_main_call1_v1 (F := Ideal) (ix3 b i j) = if j.val ≤ i.val then 1#1 else 0#1 := by
  rw [val_main_call1_v1_apply, val_main_v8_apply, val_main_v7_apply, val_main_call0_v4_apply, val_main_call0_v2_apply,
    val_main_call0_v0_apply, val_main_call0_v1_apply, val_main_call0_c_apply, val_main_call0_v3_apply, val_main_v6_apply,
    val_main_c_apply, val_main_call0_v5_apply, val_main_call0_c_0_apply]
  show Scalar.select (IntOp.cmpi .sge (IntOp.addi (BitVec.ofNat 32 i.val) 0#32) (BitVec.ofNat 32 j.val)) 1#1 0#1 = _
  have h0 : IntOp.addi (BitVec.ofNat 32 i.val) 0#32 = BitVec.ofNat 32 i.val := by
    show BitVec.ofNat 32 i.val + 0#32 = _
    exact BitVec.add_zero _
  rw [h0]
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have hc := Predicate.sge_iff_toNat (a := BitVec.ofNat 32 i.val) (b := BitVec.ofNat 32 j.val)
    (by rw [hi]; have := i.isLt; omega) (by rw [hj]; have := j.isLt; omega)
  rw [hi, hj] at hc
  by_cases h : j.val ≤ i.val
  · rw [if_pos h, hc.mpr h, select_one]
  · rw [if_neg h, eq_zero_of_ne_one (fun e => h (hc.mp e)), select_zero]

/-! ## The masked score -/

theorem v9_at (b : Fin 8) (i j : Fin 2048) :
    val_main_v9 (F := Ideal) x0 x1 x2 (ix3 b i j) = rscore x0 x1 x2 b i j := by
  rw [val_main_v9_apply, mask_at]
  unfold rscore
  by_cases h : j.val ≤ i.val
  · rw [if_pos h, if_pos h, select_one, val_main_v5_apply, val_main_v3_apply, val_main_v4_apply, val_main_cst_apply]
    show (∑ k : Fin 64, _) * Ideal.ofBits .f32 0x3E000000#32 = _
    unfold eighth
    refine congrArg (· * _) (Finset.sum_congr rfl fun k _ => ?_)
    have el : lidx_main_v3 (ix3 b i j) k = ix3 b i k := by idx3
    have er : ridx_main_v3 (ix3 b i j) k = ix3 b j k := by idx3
    rw [el, er, v0_at, v1_at]
  · rw [if_neg h, if_neg h, select_zero, val_main_call1_v2_apply, val_main_call1_v0_apply, val_main_cst_0_apply]
    exact negInf

/-! ## The column maximum -/

/-- The reduced index `(b, j)` with the query coordinate `k` put back on axis 1 is `(b, k, j)`. -/
theorem lift_at (h : S8x2048x2048.Reduces [1] S8x2048) (b : Fin 8) (j : Fin 2048) (k : Fin (S8x2048x2048.size 1)) :
    h.lift (ix2 b j) k = ix3 b (⟨k.val, k.isLt⟩ : Fin 2048) j := by
  funext c; apply Fin.ext
  fin_cases c <;> rfl

/-- The reduce with a maximum body from `-∞` over the query axis, at `(b, j)`, is the maximum of column `j`. -/
theorem v10_at (b : Fin 8) (j : Fin 2048) :
    val_main_v10 (F := Ideal) x0 x1 x2 (ix2 b j) = rmax x0 x1 x2 b j := by
  have h : S8x2048x2048.Reduces [1] S8x2048 := by decide
  unfold val_main_v10
  rw [Host.reduce_eq_fold_single FloatOps.maximumf _ _ reducesTo_S8x2048x2048_S8x2048_d1 h h_S_]
  unfold rmax
  have hf : (val_main_v9 (F := Ideal) x0 x1 x2 ∘ h.lift (ix2 b j)) = fun i : Fin 2048 => rscore x0 x1 x2 b i j :=
    funext fun k => by
      show val_main_v9 (F := Ideal) x0 x1 x2 (h.lift (ix2 b j) k) = _
      rw [lift_at h b j k, v9_at]
      rfl
  have hi : val_main_cst_1 (F := Ideal) (Shape.Idx.first h_S_) = (⊥ : EReal) := by
    rw [val_main_cst_1_apply]; exact negInf
  rw [hi]
  exact congrArg (fun f => Finset.fold max (⊥ : EReal) f (Finset.univ : Finset (Fin 2048))) hf

theorem v12_at (b : Fin 8) (j : Fin 2048) :
    val_main_v12 (F := Ideal) x0 x1 x2 (ix2 b j) = rmax x0 x1 x2 b j := by
  rw [val_main_v12_apply, val_main_v11_apply, val_main_cst_2_apply, v10_at]
  show max (Ideal.ofBits .f32 0xFF800000#32) _ = _
  rw [negInf]
  exact max_bot_left _

theorem v14_at (b : Fin 8) (i j : Fin 2048) :
    val_main_v14 (F := Ideal) x0 x1 x2 (ix3 b i j) = rmax x0 x1 x2 b j := by
  rw [val_main_v14_apply, val_main_v13_apply]
  have e : idx_main_v13 (idx_main_v14 (ix3 b i j)) = ix2 b j := by idx2
  rw [e, v12_at]

/-! ## The shifted exponential, the column sum, the quotient -/

theorem v16_at (b : Fin 8) (i j : Fin 2048) :
    val_main_v16 (F := Ideal) x0 x1 x2 (ix3 b i j) = rexp x0 x1 x2 b i j := by
  rw [val_main_v16_apply, val_main_v15_apply, v9_at, v14_at]
  rfl

theorem v17_at (b : Fin 8) (j : Fin 2048) :
    val_main_v17 (F := Ideal) x0 x1 x2 (ix2 b j) = rsum x0 x1 x2 b j := by
  rw [val_main_v17_apply, val_main_cst_3_apply, Ideal.ofBits_def, Ideal.ofBits_zero_f32, zero_add]
  unfold rsum
  refine Finset.sum_congr rfl fun k _ => ?_
  have e : idx_main_v17 (ix2 b j) k = ix3 b k j := by idx3
  rw [e, v16_at]

theorem v19_at (b : Fin 8) (i j : Fin 2048) :
    val_main_v19 (F := Ideal) x0 x1 x2 (ix3 b i j) = rsum x0 x1 x2 b j := by
  rw [val_main_v19_apply, val_main_v18_apply]
  have e : idx_main_v18 (idx_main_v19 (ix3 b i j)) = ix2 b j := by idx2
  rw [e, v17_at]

theorem v20_at (b : Fin 8) (i j : Fin 2048) :
    val_main_v20 (F := Ideal) x0 x1 x2 (ix3 b i j) = Ideal.div (rexp x0 x1 x2 b i j) (rsum x0 x1 x2 b j) := by
  rw [val_main_v20_apply, v16_at, v19_at]
  rfl

/-! ## The contraction with the values -/

/-- The reference program's result at `(b, i, d)` is the plain closed form there. -/
theorem val_eq_refOut (x0 : (⟨S8x2048x384, .f32⟩ : BufTy).Contents (Elt Ideal)) (x1 x2 x3 : (⟨S384x64, .f32⟩ : BufTy).Contents (Elt Ideal))
    (b : Fin 8) (i : Fin 2048) (d : Fin 64) :
    Cert.ReferenceIdeal.Read.val_main_v21 (F := Ideal) x0 x1 x2 x3 (Idealize.ShloMosaic.ValueIdx.ix3 b i d)
      = Cert.AttnSpec.refOut x0 x1 x2 x3 b i d := by
  rw [val_main_v21_apply]
  unfold refOut
  refine Finset.sum_congr rfl fun k _ => ?_
  have el : lidx_main_v21 (ix3 b i d) k = ix3 b i k := by idx3
  have er : ridx_main_v21 (ix3 b i d) k = ix3 b k d := by idx3
  rw [el, er, v20_at, v2_at]

end Cert.ReferenceIdeal.RefValue

end
-- ==== Proof.AttnAlgebra.lean ====
/-
  The two closed forms of the query-axis causal attention agree when every argument entry is a real number.

  With real arguments every projection is real and the scale is the real 1/8, so the two masked scores are
  one array: real on and below the diagonal, -∞ above it. A column's maximum is then a real number (its diagonal
  entry is real, no entry is +∞), the tile form's maximum over the query tiles at or below the diagonal tile
  is that same maximum (the entries it leaves out are -∞), hence the shifted exponentials agree everywhere,
  and vanish above the diagonal. A column's sum is a positive real (its diagonal term is positive), and the
  tile form's sum leaves out only zeros. Division by a nonzero real is multiplication by its inverse, which
  commutes with the other factors, so the terms of the two contractions agree; the tile form leaves out only
  terms above the diagonal, which are zero.
-/
import proofs.«422935_j26276609917310_3_alg».proof.Proof.AttnSpec
import Mathlib.Data.EReal.Inv
import Mathlib.Data.Finset.Fold
import Mathlib.Algebra.Order.BigOperators.Group.Finset

noncomputable section

open scoped BigOperators

namespace Cert.AttnSpec

open Idealize.ShloMosaic Idealize.ShloMosaic.ValueIdx

/-! ## Coercions and the scale -/

/-- The coercion of the reals into the extended reals commutes with finite sums. -/
theorem coe_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The scale is the real number 1/8. -/
theorem eighth_eq : eighth = ((1 / 8 : ℝ) : EReal) := by
  simp [eighth, Ideal.ofBits, Ideal.ieee]
  rw [← EReal.coe_mul]
  congr 1
  norm_num

/-! ## Tiles of 512 positions -/

/-- Every position is row `r` of tile `q` for some `q`, `r`. -/
theorem gi_surj (i : Fin 2048) : ∃ (q : Fin 4) (r : Fin 512), gi q r = i :=
  ⟨⟨i.val / 512, by have := i.isLt; omega⟩, ⟨i.val % 512, Nat.mod_lt _ (by norm_num)⟩,
    Fin.ext (by simp only [gi]; omega)⟩

/-- Positions are the pairs of a tile and a row in it. -/
def giEquiv : Fin 4 × Fin 512 ≃ Fin 2048 where
  toFun p := gi p.1 p.2
  invFun i := (⟨i.val / 512, by have := i.isLt; omega⟩, ⟨i.val % 512, Nat.mod_lt _ (by norm_num)⟩)
  left_inv p := by
    have := p.2.isLt
    refine Prod.ext (Fin.ext ?_) (Fin.ext ?_) <;> simp only [gi] <;> omega
  right_inv i := Fin.ext (by simp only [gi]; omega)

/-- A sum over the positions, taken tile by tile. -/
theorem sum_gi {M : Type*} [AddCommMonoid M] (f : Fin 2048 → M) :
    ∑ j : Fin 2048, f j = ∑ k : Fin 4, ∑ c : Fin 512, f (gi k c) := by
  rw [← giEquiv.sum_comp f, Fintype.sum_prod_type]
  rfl

/-! ## The scores, the maxima, the exponentials, the sums -/

section

variable {x : SX.Idx → EReal} {wq wk wv : SW.Idx → EReal}

/-- A projection of real arrays is real. -/
theorem proj_real {w : SW.Idx → EReal} (hx : AllReal x) (hw : AllReal w) (b : Fin 8) (s : Fin 2048)
    (d : Fin 64) : ∃ p : ℝ, proj x w b s d = (p : EReal) := by
  have hx' : ∀ j, ∃ r : ℝ, x j = (r : EReal) := hx
  have hw' : ∀ j, ∃ r : ℝ, w j = (r : EReal) := hw
  choose xr hxr using hx'
  choose wr hwr using hw'
  refine ⟨∑ c : Fin 384, xr (ix3 b s c) * wr (ix2 c d), ?_⟩
  unfold proj
  rw [coe_sum]
  exact Finset.sum_congr rfl fun c _ => by rw [hxr, hwr, EReal.coe_mul]

/-- Above the diagonal the score is `-∞`. -/
theorem rscore_above (b : Fin 8) {i j : Fin 2048} (h : ¬ j.val ≤ i.val) : rscore x wq wk b i j = ⊥ :=
  if_neg h

variable (hx : AllReal x) (hq : AllReal wq) (hk : AllReal wk)
include hx hq hk

/-- On and below the diagonal the score is real. -/
theorem rscore_below (b : Fin 8) {i j : Fin 2048} (h : j.val ≤ i.val) :
    ∃ r : ℝ, rscore x wq wk b i j = (r : EReal) := by
  choose Q hQ using fun d => proj_real hx hq b i d
  choose K hK using fun d => proj_real hx hk b j d
  refine ⟨(∑ d : Fin 64, Q d * K d) * (1 / 8), ?_⟩
  unfold rscore
  rw [if_pos h, EReal.coe_mul, coe_sum, eighth_eq]
  congr 1
  exact Finset.sum_congr rfl fun d _ => by rw [hQ, hK, EReal.coe_mul]

/-- Scaling the query before the score is taken changes nothing: `Σ (q/8)·k = (Σ q·k)/8` in the reals. -/
theorem kscore_eq_rscore (b : Fin 8) (i j : Fin 2048) : kscore x wq wk b i j = rscore x wq wk b i j := by
  choose Q hQ using fun d => proj_real hx hq b i d
  choose K hK using fun d => proj_real hx hk b j d
  unfold kscore rscore qs
  by_cases h : j.val ≤ i.val
  · rw [if_pos h, if_pos h, eighth_eq]
    have e1 : ∑ d : Fin 64, proj x wq b i d * ((1 / 8 : ℝ) : EReal) * proj x wk b j d
        = ((∑ d : Fin 64, Q d * (1 / 8) * K d : ℝ) : EReal) := by
      rw [coe_sum]
      exact Finset.sum_congr rfl fun d _ => by rw [hQ, hK, EReal.coe_mul, EReal.coe_mul]
    have e2 : ∑ d : Fin 64, proj x wq b i d * proj x wk b j d = ((∑ d : Fin 64, Q d * K d : ℝ) : EReal) := by
      rw [coe_sum]
      exact Finset.sum_congr rfl fun d _ => by rw [hQ, hK, EReal.coe_mul]
    rw [e1, e2, ← EReal.coe_mul, Finset.sum_mul]
    congr 1
    exact Finset.sum_congr rfl fun d _ => by ring
  · rw [if_neg h, if_neg h]

/-- A column's maximum is a real number: its diagonal entry is real and no entry is `+∞`. -/
theorem rmax_real (b : Fin 8) (j : Fin 2048) : ∃ m : ℝ, rmax x wq wk b j = (m : EReal) := by
  have h1 : rmax x wq wk b j ≠ ⊥ := by
    obtain ⟨r, hr⟩ := rscore_below hx hq hk b (le_refl j.val)
    have hle : rscore x wq wk b j j ≤ rmax x wq wk b j :=
      (Finset.le_fold_max _).mpr (Or.inr ⟨j, Finset.mem_univ j, le_rfl⟩)
    intro h0
    rw [h0, hr] at hle
    exact absurd hle (not_le.mpr (EReal.bot_lt_coe r))
  have h2 : rmax x wq wk b j ≠ ⊤ := by
    refine ne_of_lt ((Finset.fold_max_lt _).mpr ⟨bot_lt_top, fun i _ => ?_⟩)
    by_cases h : j.val ≤ i.val
    · obtain ⟨r, hr⟩ := rscore_below hx hq hk b h
      rw [hr]
      exact EReal.coe_lt_top r
    · rw [rscore_above b h]
      exact bot_lt_top
  exact ⟨(rmax x wq wk b j).toReal, (EReal.coe_toReal h2 h1).symm⟩

/-- The maximum over the query tiles at or below the diagonal tile is the column's maximum: the entries it
    leaves out are `-∞`. -/
theorem tmax_eq_rmax (b : Fin 8) (k : Fin 4) (c : Fin 512) :
    tmax x wq wk b k c = rmax x wq wk b (gi k c) := by
  unfold tmax tmax1 rmax
  simp only [kscore_eq_rscore hx hq hk]
  apply le_antisymm
  · refine (Finset.fold_max_le _).mpr ⟨bot_le, fun q _ => (Finset.fold_max_le _).mpr ⟨bot_le, fun r _ => ?_⟩⟩
    exact (Finset.le_fold_max _).mpr (Or.inr ⟨gi q r, Finset.mem_univ _, le_rfl⟩)
  · refine (Finset.fold_max_le _).mpr ⟨bot_le, fun i _ => ?_⟩
    by_cases h : (gi k c).val ≤ i.val
    · obtain ⟨q, r, rfl⟩ := gi_surj i
      have hkq : k ≤ q := by
        have := r.isLt
        simp only [gi] at h
        rw [Fin.le_def]
        omega
      refine (Finset.le_fold_max _).mpr (Or.inr ⟨q, Finset.mem_filter.mpr ⟨Finset.mem_univ _, hkq⟩, ?_⟩)
      exact (Finset.le_fold_max _).mpr (Or.inr ⟨r, Finset.mem_univ _, le_rfl⟩)
    · rw [rscore_above b h]
      exact bot_le

omit hx hq hk in
/-- Above the diagonal the shifted exponential vanishes. -/
theorem rexp_above (b : Fin 8) {i j : Fin 2048} (h : ¬ j.val ≤ i.val) : rexp x wq wk b i j = 0 := by
  unfold rexp
  rw [rscore_above b h, sub_eq_add_neg, EReal.bot_add, Ideal.exp_bot]

/-- Every shifted exponential is a nonnegative real, positive on and below the diagonal. -/
theorem rexp_real (b : Fin 8) (i j : Fin 2048) :
    ∃ e : ℝ, rexp x wq wk b i j = (e : EReal) ∧ 0 ≤ e ∧ (j.val ≤ i.val → 0 < e) := by
  by_cases h : j.val ≤ i.val
  · obtain ⟨r, hr⟩ := rscore_below hx hq hk b h
    obtain ⟨m, hm⟩ := rmax_real hx hq hk b j
    refine ⟨Real.exp (r - m), ?_, (Real.exp_pos _).le, fun _ => Real.exp_pos _⟩
    unfold rexp
    rw [hr, hm, ← EReal.coe_sub, Ideal.exp_coe]
  · exact ⟨0, by rw [rexp_above b h, EReal.coe_zero], le_rfl, fun h' => absurd h' h⟩

/-- A column's sum is a nonzero real: its diagonal term is positive and no term is negative. -/
theorem rsum_real (b : Fin 8) (j : Fin 2048) : ∃ s : ℝ, s ≠ 0 ∧ rsum x wq wk b j = (s : EReal) := by
  choose e he h0 hpos using fun i => rexp_real hx hq hk b i j
  refine ⟨∑ i : Fin 2048, e i, ?_, ?_⟩
  · exact (Finset.sum_pos' (fun i _ => h0 i) ⟨j, Finset.mem_univ j, hpos j le_rfl⟩).ne'
  · unfold rsum
    rw [coe_sum]
    exact Finset.sum_congr rfl fun i _ => he i

/-- The tile form's shifted exponential is the plain one. -/
theorem tp_eq_rexp (b : Fin 8) (k : Fin 4) (i : Fin 2048) (c : Fin 512) :
    tp x wq wk b k i c = rexp x wq wk b i (gi k c) := by
  unfold tp rexp
  rw [kscore_eq_rscore hx hq hk, tmax_eq_rmax hx hq hk]

/-- The sum over the query tiles at or below the diagonal tile is the column's sum: it leaves out only zeros. -/
theorem tsum_eq_rsum (b : Fin 8) (k : Fin 4) (c : Fin 512) :
    tsum x wq wk b k c = rsum x wq wk b (gi k c) := by
  unfold tsum rsum
  simp only [tp_eq_rexp hx hq hk]
  rw [sum_gi fun i => rexp x wq wk b i (gi k c)]
  refine Finset.sum_subset (Finset.filter_subset _ _) fun q _ hq' => ?_
  refine Finset.sum_eq_zero fun r _ => rexp_above b ?_
  have hlt : ¬ k ≤ q := fun h => hq' (Finset.mem_filter.mpr ⟨Finset.mem_univ _, h⟩)
  have := r.isLt
  rw [Fin.le_def] at hlt
  simp only [gi]
  omega

/-- Dividing the value by the column's sum before the product, or the exponential by it, is one thing:
    the sum is a nonzero real, and its inverse commutes with the other factors. -/
theorem term_eq (b : Fin 8) (i j : Fin 2048) (d : Fin 64) :
    rexp x wq wk b i j * Ideal.div (proj x wv b j d) (rsum x wq wk b j)
      = Ideal.div (rexp x wq wk b i j) (rsum x wq wk b j) * proj x wv b j d := by
  obtain ⟨s, hs0, hs⟩ := rsum_real hx hq hk b j
  rw [hs, Ideal.div_coe hs0, Ideal.div_coe hs0, ← mul_assoc, mul_right_comm]

end

/-! ## The two forms agree -/

theorem tileOut_eq_refOut (x : SX.Idx → EReal) (wq wk wv : SW.Idx → EReal) (hx : AllReal x) (hq : AllReal wq)
    (hk : AllReal wk) (hv : AllReal wv) (b : Fin 8) (i : Fin 2048) (d : Fin 64) :
    tileOut x wq wk wv b i d = refOut x wq wk wv b i d := by
  have _hv := hv
  unfold tileOut refOut tcontrib
  simp only [tp_eq_rexp hx hq hk, tsum_eq_rsum hx hq hk]
  calc ∑ k ∈ Finset.univ.filter (fun k : Fin 4 => k.val * 512 ≤ i.val), ∑ c : Fin 512,
          rexp x wq wk b i (gi k c) * Ideal.div (proj x wv b (gi k c) d) (rsum x wq wk b (gi k c))
      = ∑ k : Fin 4, ∑ c : Fin 512,
          rexp x wq wk b i (gi k c) * Ideal.div (proj x wv b (gi k c) d) (rsum x wq wk b (gi k c)) := by
        refine Finset.sum_subset (Finset.filter_subset _ _) fun k _ hk' => ?_
        refine Finset.sum_eq_zero fun c _ => ?_
        have hlt : ¬ k.val * 512 ≤ i.val := fun h => hk' (Finset.mem_filter.mpr ⟨Finset.mem_univ _, h⟩)
        have habove : ¬ (gi k c).val ≤ i.val := by simp only [gi]; omega
        rw [rexp_above b habove, zero_mul]
    _ = ∑ j : Fin 2048, rexp x wq wk b i j * Ideal.div (proj x wv b j d) (rsum x wq wk b j) :=
        (sum_gi fun j => rexp x wq wk b i j * Ideal.div (proj x wv b j d) (rsum x wq wk b j)).symm
    _ = ∑ j : Fin 2048, Ideal.div (rexp x wq wk b i j) (rsum x wq wk b j) * proj x wv b j d :=
        Finset.sum_congr rfl fun j _ => term_eq hx hq hk b i j d

end Cert.AttnSpec

end
-- ==== Proof.FiniteInputs.lean ====
/-
  The precondition "every entry of the four arguments has absolute value below +∞", read back: each entry of
  each argument is a real number.
-/
import proofs.«422935_j26276609917310_3_alg».proof.Defs
import proofs.«422935_j26276609917310_3_alg».proof.Proof.AttnSpec
import Idealize.ShloMosaic.Lib.ReduceAll

noncomputable section

namespace Cert.AttnFinite

open Idealize.ShloMosaic Idealize.SL.Sem Cert.AttnSpec

/-- The shape of rank zero has one index. -/
instance : Subsingleton Cert.Pre_finite_inputs.S_.Idx := ⟨fun a b => funext fun d => d.elim0⟩

/-- An extended real whose absolute value `max x (-x)` lies below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 word `0x7F800000` denotes `+∞`. -/
theorem ofBits_inf : Ideal.ofBits .f32 0x7F800000#32 = (⊤ : EReal) := by
  simp [Ideal.ofBits, Ideal.ieee]

/-- One entry of the comparison `|x| < +∞` being 1 says that entry of `x` is a real number. -/
theorem real_of_cmp {s : Shape} (hb : Cert.Pre_finite_inputs.S_.BroadcastsInDim s (![] : Fin 0 → Fin s.rank))
    (x : FVec Ideal s .f32) (i : s.Idx)
    (e : cmpf CmpFPredicate.olt (Host.absf x)
      (broadcastInDim s ![] hb (constant Cert.Pre_finite_inputs.S_ .f32 0x7F800000#32)) i = 1#1) :
    ∃ r : ℝ, x i = (r : EReal) := by
  change Ideal.cmp CmpFPredicate.olt (max (x i) (-(x i))) (Ideal.ofBits .f32 0x7F800000#32) = 1#1 at e
  rw [ofBits_inf] at e
  refine real_of_abs_lt_top (x i) ?_
  by_contra hn
  simp [Ideal.cmp, hn] at e

/-- The conjunction of `|x| < +∞` over all entries being 1 says every entry of `x` is a real number. -/
theorem allReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi (cmpf CmpFPredicate.olt (Host.absf x)
        (broadcastInDim s ![] hb (constant Cert.Pre_finite_inputs.S_ .f32 0x7F800000#32)))
      (constantI Cert.Pre_finite_inputs.S_ 1 1#1) hr hu ValueIdx.ix0 = 1#1) :
    AllReal x := fun i =>
  real_of_cmp hb x i (Host.reduce_andi_all _ _ hr hu ValueIdx.ix0 e i)

/-- The precondition on the four arrays: if the conjunction of the four conjunctions of `|·| < +∞` over all entries is 1, every entry of every
    array is a real number. -/
theorem allReal_of_fn [Cert.Pre_finite_inputs.Facts]
    (x0 : (⟨Cert.Pre_finite_inputs.S8x2048x384, .f32⟩ : BufTy).Contents (Elt Ideal))
    (x1 x2 x3 : (⟨Cert.Pre_finite_inputs.S384x64, .f32⟩ : BufTy).Contents (Elt Ideal))
    (h : Cert.Pre_finite_inputs.fn (F := Ideal) x0 x1 x2 x3 = fun _ => 1#1) :
    AllReal x0 ∧ AllReal x1 ∧ AllReal x2 ∧ AllReal x3 := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨allReal_of_all _ _ _ x0 e0, allReal_of_all _ _ _ x1 e1, allReal_of_all _ _ _ x2 e2,
    allReal_of_all _ _ _ x3 e3⟩

/-- The same, for the four argument arrays of a memory of which the precondition holds, on each device. -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3)) :=
  allReal_of_fn _ _ _ _ (h c)

end Cert.AttnFinite

end
-- ==== Proof.lean ====
/-
  Causal attention with the softmax taken over the query axis: a kernel that walks the key tiles of each batch —
  caching the projections at the first tile, then per tile a masked score block per query tile at or below the
  diagonal, a running column maximum, the shifted exponentials and a running column sum, the value tile divided
  by the sums, and the weighted values added into the output block — against the plain formula (project, score,
  mask, column softmax, contract).

  Over the extended reals, with every input finite, the two are one function. A column's maximum and sum over all
  queries are those over the query tiles at or below the column's tile, because the tiles above hold only `-∞`,
  whose exponential is `0`; scaling the query before the score or the score after it is the same product;
  dividing the value row or the weight by the column's sum is the same quotient; and an output row needs only the
  key tiles up to its own, the later ones having weight `0` (Proof/AttnAlgebra.lean). The kernel's result array
  is read off its run: what each point leaves in the output block and the caches, by induction over the points
  of a batch (Proof/KIValue.lean over the four runs of the body); the reference's is its operations read at an
  index (Proof/RefIsSpec.lean).

  The three frames: each kernel program by the launch theorem over its body's runs, the reference by its run.
  The idealization replaced the finite stand-in for `-∞` by `-∞` itself, and a round trip through the narrower
  format by the identity: each is its rule's statement.
-/
import proofs.«422935_j26276609917310_3_alg».proof.Defs
import proofs.«422935_j26276609917310_3_alg».proof.Proof.Gen.Kernel
import proofs.«422935_j26276609917310_3_alg».proof.Proof.Gen.KernelIdeal
import proofs.«422935_j26276609917310_3_alg».proof.Proof.Gen.ReferenceIdeal
import proofs.«422935_j26276609917310_3_alg».proof.Proof.Gen.ReferenceIdeal.Run
import proofs.«422935_j26276609917310_3_alg».proof.Proof.Gen.ReferenceIdeal.Read
import proofs.«422935_j26276609917310_3_alg».proof.Proof.Gen.Pre_finite_inputs
import proofs.«422935_j26276609917310_3_alg».proof.Proof.KBFrame
import proofs.«422935_j26276609917310_3_alg».proof.Proof.KIValue
import proofs.«422935_j26276609917310_3_alg».proof.Proof.RefIsSpec
import proofs.«422935_j26276609917310_3_alg».proof.Proof.AttnAlgebra
import proofs.«422935_j26276609917310_3_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's eight entries: the table gives `"neg_big"` the value `-∞` at each of the four masks, and the four
    round trips through the narrower format are the identity at the ideal instance. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16⟩

/-- The kernel's result array ends at the tile form of the attention output, the reference's at the plain form,
    of arguments that agree; with finite inputs the two forms are equal at every index. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  obtain ⟨hx, hq, hk, hv⟩ := Cert.AttnFinite.allReal_of_pre m hpre c
  funext o
  obtain ⟨b, i, d, rfl⟩ : ∃ (b : Fin 8) (i : Fin 2048) (d : Fin 64), o = ix3 b i d := ⟨o 0, o 1, o 2, eq_ix3 o⟩
  rw [Cert.ReferenceIdeal.RefValue.val_eq_refOut]
  exact (Cert.AttnSpec.tileOut_eq_refOut _ _ _ _ hx hq hk hv b i d).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
